-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_arg4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S10x32 : Shape := ⟨2, ![10, 32]⟩
abbrev S10000x16 : Shape := ⟨2, ![10000, 16]⟩
abbrev S200000 : Shape := ⟨1, ![200000]⟩
abbrev S10000 : Shape := ⟨1, ![10000]⟩
abbrev S_ : Shape := ⟨0, ![]⟩

class Facts : Prop where
  bcast_S_S200000x3 : S_.BroadcastsInDim S200000x3 (![] : Fin 0 → Fin S200000x3.rank)
  reducesTo_S200000x3_S_d0_1 : S200000x3.ReducesTo [0, 1] S_
  h_S_ : 0 < S_.numel
  bcast_S_S10x32 : S_.BroadcastsInDim S10x32 (![] : Fin 0 → Fin S10x32.rank)
  reducesTo_S10x32_S_d0_1 : S10x32.ReducesTo [0, 1] S_
  bcast_S_S10000x16 : S_.BroadcastsInDim S10000x16 (![] : Fin 0 → Fin S10000x16.rank)
  reducesTo_S10000x16_S_d0_1 : S10000x16.ReducesTo [0, 1] S_
  bcast_S_S200000 : S_.BroadcastsInDim S200000 (![] : Fin 0 → Fin S200000.rank)
  reducesTo_S200000_S_d0 : S200000.ReducesTo [0] S_
  bcast_S_S10000 : S_.BroadcastsInDim S10000 (![] : Fin 0 → Fin S10000.rank)
  reducesTo_S10000_S_d0 : S10000.ReducesTo [0] S_

variable [Facts]

def fn_part2 {F : FTy → Type} [FloatOps F] (main_v27 : IVec S_ 1) (main_v32 : IVec S10000x16 1) (main_c_12 : IVec S_ 1) : IVec S_ 1 :=
  let main_v33 : IVec S_ 1 := (fun x v => Host.reduce IntOp.andi x v reducesTo_S10000x16_S_d0_1 h_S_) main_v32 main_c_12
  let main_v34 : IVec S_ 1 := andi main_v27 main_v33
  main_v34

def fn_part1 {F : FTy → Type} [FloatOps F] (main_arg3 : IVec S200000 32) (main_arg4 : IVec S10000 32) (main_arg5 : IVec S10000x16 32) (main_v13 : IVec S_ 1) (main_v15 : IVec S200000 1) (main_c_5 : IVec S_ 32) : IVec S_ 1 :=
  let main_v16 : IVec S200000 32 := broadcastInDim S200000 ![] bcast_S_S200000 main_c_5
  let main_v17 : IVec S200000 1 := cmpi .slt main_arg3 main_v16
  let main_v18 : IVec S200000 1 := andi main_v15 main_v17
  let main_c_6 : IVec S_ 1 := constantI S_ 1 1#1
  let main_v19 : IVec S_ 1 := (fun x v => Host.reduce IntOp.andi x v reducesTo_S200000_S_d0 h_S_) main_v18 main_c_6
  let main_v20 : IVec S_ 1 := andi main_v13 main_v19
  let main_c_7 : IVec S_ 32 := constantI S_ 32 0#32
  let main_v21 : IVec S10000 32 := broadcastInDim S10000 ![] bcast_S_S10000 main_c_7
  let main_v22 : IVec S10000 1 := cmpi .sge main_arg4 main_v21
  let main_c_8 : IVec S_ 32 := constantI S_ 32 200000#32
  let main_v23 : IVec S10000 32 := broadcastInDim S10000 ![] bcast_S_S10000 main_c_8
  let main_v24 : IVec S10000 1 := cmpi .slt main_arg4 main_v23
  let main_v25 : IVec S10000 1 := andi main_v22 main_v24
  let main_c_9 : IVec S_ 1 := constantI S_ 1 1#1
  let main_v26 : IVec S_ 1 := (fun x v => Host.reduce IntOp.andi x v reducesTo_S10000_S_d0 h_S_) main_v25 main_c_9
  let main_v27 : IVec S_ 1 := andi main_v20 main_v26
  let main_c_10 : IVec S_ 32 := constantI S_ 32 0#32
  let main_v28 : IVec S10000x16 32 := broadcastInDim S10000x16 ![] bcast_S_S10000x16 main_c_10
  let main_v29 : IVec S10000x16 1 := cmpi .sge main_arg5 main_v28
  let main_c_11 : IVec S_ 32 := constantI S_ 32 200000#32
  let main_v30 : IVec S10000x16 32 := broadcastInDim S10000x16 ![] bcast_S_S10000x16 main_c_11
  let main_v31 : IVec S10000x16 1 := cmpi .slt main_arg5 main_v30
  let main_v32 : IVec S10000x16 1 := andi main_v29 main_v31
  let main_c_12 : IVec S_ 1 := constantI S_ 1 1#1
  fn_part2 (F := F) main_v27 main_v32 main_c_12

def fn {F : FTy → Type} [FloatOps F] (main_arg0 : FVec F S200000x3 .f32) (main_arg1 : FVec F S10x32 .f32) (main_arg2 : FVec F S10000x16 .f32) (main_arg3 : IVec S200000 32) (main_arg4 : IVec S10000 32) (main_arg5 : IVec S10000x16 32) : IVec S_ 1 :=
  let main_v0 : FVec F S200000x3 .f32 := Host.absf main_arg0
  let main_cst : FVec F S_ .f32 := constant S_ .f32 0x7F800000#32
  let main_v1 : FVec F S200000x3 .f32 := broadcastInDim S200000x3 ![] bcast_S_S200000x3 main_cst
  let main_v2 : IVec S200000x3 1 := cmpf .olt main_v0 main_v1
  let main_c : IVec S_ 1 := constantI S_ 1 1#1
  let main_v3 : IVec S_ 1 := (fun x v => Host.reduce IntOp.andi x v reducesTo_S200000x3_S_d0_1 h_S_) main_v2 main_c
  let main_v4 : FVec F S10x32 .f32 := Host.absf main_arg1
  let main_cst_0 : FVec F S_ .f32 := constant S_ .f32 0x7F800000#32
  let main_v5 : FVec F S10x32 .f32 := broadcastInDim S10x32 ![] bcast_S_S10x32 main_cst_0
  let main_v6 : IVec S10x32 1 := cmpf .olt main_v4 main_v5
  let main_c_1 : IVec S_ 1 := constantI S_ 1 1#1
  let main_v7 : IVec S_ 1 := (fun x v => Host.reduce IntOp.andi x v reducesTo_S10x32_S_d0_1 h_S_) main_v6 main_c_1
  let main_v8 : IVec S_ 1 := andi main_v3 main_v7
  let main_v9 : FVec F S10000x16 .f32 := Host.absf main_arg2
  let main_cst_2 : FVec F S_ .f32 := constant S_ .f32 0x7F800000#32
  let main_v10 : FVec F S10000x16 .f32 := broadcastInDim S10000x16 ![] bcast_S_S10000x16 main_cst_2
  let main_v11 : IVec S10000x16 1 := cmpf .olt main_v9 main_v10
  let main_c_3 : IVec S_ 1 := constantI S_ 1 1#1
  let main_v12 : IVec S_ 1 := (fun x v => Host.reduce IntOp.andi x v reducesTo_S10000x16_S_d0_1 h_S_) main_v11 main_c_3
  let main_v13 : IVec S_ 1 := andi main_v8 main_v12
  let main_c_4 : IVec S_ 32 := constantI S_ 32 0#32
  let main_v14 : IVec S200000 32 := broadcastInDim S200000 ![] bcast_S_S200000 main_c_4
  let main_v15 : IVec S200000 1 := cmpi .sge main_arg3 main_v14
  let main_c_5 : IVec S_ 32 := constantI S_ 32 10#32
  fn_part1 (F := F) main_arg3 main_arg4 main_arg5 main_v13 main_v15 main_c_5
-- ==== Kernel.lean ====
abbrev S200000x3 : Shape := ⟨2, ![200000, 3]⟩
abbrev S10x32 : Shape := ⟨2, ![10, 32]⟩
abbrev S10000x16 : Shape := ⟨2, ![10000, 16]⟩
abbrev S200000 : Shape := ⟨1, ![200000]⟩
abbrev S10000 : Shape := ⟨1, ![10000]⟩
abbrev S_ : Shape := ⟨0, ![]⟩
abbrev S10000x1 : Shape := ⟨2, ![10000, 1]⟩
abbrev S1 : Shape := ⟨1, ![1]⟩
abbrev S1x1 : Shape := ⟨2, ![1, 1]⟩
abbrev S10000x16x1 : Shape := ⟨3, ![10000, 16, 1]⟩
abbrev S1x1x1 : Shape := ⟨3, ![1, 1, 1]⟩
abbrev S10000x32 : Shape := ⟨2, ![10000, 32]⟩
abbrev S10000x16x32 : Shape := ⟨3, ![10000, 16, 32]⟩
abbrev S10000x16x3 : Shape := ⟨3, ![10000, 16, 3]⟩
abbrev S10000x240x99 : Shape := ⟨3, ![10000, 240, 99]⟩
abbrev S80x16 : Shape := ⟨2, ![80, 16]⟩
abbrev S80x16x32 : Shape := ⟨3, ![80, 16, 32]⟩
abbrev S80x32 : Shape := ⟨2, ![80, 32]⟩
abbrev S80x240x99 : Shape := ⟨3, ![80, 240, 99]⟩
abbrev S80x16x1 : Shape := ⟨3, ![80, 16, 1]⟩
abbrev S80x1 : Shape := ⟨2, ![80, 1]⟩
abbrev S80x15 : Shape := ⟨2, ![80, 15]⟩
abbrev S80x15x1 : Shape := ⟨3, ![80, 15, 1]⟩
abbrev S80x1x32 : Shape := ⟨3, ![80, 1, 32]⟩
abbrev S80x15x32 : Shape := ⟨3, ![80, 15, 32]⟩
abbrev S80x15x99 : Shape := ⟨3, ![80, 15, 99]⟩
abbrev S80x14 : Shape := ⟨2, ![80, 14]⟩
abbrev S80x14x32 : Shape := ⟨3, ![80, 14, 32]⟩
abbrev S80x2 : Shape := ⟨2, ![80, 2]⟩
abbrev S80x13 : Shape := ⟨2, ![80, 13]⟩
abbrev S80x2x32 : Shape := ⟨3, ![80, 2, 32]⟩
abbrev S80x13x32 : Shape := ⟨3, ![80, 13, 32]⟩
abbrev S80x3 : Shape := ⟨2, ![80, 3]⟩
abbrev S80x12 : Shape := ⟨2, ![80, 12]⟩
abbrev S80x3x32 : Shape := ⟨3, ![80, 3, 32]⟩
abbrev S80x12x32 : Shape := ⟨3, ![80, 12, 32]⟩
abbrev S80x4 : Shape := ⟨2, ![80, 4]⟩
abbrev S80x11 : Shape := ⟨2, ![80, 11]⟩
abbrev S80x4x32 : Shape := ⟨3, ![80, 4, 32]⟩
abbrev S80x11x32 : Shape := ⟨3, ![80, 11, 32]⟩
abbrev S80x5 : Shape := ⟨2, ![80, 5]⟩
abbrev S80x10 : Shape := ⟨2, ![80, 10]⟩
abbrev S80x5x32 : Shape := ⟨3, ![80, 5, 32]⟩
abbrev S80x10x32 : Shape := ⟨3, ![80, 10, 32]⟩
abbrev S80x6 : Shape := ⟨2, ![80, 6]⟩
abbrev S80x9 : Shape := ⟨2, ![80, 9]⟩
abbrev S80x6x32 : Shape := ⟨3, ![80, 6, 32]⟩
abbrev S80x9x32 : Shape := ⟨3, ![80, 9, 32]⟩
abbrev S80x7 : Shape := ⟨2, ![80, 7]⟩
abbrev S80x8 : Shape := ⟨2, ![80, 8]⟩
abbrev S80x7x32 : Shape := ⟨3, ![80, 7, 32]⟩
abbrev S80x8x32 : Shape := ⟨3, ![80, 8, 32]⟩
abbrev S80x120x99 : Shape := ⟨3, ![80, 120, 99]⟩

abbrev nBuf : Space → Nat
  | .hbm => 126
  | .vmem => 14
  | .smem => 0
  | _ => 0

abbrev bufTy : (tb : Table) → Fin (tcTables nBuf tb) → BufTy
  | .hbm, ⟨0, _⟩ => ⟨S200000x3, .f32⟩
  | .hbm, ⟨1, _⟩ => ⟨S10x32, .f32⟩
  | .hbm, ⟨2, _⟩ => ⟨S10000x16, .f32⟩
  | .hbm, ⟨3, _⟩ => ⟨S200000, .i32⟩
  | .hbm, ⟨4, _⟩ => ⟨S10000, .i32⟩
  | .hbm, ⟨5, _⟩ => ⟨S10000x16, .i32⟩
  | .hbm, ⟨6, _⟩ => ⟨S_, .i32⟩
  | .hbm, ⟨7, _⟩ => ⟨S10000, .i32⟩
  | .hbm, ⟨8, _⟩ => ⟨S10000, .i1⟩
  | .hbm, ⟨9, _⟩ => ⟨S_, .i32⟩
  | .hbm, ⟨10, _⟩ => ⟨S10000, .i32⟩
  | .hbm, ⟨11, _⟩ => ⟨S10000, .i32⟩
  | .hbm, ⟨12, _⟩ => ⟨S10000, .i32⟩
  | .hbm, ⟨13, _⟩ => ⟨S10000x1, .i32⟩
  | .hbm, ⟨14, _⟩ => ⟨S1, .i32⟩
  | .hbm, ⟨15, _⟩ => ⟨S_, .i32⟩
  | .hbm, ⟨16, _⟩ => ⟨S10000x1, .i32⟩
  | .hbm, ⟨17, _⟩ => ⟨S10000x1, .i1⟩
  | .hbm, ⟨18, _⟩ => ⟨S1x1, .i32⟩
  | .hbm, ⟨19, _⟩ => ⟨S10000x1, .i32⟩
  | .hbm, ⟨20, _⟩ => ⟨S10000x1, .i1⟩
  | .hbm, ⟨21, _⟩ => ⟨S10000x1, .i1⟩
  | .hbm, ⟨22, _⟩ => ⟨S_, .i1⟩
  | .hbm, ⟨23, _⟩ => ⟨S10000, .i1⟩
  | .hbm, ⟨24, _⟩ => ⟨S10000, .i32⟩
  | .hbm, ⟨25, _⟩ => ⟨S_, .i32⟩
  | .hbm, ⟨26, _⟩ => ⟨S10000, .i32⟩
  | .hbm, ⟨27, _⟩ => ⟨S10000, .i32⟩
  | .hbm, ⟨28, _⟩ => ⟨S_, .i32⟩
  | .hbm, ⟨29, _⟩ => ⟨S10000x16, .i32⟩
  | .hbm, ⟨30, _⟩ => ⟨S10000x16, .i1⟩
  | .hbm, ⟨31, _⟩ => ⟨S_, .i32⟩
  | .hbm, ⟨32, _⟩ => ⟨S10000x16, .i32⟩
  | .hbm, ⟨33, _⟩ => ⟨S10000x16, .i32⟩
  | .hbm, ⟨34, _⟩ => ⟨S10000x16, .i32⟩
  | .hbm, ⟨35, _⟩ => ⟨S10000x16x1, .i32⟩
  | .hbm, ⟨36, _⟩ => ⟨S1, .i32⟩
  | .hbm, ⟨37, _⟩ => ⟨S_, .i32⟩
  | .hbm, ⟨38, _⟩ => ⟨S10000x16x1, .i32⟩
  | .hbm, ⟨39, _⟩ => ⟨S10000x16x1, .i1⟩
  | .hbm, ⟨40, _⟩ => ⟨S1x1x1, .i32⟩
  | .hbm, ⟨41, _⟩ => ⟨S10000x16x1, .i32⟩
  | .hbm, ⟨42, _⟩ => ⟨S10000x16x1, .i1⟩
  | .hbm, ⟨43, _⟩ => ⟨S10000x16x1, .i1⟩
  | .hbm, ⟨44, _⟩ => ⟨S_, .i1⟩
  | .hbm, ⟨45, _⟩ => ⟨S10000x16, .i1⟩
  | .hbm, ⟨46, _⟩ => ⟨S10000x16, .i32⟩
  | .hbm, ⟨47, _⟩ => ⟨S_, .i32⟩
  | .hbm, ⟨48, _⟩ => ⟨S10000x16, .i32⟩
  | .hbm, ⟨49, _⟩ => ⟨S10000x16, .i32⟩
  | .hbm, ⟨50, _⟩ => ⟨S_, .i32⟩
  | .hbm, ⟨51, _⟩ => ⟨S10000, .i32⟩
  | .hbm, ⟨52, _⟩ => ⟨S10000, .i1⟩
  | .hbm, ⟨53, _⟩ => ⟨S_, .i32⟩
  | .hbm, ⟨54, _⟩ => ⟨S10000, .i32⟩
  | .hbm, ⟨55, _⟩ => ⟨S10000, .i32⟩
  | .hbm, ⟨56, _⟩ => ⟨S10000, .i32⟩
  | .hbm, ⟨57, _⟩ => ⟨S10000x1, .i32⟩
  | .hbm, ⟨58, _⟩ => ⟨S1, .i32⟩
  | .hbm, ⟨59, _⟩ => ⟨S_, .i32⟩
  | .hbm, ⟨60, _⟩ => ⟨S10000x1, .i32⟩
  | .hbm, ⟨61, _⟩ => ⟨S10000x1, .i1⟩
  | .hbm, ⟨62, _⟩ => ⟨S1x1, .i32⟩
  | .hbm, ⟨63, _⟩ => ⟨S10000x1, .i32⟩
  | .hbm, ⟨64, _⟩ => ⟨S10000x1, .i1⟩
  | .hbm, ⟨65, _⟩ => ⟨S10000x1, .i1⟩
  | .hbm, ⟨66, _⟩ => ⟨S_, .i1⟩
  | .hbm, ⟨67, _⟩ => ⟨S10000, .i1⟩
  | .hbm, ⟨68, _⟩ => ⟨S10000x32, .f32⟩
  | .hbm, ⟨69, _⟩ => ⟨S10000x32, .i1⟩
  | .hbm, ⟨70, _⟩ => ⟨S_, .f32⟩
  | .hbm, ⟨71, _⟩ => ⟨S10000x32, .f32⟩
  | .hbm, ⟨72, _⟩ => ⟨S10000x32, .f32⟩
  | .hbm, ⟨73, _⟩ => ⟨S_, .i32⟩
  | .hbm, ⟨74, _⟩ => ⟨S10000x16, .i32⟩
  | .hbm, ⟨75, _⟩ => ⟨S10000x16, .i1⟩
  | .hbm, ⟨76, _⟩ => ⟨S_, .i32⟩
  | .hbm, ⟨77, _⟩ => ⟨S10000x16, .i32⟩
  | .hbm, ⟨78, _⟩ => ⟨S10000x16, .i32⟩
  | .hbm, ⟨79, _⟩ => ⟨S10000x16, .i32⟩
  | .hbm, ⟨80, _⟩ => ⟨S10000x16x1, .i32⟩
  | .hbm, ⟨81, _⟩ => ⟨S1, .i32⟩
  | .hbm, ⟨82, _⟩ => ⟨S_, .i32⟩
  | .hbm, ⟨83, _⟩ => ⟨S10000x16x1, .i32⟩
  | .hbm, ⟨84, _⟩ => ⟨S10000x16x1, .i1⟩
  | .hbm, ⟨85, _⟩ => ⟨S1x1x1, .i32⟩
  | .hbm, ⟨86, _⟩ => ⟨S10000x16x1, .i32⟩
  | .hbm, ⟨87, _⟩ => ⟨S10000x16x1, .i1⟩
  | .hbm, ⟨88, _⟩ => ⟨S10000x16x1, .i1⟩
  | .hbm, ⟨89, _⟩ => ⟨S_, .i1⟩
  | .hbm, ⟨90, _⟩ => ⟨S10000x16, .i1⟩
  | .hbm, ⟨91, _⟩ => ⟨S10000x16x32, .f32⟩
  | .hbm, ⟨92, _⟩ => ⟨S10000x16x32, .i1⟩
  | .hbm, ⟨93, _⟩ => ⟨S_, .f32⟩
  | .hbm, ⟨94, _⟩ => ⟨S10000x16x32, .f32⟩
  | .hbm, ⟨95, _⟩ => ⟨S10000x16x32, .f32⟩
  | .hbm, ⟨96, _⟩ => ⟨S_, .i32⟩
  | .hbm, ⟨97, _⟩ => ⟨S10000x16, .i32⟩
  | .hbm, ⟨98, _⟩ => ⟨S10000x16, .i1⟩
  | .hbm, ⟨99, _⟩ => ⟨S_, .i32⟩
  | .hbm, ⟨100, _⟩ => ⟨S10000x16, .i32⟩
  | .hbm, ⟨101, _⟩ => ⟨S10000x16, .i32⟩
  | .hbm, ⟨102, _⟩ => ⟨S10000x16, .i32⟩
  | .hbm, ⟨103, _⟩ => ⟨S10000x16x1, .i32⟩
  | .hbm, ⟨104, _⟩ => ⟨S1, .i32⟩
  | .hbm, ⟨105, _⟩ => ⟨S_, .i32⟩
  | .hbm, ⟨106, _⟩ => ⟨S10000x16x1, .i32⟩
  | .hbm, ⟨107, _⟩ => ⟨S10000x16x1, .i1⟩
  | .hbm, ⟨108, _⟩ => ⟨S1x1x1, .i32⟩
  | .hbm, ⟨109, _⟩ => ⟨S10000x16x1, .i32⟩
  | .hbm, ⟨110, _⟩ => ⟨S10000x16x1, .i1⟩
  | .hbm, ⟨111, _⟩ => ⟨S10000x16x1, .i1⟩
  | .hbm, ⟨112, _⟩ => ⟨S_, .i1⟩
  | .hbm, ⟨113, _⟩ => ⟨S10000x16, .i1⟩
  | .hbm, ⟨114, _⟩ => ⟨S10000x16x3, .f32⟩
  | .hbm, ⟨115, _⟩ => ⟨S10000x16x3, .i1⟩
  | .hbm, ⟨116, _⟩ => ⟨S_, .f32⟩
  | .hbm, ⟨117, _⟩ => ⟨S10000x16x3, .f32⟩
  | .hbm, ⟨118, _⟩ => ⟨S10000x16x3, .f32⟩
  | .hbm, ⟨119, _⟩ => ⟨S10000x16x1, .f32⟩
  | .hbm, ⟨120, _⟩ => ⟨S10000x16, .f32⟩
  | .hbm, ⟨121, _⟩ => ⟨S10000x16x1, .f32⟩
  | .hbm, ⟨122, _⟩ => ⟨S10000x16, .f32⟩
  | .hbm, ⟨123, _⟩ => ⟨S10000x16x1, .f32⟩
  | .hbm, ⟨124, _⟩ => ⟨S10000x16, .f32⟩
  | .hbm, ⟨125, _⟩ => ⟨S10000x240x99, .f32⟩
  | .local _ .vmem, ⟨0, _⟩ => ⟨S80x16, .f32⟩
  | .local _ .vmem, ⟨1, _⟩ => ⟨S80x16, .f32⟩
  | .local _ .vmem, ⟨2, _⟩ => ⟨S80x16, .f32⟩
  | .local _ .vmem, ⟨3, _⟩ => ⟨S80x16, .f32⟩
  | .local _ .vmem, ⟨4, _⟩ => ⟨S80x16, .f32⟩
  | .local _ .vmem, ⟨5, _⟩ => ⟨S80x16, .f32⟩
  | .local _ .vmem, ⟨6, _⟩ => ⟨S80x16, .f32⟩
  | .local _ .vmem, ⟨7, _⟩ => ⟨S80x16, .f32⟩
  | .local _ .vmem, ⟨8, _⟩ => ⟨S80x16x32, .f32⟩
  | .local _ .vmem, ⟨9, _⟩ => ⟨S80x16x32, .f32⟩
  | .local _ .vmem, ⟨10, _⟩ => ⟨S80x32, .f32⟩
  | .local _ .vmem, ⟨11, _⟩ => ⟨S80x32, .f32⟩
  | .local _ .vmem, ⟨12, _⟩ => ⟨S80x240x99, .f32⟩
  | .local _ .vmem, ⟨13, _⟩ => ⟨S80x240x99, .f32⟩
  | _, _ => ⟨S200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_c_4 : Ref sig .tc := ⟨.hbm, 25, rfl⟩
abbrev main_call0_v14 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_c_4 : Ref sig .tc := ⟨.hbm, 47, rfl⟩
abbrev main_call1_v14 : Ref sig .tc := ⟨.hbm, 48, rfl⟩
abbrev main_v1 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_call2_cst : Ref sig .tc := ⟨.hbm, 70, rfl⟩
abbrev main_call2_v15 : Ref sig .tc := ⟨.hbm, 71, rfl⟩
abbrev main_v2 : Ref sig .tc := ⟨.hbm, 72, rfl⟩
abbrev main_call3_c : Ref sig .tc := ⟨.hbm, 73, rfl⟩
abbrev main_call3_v0 : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_c_1 : Ref sig .tc := ⟨.hbm, 81, rfl⟩
abbrev main_call3_c_2 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_3 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_call3_cst : Ref sig .tc := ⟨.hbm, 93, rfl⟩
abbrev main_call3_v15 : Ref sig .tc := ⟨.hbm, 94, rfl⟩
abbrev main_v3 : Ref sig .tc := ⟨.hbm, 95, rfl⟩
abbrev main_call4_c : Ref sig .tc := ⟨.hbm, 96, rfl⟩
abbrev main_call4_v0 : Ref sig .tc := ⟨.hbm, 97, rfl⟩
abbrev main_call4_v1 : Ref sig .tc := ⟨.hbm, 98, rfl⟩
abbrev main_call4_c_0 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_v5 : Ref sig .tc := ⟨.hbm, 103, rfl⟩
abbrev main_call4_c_1 : Ref sig .tc := ⟨.hbm, 104, rfl⟩
abbrev main_call4_c_2 : Ref sig .tc := ⟨.hbm, 105, rfl⟩
abbrev main_call4_v6 : Ref sig .tc := ⟨.hbm, 106, rfl⟩
abbrev main_call4_v7 : Ref sig .tc := ⟨.hbm, 107, rfl⟩
abbrev main_call4_v8 : Ref sig .tc := ⟨.hbm, 108, rfl⟩
abbrev main_call4_v9 : Ref sig .tc := ⟨.hbm, 109, rfl⟩
abbrev main_call4_v10 : Ref sig .tc := ⟨.hbm, 110, rfl⟩
abbrev main_call4_v11 : Ref sig .tc := ⟨.hbm, 111, rfl⟩
abbrev main_call4_c_3 : Ref sig .tc := ⟨.hbm, 112, rfl⟩
abbrev main_call4_v12 : Ref sig .tc := ⟨.hbm, 113, rfl⟩
abbrev main_call4_v13 : Ref sig .tc := ⟨.hbm, 114, rfl⟩
abbrev main_call4_v14 : Ref sig .tc := ⟨.hbm, 115, rfl⟩
abbrev main_call4_cst : Ref sig .tc := ⟨.hbm, 116, rfl⟩
abbrev main_call4_v15 : Ref sig .tc := ⟨.hbm, 117, rfl⟩
abbrev main_v4 : Ref sig .tc := ⟨.hbm, 118, rfl⟩
abbrev main_v5 : Ref sig .tc := ⟨.hbm, 119, rfl⟩
abbrev main_v6 : Ref sig .tc := ⟨.hbm, 120, rfl⟩
abbrev main_v7 : Ref sig .tc := ⟨.hbm, 121, rfl⟩
abbrev main_v8 : Ref sig .tc := ⟨.hbm, 122, rfl⟩
abbrev main_v9 : Ref sig .tc := ⟨.hbm, 123, rfl⟩
abbrev main_v10 : Ref sig .tc := ⟨.hbm, 124, rfl⟩
abbrev main_v11 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S80x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x16x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S80x240x99 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  reducesTo_S10000x1_S10000_d1 : S10000x1.ReducesTo [1] S10000
  h_S_ : 0 < S_.numel
  bcast_S_S10000x16 : S_.BroadcastsInDim S10000x16 (![] : Fin 0 → Fin S10000x16.rank)
  bcast_S10000x16_S10000x16x1_0_1 : S10000x16.BroadcastsInDim S10000x16x1 (![0, 1] : Fin 2 → Fin S10000x16x1.rank)
  bcast_S_S10000x16x1 : S_.BroadcastsInDim S10000x16x1 (![] : Fin 0 → Fin S10000x16x1.rank)
  bcast_S1_S1x1x1_2 : S1.BroadcastsInDim S1x1x1 (![2] : Fin 1 → Fin S1x1x1.rank)
  bcast_S1x1x1_S10000x16x1_0_1_2 : S1x1x1.BroadcastsInDim S10000x16x1 (![0, 1, 2] : Fin 3 → Fin S10000x16x1.rank)
  reducesTo_S10000x16x1_S10000x16_d2 : S10000x16x1.ReducesTo [2] S10000x16
  bcast_S10000_S10000x32_0 : S10000.BroadcastsInDim S10000x32 (![0] : Fin 1 → Fin S10000x32.rank)
  bcast_S_S10000x32 : S_.BroadcastsInDim S10000x32 (![] : Fin 0 → Fin S10000x32.rank)
  bcast_S10000x16_S10000x16x32_0_1 : S10000x16.BroadcastsInDim S10000x16x32 (![0, 1] : Fin 2 → Fin S10000x16x32.rank)
  bcast_S_S10000x16x32 : S_.BroadcastsInDim S10000x16x32 (![] : Fin 0 → Fin S10000x16x32.rank)
  bcast_S10000x16_S10000x16x3_0_1 : S10000x16.BroadcastsInDim S10000x16x3 (![0, 1] : Fin 2 → Fin S10000x16x3.rank)
  bcast_S_S10000x16x3 : S_.BroadcastsInDim S10000x16x3 (![] : Fin 0 → Fin S10000x16x3.rank)
  slices_S10000x16x3_S10000x16x1_0_0_0 : S10000x16x3.Slices ![0, 0, 0] S10000x16x1
  shapeCasts_S10000x16x1_S10000x16 : S10000x16x1.ShapeCasts S10000x16
  slices_S10000x16x3_S10000x16x1_0_0_1 : S10000x16x3.Slices ![0, 0, 1] S10000x16x1
  slices_S10000x16x3_S10000x16x1_0_0_2 : S10000x16x3.Slices ![0, 0, 2] S10000x16x1
  inb_S80x16_S80x16_0_0 : ∀ a, (![0, 0] : Fin 2 → Nat) a + S80x16.size a ≤ S80x16.size a
  h_S80x16 : 0 < S80x16.numel
  shapeCasts_S80x16_S80x16 : S80x16.ShapeCasts S80x16
  inb_S80x16x32_S80x16x32_0_0_0 : ∀ a, (![0, 0, 0] : Fin 3 → Nat) a + S80x16x32.size a ≤ S80x16x32.size a
  h_S80x16x32 : 0 < S80x16x32.numel
  shapeCasts_S80x16x32_S80x16x32 : S80x16x32.ShapeCasts S80x16x32
  inb_S80x32_S80x32_0_0 : ∀ a, (![0, 0] : Fin 2 → Nat) a + S80x32.size a ≤ S80x32.size a
  h_S80x32 : 0 < S80x32.numel
  shapeCasts_S80x32_S80x32 : S80x32.ShapeCasts S80x32
  shapeCasts_S80x16_S80x16x1 : S80x16.ShapeCasts S80x16x1
  broadcasts_S80x16x1_S80x16x32 : S80x16x1.Broadcasts S80x16x32
  slices_S80x16_o0_0_S80x1 : S80x16.Slices ![0, 0] S80x1
  slices_S80x16_o0_1_S80x15 : S80x16.Slices ![0, 1] S80x15
  broadcasts_S80x1_S80x15 : S80x1.Broadcasts S80x15
  shapeCasts_S80x1_S80x1 : S80x1.ShapeCasts S80x1
  shapeCasts_S80x15_S80x15x1 : S80x15.ShapeCasts S80x15x1
  shapeCasts_S80x32_S80x1x32 : S80x32.ShapeCasts S80x1x32
  shapeCasts_S80x1x32_S80x1x32 : S80x1x32.ShapeCasts S80x1x32
  broadcasts_S80x1x32_S80x15x32 : S80x1x32.Broadcasts S80x15x32
  slices_S80x16x32_o0_0_0_S80x1x32 : S80x16x32.Slices ![0, 0, 0] S80x1x32
  shapeCasts_S80x1x32_S80x32 : S80x1x32.ShapeCasts S80x32
  slices_S80x16x32_o0_1_0_S80x15x32 : S80x16x32.Slices ![0, 1, 0] S80x15x32
  concatenates_S80x15x1_S80x15x1_S80x15x1_S80x15x32_S80x15x32_S80x15x32_S80x15x99_d2 : Shape.Concatenates [S80x15x1, S80x15x1, S80x15x1, S80x15x32, S80x15x32, S80x15x32] S80x15x99 2
  slices_S80x16_o0_1_S80x1 : S80x16.Slices ![0, 1] S80x1
  slices_S80x16_o0_2_S80x14 : S80x16.Slices ![0, 2] S80x14
  concatenates_S80x1_S80x14_S80x15_d1 : Shape.Concatenates [S80x1, S80x14] S80x15 1
  slices_S80x16x32_o0_1_0_S80x1x32 : S80x16x32.Slices ![0, 1, 0] S80x1x32
  slices_S80x16x32_o0_2_0_S80x14x32 : S80x16x32.Slices ![0, 2, 0] S80x14x32
  concatenates_S80x1x32_S80x14x32_S80x15x32_d1 : Shape.Concatenates [S80x1x32, S80x14x32] S80x15x32 1
  slices_S80x16_o0_2_S80x1 : S80x16.Slices ![0, 2] S80x1
  slices_S80x16_o0_0_S80x2 : S80x16.Slices ![0, 0] S80x2
  slices_S80x16_o0_3_S80x13 : S80x16.Slices ![0, 3] S80x13
  concatenates_S80x2_S80x13_S80x15_d1 : Shape.Concatenates [S80x2, S80x13] S80x15 1
  slices_S80x16x32_o0_2_0_S80x1x32 : S80x16x32.Slices ![0, 2, 0] S80x1x32
  slices_S80x16x32_o0_0_0_S80x2x32 : S80x16x32.Slices ![0, 0, 0] S80x2x32
  slices_S80x16x32_o0_3_0_S80x13x32 : S80x16x32.Slices ![0, 3, 0] S80x13x32
  concatenates_S80x2x32_S80x13x32_S80x15x32_d1 : Shape.Concatenates [S80x2x32, S80x13x32] S80x15x32 1
  slices_S80x16_o0_3_S80x1 : S80x16.Slices ![0, 3] S80x1
  slices_S80x16_o0_0_S80x3 : S80x16.Slices ![0, 0] S80x3
  slices_S80x16_o0_4_S80x12 : S80x16.Slices ![0, 4] S80x12
  concatenates_S80x3_S80x12_S80x15_d1 : Shape.Concatenates [S80x3, S80x12] S80x15 1
  slices_S80x16x32_o0_3_0_S80x1x32 : S80x16x32.Slices ![0, 3, 0] S80x1x32
  slices_S80x16x32_o0_0_0_S80x3x32 : S80x16x32.Slices ![0, 0, 0] S80x3x32
  slices_S80x16x32_o0_4_0_S80x12x32 : S80x16x32.Slices ![0, 4, 0] S80x12x32
  concatenates_S80x3x32_S80x12x32_S80x15x32_d1 : Shape.Concatenates [S80x3x32, S80x12x32] S80x15x32 1
  slices_S80x16_o0_4_S80x1 : S80x16.Slices ![0, 4] S80x1
  slices_S80x16_o0_0_S80x4 : S80x16.Slices ![0, 0] S80x4
  slices_S80x16_o0_5_S80x11 : S80x16.Slices ![0, 5] S80x11
  concatenates_S80x4_S80x11_S80x15_d1 : Shape.Concatenates [S80x4, S80x11] S80x15 1
  slices_S80x16x32_o0_4_0_S80x1x32 : S80x16x32.Slices ![0, 4, 0] S80x1x32
  slices_S80x16x32_o0_0_0_S80x4x32 : S80x16x32.Slices ![0, 0, 0] S80x4x32
  slices_S80x16x32_o0_5_0_S80x11x32 : S80x16x32.Slices ![0, 5, 0] S80x11x32
  concatenates_S80x4x32_S80x11x32_S80x15x32_d1 : Shape.Concatenates [S80x4x32, S80x11x32] S80x15x32 1
  slices_S80x16_o0_5_S80x1 : S80x16.Slices ![0, 5] S80x1
  slices_S80x16_o0_0_S80x5 : S80x16.Slices ![0, 0] S80x5
  slices_S80x16_o0_6_S80x10 : S80x16.Slices ![0, 6] S80x10
  concatenates_S80x5_S80x10_S80x15_d1 : Shape.Concatenates [S80x5, S80x10] S80x15 1
  slices_S80x16x32_o0_5_0_S80x1x32 : S80x16x32.Slices ![0, 5, 0] S80x1x32
  slices_S80x16x32_o0_0_0_S80x5x32 : S80x16x32.Slices ![0, 0, 0] S80x5x32
  slices_S80x16x32_o0_6_0_S80x10x32 : S80x16x32.Slices ![0, 6, 0] S80x10x32
  concatenates_S80x5x32_S80x10x32_S80x15x32_d1 : Shape.Concatenates [S80x5x32, S80x10x32] S80x15x32 1
  slices_S80x16_o0_6_S80x1 : S80x16.Slices ![0, 6] S80x1
  slices_S80x16_o0_0_S80x6 : S80x16.Slices ![0, 0] S80x6
  slices_S80x16_o0_7_S80x9 : S80x16.Slices ![0, 7] S80x9
  concatenates_S80x6_S80x9_S80x15_d1 : Shape.Concatenates [S80x6, S80x9] S80x15 1
  slices_S80x16x32_o0_6_0_S80x1x32 : S80x16x32.Slices ![0, 6, 0] S80x1x32
  slices_S80x16x32_o0_0_0_S80x6x32 : S80x16x32.Slices ![0, 0, 0] S80x6x32
  slices_S80x16x32_o0_7_0_S80x9x32 : S80x16x32.Slices ![0, 7, 0] S80x9x32
  concatenates_S80x6x32_S80x9x32_S80x15x32_d1 : Shape.Concatenates [S80x6x32, S80x9x32] S80x15x32 1
  slices_S80x16_o0_7_S80x1 : S80x16.Slices ![0, 7] S80x1
  slices_S80x16_o0_0_S80x7 : S80x16.Slices ![0, 0] S80x7
  slices_S80x16_o0_8_S80x8 : S80x16.Slices ![0, 8] S80x8
  concatenates_S80x7_S80x8_S80x15_d1 : Shape.Concatenates [S80x7, S80x8] S80x15 1
  slices_S80x16x32_o0_7_0_S80x1x32 : S80x16x32.Slices ![0, 7, 0] S80x1x32
  slices_S80x16x32_o0_0_0_S80x7x32 : S80x16x32.Slices ![0, 0, 0] S80x7x32
  slices_S80x16x32_o0_8_0_S80x8x32 : S80x16x32.Slices ![0, 8, 0] S80x8x32
  concatenates_S80x7x32_S80x8x32_S80x15x32_d1 : Shape.Concatenates [S80x7x32, S80x8x32] S80x15x32 1
  concatenates_S80x15x99_S80x15x99_S80x15x99_S80x15x99_S80x15x99_S80x15x99_S80x15x99_S80x15x99_S80x120x99_d1 : Shape.Concatenates [S80x15x99, S80x15x99, S80x15x99, S80x15x99, S80x15x99, S80x15x99, S80x15x99, S80x15x99] S80x120x99 1
  inb_S80x240x99_S80x120x99_0_0_0 : ∀ a, (![0, 0, 0] : Fin 3 → Nat) a + S80x120x99.size a ≤ S80x240x99.size a
  h_S80x120x99 : 0 < S80x120x99.numel
  slices_S80x16_o0_8_S80x1 : S80x16.Slices ![0, 8] S80x1
  slices_S80x16_o0_0_S80x8 : S80x16.Slices ![0, 0] S80x8
  slices_S80x16_o0_9_S80x7 : S80x16.Slices ![0, 9] S80x7
  concatenates_S80x8_S80x7_S80x15_d1 : Shape.Concatenates [S80x8, S80x7] S80x15 1
  slices_S80x16x32_o0_8_0_S80x1x32 : S80x16x32.Slices ![0, 8, 0] S80x1x32
  slices_S80x16x32_o0_0_0_S80x8x32 : S80x16x32.Slices ![0, 0, 0] S80x8x32
  slices_S80x16x32_o0_9_0_S80x7x32 : S80x16x32.Slices ![0, 9, 0] S80x7x32
  concatenates_S80x8x32_S80x7x32_S80x15x32_d1 : Shape.Concatenates [S80x8x32, S80x7x32] S80x15x32 1
  slices_S80x16_o0_9_S80x1 : S80x16.Slices ![0, 9] S80x1
  slices_S80x16_o0_0_S80x9 : S80x16.Slices ![0, 0] S80x9
  slices_S80x16_o0_10_S80x6 : S80x16.Slices ![0, 10] S80x6
  concatenates_S80x9_S80x6_S80x15_d1 : Shape.Concatenates [S80x9, S80x6] S80x15 1
  slices_S80x16x32_o0_9_0_S80x1x32 : S80x16x32.Slices ![0, 9, 0] S80x1x32
  slices_S80x16x32_o0_0_0_S80x9x32 : S80x16x32.Slices ![0, 0, 0] S80x9x32
  slices_S80x16x32_o0_10_0_S80x6x32 : S80x16x32.Slices ![0, 10, 0] S80x6x32
  concatenates_S80x9x32_S80x6x32_S80x15x32_d1 : Shape.Concatenates [S80x9x32, S80x6x32] S80x15x32 1
  slices_S80x16_o0_10_S80x1 : S80x16.Slices ![0, 10] S80x1
  slices_S80x16_o0_0_S80x10 : S80x16.Slices ![0, 0] S80x10
  slices_S80x16_o0_11_S80x5 : S80x16.Slices ![0, 11] S80x5
  concatenates_S80x10_S80x5_S80x15_d1 : Shape.Concatenates [S80x10, S80x5] S80x15 1
  slices_S80x16x32_o0_10_0_S80x1x32 : S80x16x32.Slices ![0, 10, 0] S80x1x32
  slices_S80x16x32_o0_0_0_S80x10x32 : S80x16x32.Slices ![0, 0, 0] S80x10x32
  slices_S80x16x32_o0_11_0_S80x5x32 : S80x16x32.Slices ![0, 11, 0] S80x5x32
  concatenates_S80x10x32_S80x5x32_S80x15x32_d1 : Shape.Concatenates [S80x10x32, S80x5x32] S80x15x32 1
  slices_S80x16_o0_11_S80x1 : S80x16.Slices ![0, 11] S80x1
  slices_S80x16_o0_0_S80x11 : S80x16.Slices ![0, 0] S80x11
  slices_S80x16_o0_12_S80x4 : S80x16.Slices ![0, 12] S80x4
  concatenates_S80x11_S80x4_S80x15_d1 : Shape.Concatenates [S80x11, S80x4] S80x15 1
  slices_S80x16x32_o0_11_0_S80x1x32 : S80x16x32.Slices ![0, 11, 0] S80x1x32
  slices_S80x16x32_o0_0_0_S80x11x32 : S80x16x32.Slices ![0, 0, 0] S80x11x32
  slices_S80x16x32_o0_12_0_S80x4x32 : S80x16x32.Slices ![0, 12, 0] S80x4x32
  concatenates_S80x11x32_S80x4x32_S80x15x32_d1 : Shape.Concatenates [S80x11x32, S80x4x32] S80x15x32 1
  slices_S80x16_o0_12_S80x1 : S80x16.Slices ![0, 12] S80x1
  slices_S80x16_o0_0_S80x12 : S80x16.Slices ![0, 0] S80x12
  slices_S80x16_o0_13_S80x3 : S80x16.Slices ![0, 13] S80x3
  concatenates_S80x12_S80x3_S80x15_d1 : Shape.Concatenates [S80x12, S80x3] S80x15 1
  slices_S80x16x32_o0_12_0_S80x1x32 : S80x16x32.Slices ![0, 12, 0] S80x1x32
  slices_S80x16x32_o0_0_0_S80x12x32 : S80x16x32.Slices ![0, 0, 0] S80x12x32
  slices_S80x16x32_o0_13_0_S80x3x32 : S80x16x32.Slices ![0, 13, 0] S80x3x32
  concatenates_S80x12x32_S80x3x32_S80x15x32_d1 : Shape.Concatenates [S80x12x32, S80x3x32] S80x15x32 1
  slices_S80x16_o0_13_S80x1 : S80x16.Slices ![0, 13] S80x1
  slices_S80x16_o0_0_S80x13 : S80x16.Slices ![0, 0] S80x13
  slices_S80x16_o0_14_S80x2 : S80x16.Slices ![0, 14] S80x2
  concatenates_S80x13_S80x2_S80x15_d1 : Shape.Concatenates [S80x13, S80x2] S80x15 1
  slices_S80x16x32_o0_13_0_S80x1x32 : S80x16x32.Slices ![0, 13, 0] S80x1x32
  slices_S80x16x32_o0_0_0_S80x13x32 : S80x16x32.Slices ![0, 0, 0] S80x13x32
  slices_S80x16x32_o0_14_0_S80x2x32 : S80x16x32.Slices ![0, 14, 0] S80x2x32
  concatenates_S80x13x32_S80x2x32_S80x15x32_d1 : Shape.Concatenates [S80x13x32, S80x2x32] S80x15x32 1
  slices_S80x16_o0_14_S80x1 : S80x16.Slices ![0, 14] S80x1
  slices_S80x16_o0_0_S80x14 : S80x16.Slices ![0, 0] S80x14
  slices_S80x16_o0_15_S80x1 : S80x16.Slices ![0, 15] S80x1
  concatenates_S80x14_S80x1_S80x15_d1 : Shape.Concatenates [S80x14, S80x1] S80x15 1
  slices_S80x16x32_o0_14_0_S80x1x32 : S80x16x32.Slices ![0, 14, 0] S80x1x32
  slices_S80x16x32_o0_0_0_S80x14x32 : S80x16x32.Slices ![0, 0, 0] S80x14x32
  slices_S80x16x32_o0_15_0_S80x1x32 : S80x16x32.Slices ![0, 15, 0] S80x1x32
  concatenates_S80x14x32_S80x1x32_S80x15x32_d1 : Shape.Concatenates [S80x14x32, S80x1x32] S80x15x32 1
  slices_S80x16_o0_0_S80x15 : S80x16.Slices ![0, 0] S80x15
  slices_S80x16x32_o0_0_0_S80x15x32 : S80x16x32.Slices ![0, 0, 0] S80x15x32
  inb_S80x240x99_S80x120x99_0_120_0 : ∀ a, (![0, 120, 0] : Fin 3 → Nat) a + S80x120x99.size a ≤ S80x240x99.size a
  gather_S200000_S10000x1_S10000_n_0_n_n_0_1_1_wf : GatherDims.WF S200000 S10000x1 S10000 [] [0] [] [0] [] 1 ![1]
  gather_S200000_S10000x16x1_S10000x16_n_0_n_n_0_2_1_wf : GatherDims.WF S200000 S10000x16x1 S10000x16 [] [0] [] [0] [] 2 ![1]
  gather_S10x32_S10000x1_S10000x32_1_0_n_n_0_1_132_wf : GatherDims.WF S10x32 S10000x1 S10000x32 [1] [0] [] [0] [] 1 ![1, 32]
  gather_S10x32_S10000x16x1_S10000x16x32_2_0_n_n_0_2_132_wf : GatherDims.WF S10x32 S10000x16x1 S10000x16x32 [2] [0] [] [0] [] 2 ![1, 32]
  gather_S200000x3_S10000x16x1_S10000x16x3_2_0_n_n_0_2_13_wf : GatherDims.WF S200000x3 S10000x16x1 S10000x16x3 [2] [0] [] [0] [] 2 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x16.size a ≤ S10000x16.size a
  hwx0_0 : ∀ i : grid0.Coords, EltTy.bits .f32 = 32 ∨ (Rect.block (s := S10000x16) S80x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S80x16.size a ≤ S10000x16.size a
  hwx0_1 : ∀ i : grid0.Coords, EltTy.bits .f32 = 32 ∨ (Rect.block (s := S10000x16) S80x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x16.size a ≤ S10000x16.size a
  hwx0_2 : ∀ i : grid0.Coords, EltTy.bits .f32 = 32 ∨ (Rect.block (s := S10000x16) S80x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S80x16.size a ≤ S10000x16.size a
  hwx0_3 : ∀ i : grid0.Coords, EltTy.bits .f32 = 32 ∨ (Rect.block (s := S10000x16) S80x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x16x32.size a ≤ S10000x16x32.size a
  hwx0_4 : ∀ i : grid0.Coords, EltTy.bits .f32 = 32 ∨ (Rect.block (s := S10000x16x32) S80x16x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S80x32.size a ≤ S10000x32.size a
  hwx0_5 : ∀ i : grid0.Coords, EltTy.bits .f32 = 32 ∨ (Rect.block (s := S10000x32) S80x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S80x240x99.size a ≤ S10000x240x99.size a
  hwx0_6 : ∀ i : grid0.Coords, EltTy.bits .f32 = 32 ∨ (Rect.block (s := S10000x240x99) S80x240x99.size (cc0_transform_6 i) (hinb0_6 i)).WholeWords (EltTy.packing .f32)

variable [Facts₀]

def gather_S200000_S10000x1_S10000_n_0_n_n_0_1_1 : GatherDims S200000 S10000x1 S10000 where
  offsetDims := []
  collapsedSliceDims := [0]
  operandBatchingDims := []
  startIndicesBatchingDims := []
  startIndexMap := [0]
  indexVectorDim := 1
  sliceSizes := ![1]
  wf := gather_S200000_S10000x1_S10000_n_0_n_n_0_1_1_wf
def gather_S200000_S10000x16x1_S10000x16_n_0_n_n_0_2_1 : GatherDims S200000 S10000x16x1 S10000x16 where
  offsetDims := []
  collapsedSliceDims := [0]
  operandBatchingDims := []
  startIndicesBatchingDims := []
  startIndexMap := [0]
  indexVectorDim := 2
  sliceSizes := ![1]
  wf := gather_S200000_S10000x16x1_S10000x16_n_0_n_n_0_2_1_wf
def gather_S10x32_S10000x1_S10000x32_1_0_n_n_0_1_132 : GatherDims S10x32 S10000x1 S10000x32 where
  offsetDims := [1]
  collapsedSliceDims := [0]
  operandBatchingDims := []
  startIndicesBatchingDims := []
  startIndexMap := [0]
  indexVectorDim := 1
  sliceSizes := ![1, 32]
  wf := gather_S10x32_S10000x1_S10000x32_1_0_n_n_0_1_132_wf
def gather_S10x32_S10000x16x1_S10000x16x32_2_0_n_n_0_2_132 : GatherDims S10x32 S10000x16x1 S10000x16x32 where
  offsetDims := [2]
  collapsedSliceDims := [0]
  operandBatchingDims := []
  startIndicesBatchingDims := []
  startIndexMap := [0]
  indexVectorDim := 2
  sliceSizes := ![1, 32]
  wf := gather_S10x32_S10000x16x1_S10000x16x32_2_0_n_n_0_2_132_wf
def gather_S200000x3_S10000x16x1_S10000x16x3_2_0_n_n_0_2_13 : GatherDims S200000x3 S10000x16x1 S10000x16x3 where
  offsetDims := [2]
  collapsedSliceDims := [0]
  operandBatchingDims := []
  startIndicesBatchingDims := []
  startIndexMap := [0]
  indexVectorDim := 2
  sliceSizes := ![1, 3]
  wf := gather_S200000x3_S10000x16x1_S10000x16x3_2_0_n_n_0_2_13_wf

abbrev win0_0 : Pipeline.Window sig grid0 :=
  Pipeline.Window.ofSpec (Memref.whole main_arg2) S80x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S80x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S80x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S80x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S80x16x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S80x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S80x240x99.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S200000x3 : Shape := ⟨2, ![200000, 3]⟩
abbrev S10x32 : Shape := ⟨2, ![10, 32]⟩
abbrev S10000x16 : Shape := ⟨2, ![10000, 16]⟩
abbrev S200000 : Shape := ⟨1, ![200000]⟩
abbrev S10000 : Shape := ⟨1, ![10000]⟩
abbrev S240 : Shape := ⟨1, ![240]⟩
abbrev S10000x16x1 : Shape := ⟨3, ![10000, 16, 1]⟩
abbrev S10000x1x16 : Shape := ⟨3, ![10000, 1, 16]⟩
abbrev S_ : Shape := ⟨0, ![]⟩
abbrev S10000x16x3 : Shape := ⟨3, ![10000, 16, 3]⟩
abbrev S10000x16x1x3 : Shape := ⟨4, ![10000, 16, 1, 3]⟩
abbrev S10000x1x16x3 : Shape := ⟨4, ![10000, 1, 16, 3]⟩
abbrev S10000x16x16x3 : Shape := ⟨4, ![10000, 16, 16, 3]⟩
abbrev S10000x16x16 : Shape := ⟨3, ![10000, 16, 16]⟩
abbrev S200000x1 : Shape := ⟨2, ![200000, 1]⟩
abbrev S200000x32 : Shape := ⟨2, ![200000, 32]⟩
abbrev S10000x1 : Shape := ⟨2, ![10000, 1]⟩
abbrev S10000x32 : Shape := ⟨2, ![10000, 32]⟩
abbrev S10000x16x32 : Shape := ⟨3, ![10000, 16, 32]⟩
abbrev S10000x16x1x1 : Shape := ⟨4, ![10000, 16, 1, 1]⟩
abbrev S10000x16x16x1 : Shape := ⟨4, ![10000, 16, 16, 1]⟩
abbrev S10000x1x16x1 : Shape := ⟨4, ![10000, 1, 16, 1]⟩
abbrev S10000x1x1x32 : Shape := ⟨4, ![10000, 1, 1, 32]⟩
abbrev S10000x16x16x32 : Shape := ⟨4, ![10000, 16, 16, 32]⟩
abbrev S10000x16x1x32 : Shape := ⟨4, ![10000, 16, 1, 32]⟩
abbrev S10000x1x16x32 : Shape := ⟨4, ![10000, 1, 16, 32]⟩
abbrev S10000x16x16x99 : Shape := ⟨4, ![10000, 16, 16, 99]⟩
abbrev S10000x256x99 : Shape := ⟨3, ![10000, 256, 99]⟩
abbrev S240x1 : Shape := ⟨2, ![240, 1]⟩
abbrev S10000x240x99 : Shape := ⟨3, ![10000, 240, 99]⟩

abbrev nBuf : Space → Nat
  | .hbm => 90
  | .vmem => 0
  | .smem => 0
  | _ => 0

abbrev bufTy : (tb : Table) → Fin (tcTables nBuf tb) → BufTy
  | .hbm, ⟨0, _⟩ => ⟨S200000x3, .f32⟩
  | .hbm, ⟨1, _⟩ => ⟨S10x32, .f32⟩
  | .hbm, ⟨2, _⟩ => ⟨S10000x16, .f32⟩
  | .hbm, ⟨3, _⟩ => ⟨S200000, .i32⟩
  | .hbm, ⟨4, _⟩ => ⟨S10000, .i32⟩
  | .hbm, ⟨5, _⟩ => ⟨S10000x16, .i32⟩
  | .hbm, ⟨6, _⟩ => ⟨S240, .i32⟩
  | .hbm, ⟨7, _⟩ => ⟨S240, .i1⟩
  | .hbm, ⟨8, _⟩ => ⟨S10000x16x1, .f32⟩
  | .hbm, ⟨9, _⟩ => ⟨S10000x1x16, .f32⟩
  | .hbm, ⟨10, _⟩ => ⟨S_, .i32⟩
  | .hbm, ⟨11, _⟩ => ⟨S10000x16, .i32⟩
  | .hbm, ⟨12, _⟩ => ⟨S10000x16, .i1⟩
  | .hbm, ⟨13, _⟩ => ⟨S_, .i32⟩
  | .hbm, ⟨14, _⟩ => ⟨S10000x16, .i32⟩
  | .hbm, ⟨15, _⟩ => ⟨S10000x16, .i32⟩
  | .hbm, ⟨16, _⟩ => ⟨S10000x16, .i32⟩
  | .hbm, ⟨17, _⟩ => ⟨S10000x16x1, .i32⟩
  | .hbm, ⟨18, _⟩ => ⟨S10000x16x3, .f32⟩
  | .hbm, ⟨19, _⟩ => ⟨S10000x16x1x3, .f32⟩
  | .hbm, ⟨20, _⟩ => ⟨S10000x1x16x3, .f32⟩
  | .hbm, ⟨21, _⟩ => ⟨S10000x16x16x3, .f32⟩
  | .hbm, ⟨22, _⟩ => ⟨S10000x16x16x3, .f32⟩
  | .hbm, ⟨23, _⟩ => ⟨S10000x16x16x3, .f32⟩
  | .hbm, ⟨24, _⟩ => ⟨S10000x16x16x3, .f32⟩
  | .hbm, ⟨25, _⟩ => ⟨S_, .f32⟩
  | .hbm, ⟨26, _⟩ => ⟨S10000x16x16, .f32⟩
  | .hbm, ⟨27, _⟩ => ⟨S10000x16x16, .f32⟩
  | .hbm, ⟨28, _⟩ => ⟨S10000x16x16, .f32⟩
  | .hbm, ⟨29, _⟩ => ⟨S10000x16x16, .f32⟩
  | .hbm, ⟨30, _⟩ => ⟨S10000x16x16, .f32⟩
  | .hbm, ⟨31, _⟩ => ⟨S10000x16x16, .f32⟩
  | .hbm, ⟨32, _⟩ => ⟨S10000x16x16, .f32⟩
  | .hbm, ⟨33, _⟩ => ⟨S10000x16x16, .f32⟩
  | .hbm, ⟨34, _⟩ => ⟨S10000x16x16, .f32⟩
  | .hbm, ⟨35, _⟩ => ⟨S10000x16x16, .f32⟩
  | .hbm, ⟨36, _⟩ => ⟨S_, .f32⟩
  | .hbm, ⟨37, _⟩ => ⟨S10000x16x16, .f32⟩
  | .hbm, ⟨38, _⟩ => ⟨S10000x16x16, .f32⟩
  | .hbm, ⟨39, _⟩ => ⟨S10000x16x16, .f32⟩
  | .hbm, ⟨40, _⟩ => ⟨S_, .i32⟩
  | .hbm, ⟨41, _⟩ => ⟨S200000, .i32⟩
  | .hbm, ⟨42, _⟩ => ⟨S200000, .i1⟩
  | .hbm, ⟨43, _⟩ => ⟨S_, .i32⟩
  | .hbm, ⟨44, _⟩ => ⟨S200000, .i32⟩
  | .hbm, ⟨45, _⟩ => ⟨S200000, .i32⟩
  | .hbm, ⟨46, _⟩ => ⟨S200000, .i32⟩
  | .hbm, ⟨47, _⟩ => ⟨S200000x1, .i32⟩
  | .hbm, ⟨48, _⟩ => ⟨S200000x32, .f32⟩
  | .hbm, ⟨49, _⟩ => ⟨S_, .i32⟩
  | .hbm, ⟨50, _⟩ => ⟨S10000, .i32⟩
  | .hbm, ⟨51, _⟩ => ⟨S10000, .i1⟩
  | .hbm, ⟨52, _⟩ => ⟨S_, .i32⟩
  | .hbm, ⟨53, _⟩ => ⟨S10000, .i32⟩
  | .hbm, ⟨54, _⟩ => ⟨S10000, .i32⟩
  | .hbm, ⟨55, _⟩ => ⟨S10000, .i32⟩
  | .hbm, ⟨56, _⟩ => ⟨S10000x1, .i32⟩
  | .hbm, ⟨57, _⟩ => ⟨S10000x32, .f32⟩
  | .hbm, ⟨58, _⟩ => ⟨S_, .i32⟩
  | .hbm, ⟨59, _⟩ => ⟨S10000x16, .i32⟩
  | .hbm, ⟨60, _⟩ => ⟨S10000x16, .i1⟩
  | .hbm, ⟨61, _⟩ => ⟨S_, .i32⟩
  | .hbm, ⟨62, _⟩ => ⟨S10000x16, .i32⟩
  | .hbm, ⟨63, _⟩ => ⟨S10000x16, .i32⟩
  | .hbm, ⟨64, _⟩ => ⟨S10000x16, .i32⟩
  | .hbm, ⟨65, _⟩ => ⟨S10000x16x1, .i32⟩
  | .hbm, ⟨66, _⟩ => ⟨S10000x16x32, .f32⟩
  | .hbm, ⟨67, _⟩ => ⟨S10000x16x1x1, .f32⟩
  | .hbm, ⟨68, _⟩ => ⟨S10000x16x16x1, .f32⟩
  | .hbm, ⟨69, _⟩ => ⟨S10000x1x16x1, .f32⟩
  | .hbm, ⟨70, _⟩ => ⟨S10000x16x16x1, .f32⟩
  | .hbm, ⟨71, _⟩ => ⟨S10000x16x16x1, .f32⟩
  | .hbm, ⟨72, _⟩ => ⟨S10000x1x1x32, .f32⟩
  | .hbm, ⟨73, _⟩ => ⟨S10000x16x16x32, .f32⟩
  | .hbm, ⟨74, _⟩ => ⟨S10000x16x1x32, .f32⟩
  | .hbm, ⟨75, _⟩ => ⟨S10000x16x16x32, .f32⟩
  | .hbm, ⟨76, _⟩ => ⟨S10000x16x16x32, .f32⟩
  | .hbm, ⟨77, _⟩ => ⟨S10000x16x16x32, .f32⟩
  | .hbm, ⟨78, _⟩ => ⟨S10000x1x16x32, .f32⟩
  | .hbm, ⟨79, _⟩ => ⟨S10000x16x16x32, .f32⟩
  | .hbm, ⟨80, _⟩ => ⟨S10000x16x16x32, .f32⟩
  | .hbm, ⟨81, _⟩ => ⟨S10000x16x16x32, .f32⟩
  | .hbm, ⟨82, _⟩ => ⟨S10000x16x16x99, .f32⟩
  | .hbm, ⟨83, _⟩ => ⟨S10000x256x99, .f32⟩
  | .hbm, ⟨84, _⟩ => ⟨S_, .i32⟩
  | .hbm, ⟨85, _⟩ => ⟨S240, .i32⟩
  | .hbm, ⟨86, _⟩ => ⟨S240, .i32⟩
  | .hbm, ⟨87, _⟩ => ⟨S240, .i32⟩
  | .hbm, ⟨88, _⟩ => ⟨S240x1, .i32⟩
  | .hbm, ⟨89, _⟩ => ⟨S10000x240x99, .f32⟩
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_8 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c_10 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]

class Facts₀ : Prop where
  bcast_S10000x16_S10000x16x1_0_1 : S10000x16.BroadcastsInDim S10000x16x1 (![0, 1] : Fin 2 → Fin S10000x16x1.rank)
  bcast_S10000x16_S10000x1x16_0_2 : S10000x16.BroadcastsInDim S10000x1x16 (![0, 2] : Fin 2 → Fin S10000x1x16.rank)
  bcast_S_S10000x16 : S_.BroadcastsInDim S10000x16 (![] : Fin 0 → Fin S10000x16.rank)
  bcast_S10000x16x3_S10000x16x1x3_0_1_3 : S10000x16x3.BroadcastsInDim S10000x16x1x3 (![0, 1, 3] : Fin 3 → Fin S10000x16x1x3.rank)
  bcast_S10000x16x3_S10000x1x16x3_0_2_3 : S10000x16x3.BroadcastsInDim S10000x1x16x3 (![0, 2, 3] : Fin 3 → Fin S10000x1x16x3.rank)
  bcast_S10000x16x1x3_S10000x16x16x3_0_1_2_3 : S10000x16x1x3.BroadcastsInDim S10000x16x16x3 (![0, 1, 2, 3] : Fin 4 → Fin S10000x16x16x3.rank)
  bcast_S10000x1x16x3_S10000x16x16x3_0_1_2_3 : S10000x1x16x3.BroadcastsInDim S10000x16x16x3 (![0, 1, 2, 3] : Fin 4 → Fin S10000x16x16x3.rank)
  reducesTo_S10000x16x16x3_S10000x16x16_d3 : S10000x16x16x3.ReducesTo [3] S10000x16x16
  h_S_ : 0 < S_.numel
  bcast_S10000x16x1_S10000x16x16_0_1_2 : S10000x16x1.BroadcastsInDim S10000x16x16 (![0, 1, 2] : Fin 3 → Fin S10000x16x16.rank)
  bcast_S10000x1x16_S10000x16x16_0_1_2 : S10000x1x16.BroadcastsInDim S10000x16x16 (![0, 1, 2] : Fin 3 → Fin S10000x16x16.rank)
  bcast_S_S10000x16x16 : S_.BroadcastsInDim S10000x16x16 (![] : Fin 0 → Fin S10000x16x16.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x16x1_S10000x16x1x1_0_1_2 : S10000x16x1.BroadcastsInDim S10000x16x1x1 (![0, 1, 2] : Fin 3 → Fin S10000x16x1x1.rank)
  bcast_S10000x16x1x1_S10000x16x16x1_0_1_2_3 : S10000x16x1x1.BroadcastsInDim S10000x16x16x1 (![0, 1, 2, 3] : Fin 4 → Fin S10000x16x16x1.rank)
  bcast_S10000x1x16_S10000x1x16x1_0_1_2 : S10000x1x16.BroadcastsInDim S10000x1x16x1 (![0, 1, 2] : Fin 3 → Fin S10000x1x16x1.rank)
  bcast_S10000x1x16x1_S10000x16x16x1_0_1_2_3 : S10000x1x16x1.BroadcastsInDim S10000x16x16x1 (![0, 1, 2, 3] : Fin 4 → Fin S10000x16x16x1.rank)
  bcast_S10000x16x16_S10000x16x16x1_0_1_2 : S10000x16x16.BroadcastsInDim S10000x16x16x1 (![0, 1, 2] : Fin 3 → Fin S10000x16x16x1.rank)
  bcast_S10000x32_S10000x1x1x32_0_3 : S10000x32.BroadcastsInDim S10000x1x1x32 (![0, 3] : Fin 2 → Fin S10000x1x1x32.rank)
  bcast_S10000x1x1x32_S10000x16x16x32_0_1_2_3 : S10000x1x1x32.BroadcastsInDim S10000x16x16x32 (![0, 1, 2, 3] : Fin 4 → Fin S10000x16x16x32.rank)
  bcast_S10000x16x32_S10000x16x1x32_0_1_3 : S10000x16x32.BroadcastsInDim S10000x16x1x32 (![0, 1, 3] : Fin 3 → Fin S10000x16x1x32.rank)
  bcast_S10000x16x1x32_S10000x16x16x32_0_1_2_3 : S10000x16x1x32.BroadcastsInDim S10000x16x16x32 (![0, 1, 2, 3] : Fin 4 → Fin S10000x16x16x32.rank)
  bcast_S10000x16x16x1_S10000x16x16x32_0_1_2_3 : S10000x16x16x1.BroadcastsInDim S10000x16x16x32 (![0, 1, 2, 3] : Fin 4 → Fin S10000x16x16x32.rank)
  bcast_S10000x16x32_S10000x1x16x32_0_2_3 : S10000x16x32.BroadcastsInDim S10000x1x16x32 (![0, 2, 3] : Fin 3 → Fin S10000x1x16x32.rank)
  bcast_S10000x1x16x32_S10000x16x16x32_0_1_2_3 : S10000x1x16x32.BroadcastsInDim S10000x16x16x32 (![0, 1, 2, 3] : Fin 4 → Fin S10000x16x16x32.rank)
  concatenates_S10000x16x16x1_S10000x16x16x1_S10000x16x16x1_S10000x16x16x32_S10000x16x16x32_S10000x16x16x32_S10000x16x16x99_d3 : Shape.Concatenates [S10000x16x16x1, S10000x16x16x1, S10000x16x16x1, S10000x16x16x32, S10000x16x16x32, S10000x16x16x32] S10000x16x16x99 3
  shapeCasts_S10000x16x16x99_S10000x256x99 : S10000x16x16x99.ShapeCasts S10000x256x99
  bcast_S_S240 : S_.BroadcastsInDim S240 (![] : Fin 0 → Fin S240.rank)
  bcast_S240_S240x1_0 : S240.BroadcastsInDim S240x1 (![0] : Fin 1 → Fin S240x1.rank)
  gather_S200000x3_S10000x16x1_S10000x16x3_2_0_n_n_0_2_13_wf : GatherDims.WF S200000x3 S10000x16x1 S10000x16x3 [2] [0] [] [0] [] 2 ![1, 3]
  gather_S10x32_S200000x1_S200000x32_1_0_n_n_0_1_132_wf : GatherDims.WF S10x32 S200000x1 S200000x32 [1] [0] [] [0] [] 1 ![1, 32]
  gather_S200000x32_S10000x1_S10000x32_1_0_n_n_0_1_132_wf : GatherDims.WF S200000x32 S10000x1 S10000x32 [1] [0] [] [0] [] 1 ![1, 32]
  gather_S200000x32_S10000x16x1_S10000x16x32_2_0_n_n_0_2_132_wf : GatherDims.WF S200000x32 S10000x16x1 S10000x16x32 [2] [0] [] [0] [] 2 ![1, 32]
  gather_S10000x256x99_S240x1_S10000x240x99_02_1_n_n_1_1_10000199_wf : GatherDims.WF S10000x256x99 S240x1 S10000x240x99 [0, 2] [1] [] [1] [] 1 ![10000, 1, 99]

variable [Facts₀]

def gather_S200000x3_S10000x16x1_S10000x16x3_2_0_n_n_0_2_13 : GatherDims S200000x3 S10000x16x1 S10000x16x3 where
  offsetDims := [2]
  collapsedSliceDims := [0]
  operandBatchingDims := []
  startIndicesBatchingDims := []
  startIndexMap := [0]
  indexVectorDim := 2
  sliceSizes := ![1, 3]
  wf := gather_S200000x3_S10000x16x1_S10000x16x3_2_0_n_n_0_2_13_wf
def gather_S10x32_S200000x1_S200000x32_1_0_n_n_0_1_132 : GatherDims S10x32 S200000x1 S200000x32 where
  offsetDims := [1]
  collapsedSliceDims := [0]
  operandBatchingDims := []
  startIndicesBatchingDims := []
  startIndexMap := [0]
  indexVectorDim := 1
  sliceSizes := ![1, 32]
  wf := gather_S10x32_S200000x1_S200000x32_1_0_n_n_0_1_132_wf
def gather_S200000x32_S10000x1_S10000x32_1_0_n_n_0_1_132 : GatherDims S200000x32 S10000x1 S10000x32 where
  offsetDims := [1]
  collapsedSliceDims := [0]
  operandBatchingDims := []
  startIndicesBatchingDims := []
  startIndexMap := [0]
  indexVectorDim := 1
  sliceSizes := ![1, 32]
  wf := gather_S200000x32_S10000x1_S10000x32_1_0_n_n_0_1_132_wf
def gather_S200000x32_S10000x16x1_S10000x16x32_2_0_n_n_0_2_132 : GatherDims S200000x32 S10000x16x1 S10000x16x32 where
  offsetDims := [2]
  collapsedSliceDims := [0]
  operandBatchingDims := []
  startIndicesBatchingDims := []
  startIndexMap := [0]
  indexVectorDim := 2
  sliceSizes := ![1, 32]
  wf := gather_S200000x32_S10000x16x1_S10000x16x32_2_0_n_n_0_2_132_wf
def gather_S10000x256x99_S240x1_S10000x240x99_02_1_n_n_1_1_10000199 : GatherDims S10000x256x99 S240x1 S10000x240x99 where
  offsetDims := [0, 2]
  collapsedSliceDims := [1]
  operandBatchingDims := []
  startIndicesBatchingDims := []
  startIndexMap := [1]
  indexVectorDim := 1
  sliceSizes := ![10000, 1, 99]
  wf := gather_S10000x256x99_S240x1_S10000x240x99_02_1_n_n_1_1_10000199_wf

class Facts : Prop extends Facts₀ where

variable [Facts]
-- ==== Proof.Spec.lean ====
/-
  The angular descriptor, as one function of the gathered arrays.

  For a centre atom c with 16 neighbours, entry (c, p, f) of the result describes the ordered pair (j, k) of
  distinct neighbours that position p names: j = p / 15 and k is the (p % 15)-th neighbour once j is left out
  (`skip`).  With d the centre-to-neighbour distances, (x, y, z) the neighbours' coordinates, e the neighbours'
  embedding rows and ei the centre's embedding row, the 99 features are
    f = 0        d(c, j)
    f = 1        d(c, k)
    f = 2        the normalised third side  (|r_j - r_k| - max(d_j, d_k) + min(d_j, d_k)) / (2 min(d_j, d_k))
    3 ≤ f < 35   ei(c, f - 3)
    35 ≤ f < 67  e(c, j, f - 35) / d(c, j)
    67 ≤ f < 99  e(c, k, f - 67) / d(c, k).
  The third side is a parameter (`sd`): the two programs spell its squared length differently.
  The gathered arrays themselves are rows of the inputs chosen by integer tables; a table entry inside its range
  names the row it says (`rowOf`).
-/
import Idealize.ShloMosaic.PureOps
import Idealize.ShloMosaic.Lib.ValueIdx

noncomputable section

namespace Cert.Angle

open Idealize.ShloMosaic Idealize.ShloMosaic.ValueIdx

variable {F : FTy → Type} [FloatOps F]

/-- The q-th of the sixteen neighbours once neighbour a is left out. -/
def skip (a q : ℕ) : ℕ := if q < a then q else q + 1

theorem skip_lt {a q : ℕ} (hq : q < 15) : skip a q < 16 := by unfold skip; split <;> omega

theorem skip_ne (a q : ℕ) : skip a q ≠ a := by unfold skip; split <;> omega

theorem skip_of_lt {a q : ℕ} (h : q < a) : skip a q = q := if_pos h

theorem skip_of_le {a q : ℕ} (h : a ≤ q) : skip a q = q + 1 := if_neg (Nat.not_lt.2 h)

/-- The normalised third side as the kernel computes it: the squared length is ((xk - xa)² + (yk - ya)²) + (zk - za)². -/
def sideK (two da dk xa ya za xk yk zk : F .f32) : F .f32 :=
  FloatOps.divf
    (FloatOps.addf
      (FloatOps.subf
        (FloatOps.sqrt
          (FloatOps.addf
            (FloatOps.addf (FloatOps.mulf (FloatOps.subf xk xa) (FloatOps.subf xk xa))
              (FloatOps.mulf (FloatOps.subf yk ya) (FloatOps.subf yk ya)))
            (FloatOps.mulf (FloatOps.subf zk za) (FloatOps.subf zk za))))
        (FloatOps.maximumf da dk))
      (FloatOps.minimumf da dk))
    (FloatOps.mulf two (FloatOps.minimumf da dk))

/-- Feature f of the pair (a, k) of neighbours of row r. -/
def entry {R : ℕ} (sd : F .f32 → F .f32 → F .f32 → F .f32 → F .f32 → F .f32 → F .f32 → F .f32 → F .f32)
    (d x y z : FVec F ⟨2, ![R, 16]⟩ .f32) (e : FVec F ⟨3, ![R, 16, 32]⟩ .f32) (ei : FVec F ⟨2, ![R, 32]⟩ .f32)
    (r : Fin R) (a k : Fin 16) (f : ℕ) : F .f32 :=
  if f = 0 then d (ix2 r a)
  else if f = 1 then d (ix2 r k)
  else if f = 2 then
    sd (d (ix2 r a)) (d (ix2 r k)) (x (ix2 r a)) (y (ix2 r a)) (z (ix2 r a)) (x (ix2 r k)) (y (ix2 r k)) (z (ix2 r k))
  else if f < 35 then ei (ix2 r ⟨(f - 3) % 32, Nat.mod_lt _ (by decide)⟩)
  else if f < 67 then FloatOps.divf (e (ix3 r a ⟨(f - 35) % 32, Nat.mod_lt _ (by decide)⟩)) (d (ix2 r a))
  else FloatOps.divf (e (ix3 r k ⟨(f - 67) % 32, Nat.mod_lt _ (by decide)⟩)) (d (ix2 r k))

/-- The first neighbour of the pair at position p. -/
def fstOf (p : ℕ) (hp : p < 240) : Fin 16 := ⟨p / 15, by omega⟩

/-- The second neighbour of the pair at position p. -/
def sndOf (p : ℕ) (hp : p < 240) : Fin 16 := ⟨skip (p / 15) (p % 15), skip_lt (Nat.mod_lt _ (by decide))⟩

/-- The whole descriptor over R rows. -/
def desc {R : ℕ} (sd : F .f32 → F .f32 → F .f32 → F .f32 → F .f32 → F .f32 → F .f32 → F .f32 → F .f32)
    (d x y z : FVec F ⟨2, ![R, 16]⟩ .f32) (e : FVec F ⟨3, ![R, 16, 32]⟩ .f32) (ei : FVec F ⟨2, ![R, 32]⟩ .f32) :
    FVec F ⟨3, ![R, 240, 99]⟩ .f32 := fun i =>
  entry sd d x y z e ei ⟨(i 0).val, (i 0).isLt⟩ (fstOf (i 1).val (i 1).isLt) (sndOf (i 1).val (i 1).isLt) (i 2).val

/-! ## Rows named by integer tables -/

/-- A table entry, read signed, names a row of an array of N rows. -/
def InRange (N : ℕ) (w : BitVec 32) : Prop := 0 ≤ w.toInt ∧ w.toInt < (N : ℤ)

/-- The row a table entry names (any entry is brought inside the array; an entry in range is itself). -/
def rowOf (N : ℕ) (hN : 0 < N) (w : BitVec 32) : Fin N := ⟨min w.toInt.toNat (N - 1), by omega⟩

theorem rowOf_val_of_inRange {N : ℕ} (hN : 0 < N) {w : BitVec 32} (h : InRange N w) : ((rowOf N hN w : Fin N) : ℕ) = w.toInt.toNat := by
  obtain ⟨h0, h1⟩ := h
  show min w.toInt.toNat (N - 1) = w.toInt.toNat
  have : w.toInt.toNat < N := by omega
  omega

/-- Coordinate k of each centre's neighbours. -/
def coord (xyz : FVec F ⟨2, ![200000, 3]⟩ .f32) (jidx : IVec ⟨2, ![10000, 16]⟩ 32) (k : Fin 3) :
    FVec F ⟨2, ![10000, 16]⟩ .f32 :=
  fun i => xyz (ix2 (rowOf 200000 (by decide) (jidx i)) k)

/-- The type of atom n. -/
def typeOf (types : IVec ⟨1, ![200000]⟩ 32) (n : BitVec 32) : Fin 10 :=
  rowOf 10 (by decide) (types (ix1 (rowOf 200000 (by decide) n)))

/-- The embedding rows of each centre's neighbours. -/
def embJ (emb : FVec F ⟨2, ![10, 32]⟩ .f32) (types : IVec ⟨1, ![200000]⟩ 32) (jidx : IVec ⟨2, ![10000, 16]⟩ 32) :
    FVec F ⟨3, ![10000, 16, 32]⟩ .f32 :=
  fun i => emb (ix2 (typeOf types (jidx (ix2 (i 0) (i 1)))) (i 2))

/-- The embedding row of each centre. -/
def embI (emb : FVec F ⟨2, ![10, 32]⟩ .f32) (types : IVec ⟨1, ![200000]⟩ 32) (iidx : IVec ⟨1, ![10000]⟩ 32) :
    FVec F ⟨2, ![10000, 32]⟩ .f32 :=
  fun i => emb (ix2 (typeOf types (iidx (ix1 (i 0)))) (i 1))

end Cert.Angle

end
-- ==== Proof.PreFacts.lean ====
/-
  What the precondition says of the inputs: every coordinate of atoms_xyz is a real number, and every entry of the three
  integer tables names a row of the array it indexes (atom types in [0, 10), atom indices in [0, 200000)).

  The precondition is a conjunction of six "for every index" tests, each an and-reduction of a 0/1 array down to one
  word.  A conjunction of 0/1 words is 1 exactly when each word is 1, and an and-reduction is 1 only when every element
  is 1, so each test holds at every index.  The first test reads |x| < +∞ at every coordinate x: of the three kinds of
  extended real, −∞ and +∞ have |x| = +∞, so x is a real.  Each of the last three reads 0 ≤ w and w < N, both signed,
  at every table entry w: that is InRange N w, since the constants 0 and N are small enough to read as themselves signed.
-/
import proofs.«408688_j81827716923455_3_alg».proof.Pre_finite_inputs
import proofs.«408688_j81827716923455_3_alg».proof.Proof.Spec
import Idealize.ShloMosaic.PureOps.Ideal
import Idealize.ShloMosaic.Lib.ReduceAll
import Idealize.ShloMosaic.Lib.StableHlo.Predicate

noncomputable section

namespace Cert.Angle

open Idealize.ShloMosaic

/-- The rank-0 shape has one index. -/
instance : Subsingleton Cert.Pre_finite_inputs.S_.Idx := ⟨fun a b => funext fun d => d.elim0⟩

/-- The pattern 0x7F800000 denotes +∞. -/
theorem ofBits_inf : Ideal.ofBits .f32 0x7F800000#32 = ⊤ := by simp [Ideal.ofBits, Ideal.ieee]

/-- An extended real whose absolute value is below +∞ is a real: |−∞| = |+∞| = +∞. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- The finiteness test at one value: |x| < +∞, compared as the precondition compares it, makes x a real. -/
theorem real_of_test (x : Ideal .f32)
    (h : FloatOps.cmpf .olt (FloatOps.hostAbsf x) (FloatOps.ofBits (F := Ideal) .f32 0x7F800000#32) = 1#1) :
    ∃ r : ℝ, x = ((r : ℝ) : EReal) := by
  have h' : Ideal.cmp .olt (max (x : EReal) (-(x : EReal))) (Ideal.ofBits .f32 0x7F800000#32) = 1#1 := h
  rw [ofBits_inf] at h'
  unfold Ideal.cmp at h'
  rw [StableHlo.Predicate.ofBool_eq_one_iff] at h'
  exact real_of_abs_lt_top x (of_decide_eq_true h')

/-- The range test at one word: 0 ≤ w and w < N, both signed, with N below 2³¹. -/
theorem inRange_of_test (N : ℕ) (hN : N < 2 ^ 31) (w : BitVec 32)
    (h : IntOp.andi (IntOp.cmpi .sge w 0#32) (IntOp.cmpi .slt w (BitVec.ofNat 32 N)) = 1#1) : InRange N w := by
  obtain ⟨h0, h1⟩ := IntOp.andi_eq_one.1 h
  rw [IntOp.cmpi_sge] at h0
  rw [IntOp.cmpi_slt, StableHlo.Predicate.toInt_ofNat_small N hN] at h1
  have z : (0#32 : BitVec 32).toInt = 0 := by decide
  rw [z] at h0
  exact ⟨h0, h1⟩

theorem pre_facts [Cert.Pre_finite_inputs.Facts]
    (a0 : FVec Ideal Cert.Pre_finite_inputs.S200000x3 .f32) (a1 : FVec Ideal Cert.Pre_finite_inputs.S10x32 .f32)
    (a2 : FVec Ideal Cert.Pre_finite_inputs.S10000x16 .f32) (a3 : IVec Cert.Pre_finite_inputs.S200000 32)
    (a4 : IVec Cert.Pre_finite_inputs.S10000 32) (a5 : IVec Cert.Pre_finite_inputs.S10000x16 32)
    (h : Cert.Pre_finite_inputs.fn (F := Ideal) a0 a1 a2 a3 a4 a5 = fun _ => 1#1) :
    (∀ i, ∃ r : ℝ, a0 i = ((r : ℝ) : EReal)) ∧ (∀ i, InRange 10 (a3 i)) ∧ (∀ i, InRange 200000 (a4 i))
      ∧ (∀ i, InRange 200000 (a5 i)) := by
  have e := congrFun h ValueIdx.ix0
  dsimp only [Cert.Pre_finite_inputs.fn, Cert.Pre_finite_inputs.fn_part1, Cert.Pre_finite_inputs.fn_part2] at e
  -- the conjunction of the six tests, split
  obtain ⟨e, h5⟩ := IntOp.andi_eq_one.1 e
  obtain ⟨e, h4⟩ := IntOp.andi_eq_one.1 e
  obtain ⟨e, h3⟩ := IntOp.andi_eq_one.1 e
  obtain ⟨e, -⟩ := IntOp.andi_eq_one.1 e
  obtain ⟨h0, -⟩ := IntOp.andi_eq_one.1 e
  refine ⟨fun i => ?_, fun i => ?_, fun i => ?_, fun i => ?_⟩
  · exact real_of_test (a0 i) (Host.reduce_andi_all _ _ _ _ _ h0 i)
  · exact inRange_of_test 10 (by decide) (a3 i) (Host.reduce_andi_all _ _ _ _ _ h3 i)
  · exact inRange_of_test 200000 (by decide) (a4 i) (Host.reduce_andi_all _ _ _ _ _ h4 i)
  · exact inRange_of_test 200000 (by decide) (a5 i) (Host.reduce_andi_all _ _ _ _ _ h5 i)

end Cert.Angle

end
-- ==== Proof.KernelRows.lean ====
/-
  One row of the kernel's output block as a function of the row's own inputs: for a neighbour a, the block
  [80, 15, 99] whose entry (c, q, ·) lays side by side a's distance, the distance of the q-th other neighbour, the
  normalised third side of the two, the centre's embedding row, and the two neighbours' embedding rows over their
  distances.
-/
import proofs.«408688_j81827716923455_3_alg».proof.Proof.Gen.KernelIdeal.Frame

noncomputable section

namespace Cert.KernelIdeal.Body

open Cert.KernelIdeal Cert.KernelIdeal.Gen Idealize.ShloMosaic

variable {F : FTy → Type} [FloatOps F]

/-- The third-side vector of one row: from the neighbours' coordinates with column a left out (xk, yk, zk), neighbour
    a's own coordinates (xa, ya, za), its distance (da) and the other neighbours' distances (dk). -/
def sideV (da : FVec F S80x1 .f32) (dk xk yk zk : FVec F S80x15 .f32) (xa ya za : FVec F S80x1 .f32) : FVec F S80x15 .f32 :=
  divf
    (addf
      (subf
        (sqrt
          (addf
            (addf (mulf (subf xk (broadcastTo S80x15 xa broadcasts_S80x1_S80x15)) (subf xk (broadcastTo S80x15 xa broadcasts_S80x1_S80x15)))
              (mulf (subf yk (broadcastTo S80x15 ya broadcasts_S80x1_S80x15)) (subf yk (broadcastTo S80x15 ya broadcasts_S80x1_S80x15))))
            (mulf (subf zk (broadcastTo S80x15 za broadcasts_S80x1_S80x15)) (subf zk (broadcastTo S80x15 za broadcasts_S80x1_S80x15)))))
        (maximumf (broadcastTo S80x15 (shapeCast S80x1 da shapeCasts_S80x1_S80x1) broadcasts_S80x1_S80x15) dk))
      (minimumf (broadcastTo S80x15 (shapeCast S80x1 da shapeCasts_S80x1_S80x1) broadcasts_S80x1_S80x15) dk))
    (mulf (broadcast S80x15 (Scalar.ofBits .f32 0x40000000#32))
      (minimumf (broadcastTo S80x15 (shapeCast S80x1 da shapeCasts_S80x1_S80x1) broadcasts_S80x1_S80x15) dk))

/-- One row of the output: the six feature groups laid side by side along the last axis. -/
def rowCore (da : FVec F S80x1 .f32) (dk xk yk zk : FVec F S80x15 .f32) (xa ya za : FVec F S80x1 .f32)
    (ei : FVec F S80x32 .f32) (ea : FVec F S80x1x32 .f32) (ek : FVec F S80x15x32 .f32) : FVec F S80x15x99 .f32 :=
  concatenate S80x15x99 2
    [⟨S80x15x1, shapeCast S80x15x1 (broadcastTo S80x15 (shapeCast S80x1 da shapeCasts_S80x1_S80x1) broadcasts_S80x1_S80x15) shapeCasts_S80x15_S80x15x1⟩,
     ⟨S80x15x1, shapeCast S80x15x1 dk shapeCasts_S80x15_S80x15x1⟩,
     ⟨S80x15x1, shapeCast S80x15x1 (sideV da dk xk yk zk xa ya za) shapeCasts_S80x15_S80x15x1⟩,
     ⟨S80x15x32, broadcastTo S80x15x32 (shapeCast S80x1x32 (shapeCast S80x1x32 ei shapeCasts_S80x32_S80x1x32) shapeCasts_S80x1x32_S80x1x32) broadcasts_S80x1x32_S80x15x32⟩,
     ⟨S80x15x32, broadcastTo S80x15x32 (shapeCast S80x1x32 (shapeCast S80x1x32 (shapeCast S80x32 ea shapeCasts_S80x1x32_S80x32) shapeCasts_S80x32_S80x1x32) shapeCasts_S80x1x32_S80x1x32) broadcasts_S80x1x32_S80x15x32⟩,
     ⟨S80x15x32, ek⟩]
    concatenates_S80x15x1_S80x15x1_S80x15x1_S80x15x32_S80x15x32_S80x15x32_S80x15x99_d2

end Cert.KernelIdeal.Body

end
-- ==== Proof.KernelRowSlices.lean ====
/-
  Columns of a block of 80 centres, read at an index: column a alone, and the block with column a left out — the columns
  before a followed by the columns after it, so that position q holds column q when q < a and column q + 1 otherwise.
-/
import proofs.«408688_j81827716923455_3_alg».proof.Proof.KernelRows
import proofs.«408688_j81827716923455_3_alg».proof.Proof.Spec
import Idealize.ShloMosaic.Lib.Pipeline.Value

noncomputable section

namespace Cert.KernelIdeal.Body

open Cert.KernelIdeal Cert.KernelIdeal.Gen Idealize.ShloMosaic Idealize.ShloMosaic.ValueIdx Cert.Angle

variable {F : FTy → Type} [FloatOps F]

/-- Column a of a [80, 16] block. -/
theorem col2_apply (a : ℕ) (ha : a < 16) (v : FVec F S80x16 .f32) (h : S80x16.Slices ![0, a] S80x1) (r : Fin 80) :
    extractStridedSlice S80x1 ![0, a] v h (ix2 r (0 : Fin 1)) = v (ix2 r (⟨a, ha⟩ : Fin 16)) :=
  -- the slice's offsets are (0, a): row r stays, column 0 of the slice is column a of the block
  extractStridedSlice_apply _ v h _ (ix2 r (⟨a, ha⟩ : Fin 16)) (fun b => match b with
    | ⟨0, _⟩ => by show r.val = 0 + r.val; omega
    | ⟨1, _⟩ => by show a = a + 0; omega)

/-- A [80, 16] block with column a left out, as the columns before a followed by the columns after it. -/
theorem drop2_apply (a b o : ℕ) (v : FVec F S80x16 .f32)
    (h1 : S80x16.Slices ![0, 0] ⟨2, ![80, a]⟩) (h2 : S80x16.Slices ![0, o] ⟨2, ![80, b]⟩) (ho : o = a + 1)
    (hc : Shape.Concatenates [⟨2, ![80, a]⟩, ⟨2, ![80, b]⟩] S80x15 1) (r : Fin 80) (q : Fin 15) :
    concatenate S80x15 1 [⟨⟨2, ![80, a]⟩, extractStridedSlice ⟨2, ![80, a]⟩ ![0, 0] v h1⟩,
        ⟨⟨2, ![80, b]⟩, extractStridedSlice ⟨2, ![80, b]⟩ ![0, o] v h2⟩] hc (ix2 r q)
      = v (ix2 r (⟨skip a q, skip_lt q.isLt⟩ : Fin 16)) := by
  -- the two extents along axis 1 sum to 15
  have hab : a + b = 15 := by
    have e := hc.2.2
    simp only [List.map, List.sum_cons, List.sum_nil] at e
    exact e
  by_cases hq : q.val < a
  · -- position q falls in the first piece, at q; the first slice starts at column 0
    refine (concatenate_pair_apply_left 1 _ _ hc (ix2 r q) rfl (ix2 r (⟨q.val, hq⟩ : Fin a))
      (fun b => match b with | ⟨0, _⟩ => rfl | ⟨1, _⟩ => rfl)).trans ?_
    exact extractStridedSlice_apply _ v h1 _ (ix2 r (⟨skip a q, skip_lt q.isLt⟩ : Fin 16)) (fun c => match c with
      | ⟨0, _⟩ => by show r.val = 0 + r.val; omega
      | ⟨1, _⟩ => by show skip a q = 0 + q.val; rw [skip_of_lt hq]; omega)
  · -- position q falls in the second piece, at q - a; the second slice starts at column a + 1
    have hqa : a ≤ q.val := Nat.not_lt.1 hq
    have hlt : q.val - a < b := by have := q.isLt; omega
    refine (concatenate_pair_apply_right 1 _ _ hc (ix2 r q) rfl rfl (ix2 r (⟨q.val - a, hlt⟩ : Fin b))
      (fun c => match c with | ⟨0, _⟩ => fun _ => rfl | ⟨1, _⟩ => fun hne => absurd rfl hne)
      (by show q.val - a + a = q.val; omega)).trans ?_
    exact extractStridedSlice_apply _ v h2 _ (ix2 r (⟨skip a q, skip_lt q.isLt⟩ : Fin 16)) (fun c => match c with
      | ⟨0, _⟩ => by show r.val = 0 + r.val; omega
      | ⟨1, _⟩ => by show skip a q = o + (q.val - a); rw [skip_of_le hqa, ho]; omega)

/-- Column 0 left out: the last fifteen columns. -/
theorem drop2_first (v : FVec F S80x16 .f32) (h : S80x16.Slices ![0, 1] S80x15) (r : Fin 80) (q : Fin 15) :
    extractStridedSlice S80x15 ![0, 1] v h (ix2 r q) = v (ix2 r (⟨skip 0 q, skip_lt q.isLt⟩ : Fin 16)) :=
  -- the slice starts at column 1, and nothing lies before column 0
  extractStridedSlice_apply _ v h _ (ix2 r (⟨skip 0 q, skip_lt q.isLt⟩ : Fin 16)) (fun b => match b with
    | ⟨0, _⟩ => by show r.val = 0 + r.val; omega
    | ⟨1, _⟩ => by show skip 0 q = 1 + q.val; rw [skip_of_le (Nat.zero_le _)]; omega)

/-- Column 15 left out: the first fifteen columns. -/
theorem drop2_last (v : FVec F S80x16 .f32) (h : S80x16.Slices ![0, 0] S80x15) (r : Fin 80) (q : Fin 15) :
    extractStridedSlice S80x15 ![0, 0] v h (ix2 r q) = v (ix2 r (⟨skip 15 q, skip_lt q.isLt⟩ : Fin 16)) :=
  -- the slice starts at column 0, and every position lies before column 15
  extractStridedSlice_apply _ v h _ (ix2 r (⟨skip 15 q, skip_lt q.isLt⟩ : Fin 16)) (fun b => match b with
    | ⟨0, _⟩ => by show r.val = 0 + r.val; omega
    | ⟨1, _⟩ => by show skip 15 q = 0 + q.val; rw [skip_of_lt q.isLt]; omega)

/-- Row a (axis 1) of a [80, 16, 32] block. -/
theorem col3_apply (a : ℕ) (ha : a < 16) (v : FVec F S80x16x32 .f32) (h : S80x16x32.Slices ![0, a, 0] S80x1x32)
    (r : Fin 80) (g : Fin 32) :
    extractStridedSlice S80x1x32 ![0, a, 0] v h (ix3 r (0 : Fin 1) g) = v (ix3 r (⟨a, ha⟩ : Fin 16) g) :=
  -- the slice's offsets are (0, a, 0): r and g stay, row 0 of the slice's axis 1 is row a of the block's
  extractStridedSlice_apply _ v h _ (ix3 r (⟨a, ha⟩ : Fin 16) g) (fun b => match b with
    | ⟨0, _⟩ => by show r.val = 0 + r.val; omega
    | ⟨1, _⟩ => by show a = a + 0; omega
    | ⟨2, _⟩ => by show g.val = 0 + g.val; omega)

/-- A [80, 16, 32] block with row a of axis 1 left out. -/
theorem drop3_apply (a b o : ℕ) (v : FVec F S80x16x32 .f32)
    (h1 : S80x16x32.Slices ![0, 0, 0] ⟨3, ![80, a, 32]⟩) (h2 : S80x16x32.Slices ![0, o, 0] ⟨3, ![80, b, 32]⟩) (ho : o = a + 1)
    (hc : Shape.Concatenates [⟨3, ![80, a, 32]⟩, ⟨3, ![80, b, 32]⟩] S80x15x32 1) (r : Fin 80) (q : Fin 15) (g : Fin 32) :
    concatenate S80x15x32 1 [⟨⟨3, ![80, a, 32]⟩, extractStridedSlice ⟨3, ![80, a, 32]⟩ ![0, 0, 0] v h1⟩,
        ⟨⟨3, ![80, b, 32]⟩, extractStridedSlice ⟨3, ![80, b, 32]⟩ ![0, o, 0] v h2⟩] hc (ix3 r q g)
      = v (ix3 r (⟨skip a q, skip_lt q.isLt⟩ : Fin 16) g) := by
  -- the two extents along axis 1 sum to 15
  have hab : a + b = 15 := by
    have e := hc.2.2
    simp only [List.map, List.sum_cons, List.sum_nil] at e
    exact e
  by_cases hq : q.val < a
  · -- position q falls in the first piece, at q; the first slice starts at row 0 of axis 1
    refine (concatenate_pair_apply_left 1 _ _ hc (ix3 r q g) rfl (ix3 r (⟨q.val, hq⟩ : Fin a) g)
      (fun c => match c with | ⟨0, _⟩ => rfl | ⟨1, _⟩ => rfl | ⟨2, _⟩ => rfl)).trans ?_
    exact extractStridedSlice_apply _ v h1 _ (ix3 r (⟨skip a q, skip_lt q.isLt⟩ : Fin 16) g) (fun c => match c with
      | ⟨0, _⟩ => by show r.val = 0 + r.val; omega
      | ⟨1, _⟩ => by show skip a q = 0 + q.val; rw [skip_of_lt hq]; omega
      | ⟨2, _⟩ => by show g.val = 0 + g.val; omega)
  · -- position q falls in the second piece, at q - a; the second slice starts at row a + 1 of axis 1
    have hqa : a ≤ q.val := Nat.not_lt.1 hq
    have hlt : q.val - a < b := by have := q.isLt; omega
    refine (concatenate_pair_apply_right 1 _ _ hc (ix3 r q g) rfl rfl (ix3 r (⟨q.val - a, hlt⟩ : Fin b) g)
      (fun c => match c with | ⟨0, _⟩ => fun _ => rfl | ⟨1, _⟩ => fun hne => absurd rfl hne | ⟨2, _⟩ => fun _ => rfl)
      (by show q.val - a + a = q.val; omega)).trans ?_
    exact extractStridedSlice_apply _ v h2 _ (ix3 r (⟨skip a q, skip_lt q.isLt⟩ : Fin 16) g) (fun c => match c with
      | ⟨0, _⟩ => by show r.val = 0 + r.val; omega
      | ⟨1, _⟩ => by show skip a q = o + (q.val - a); rw [skip_of_le hqa, ho]; omega
      | ⟨2, _⟩ => by show g.val = 0 + g.val; omega)

theorem drop3_first (v : FVec F S80x16x32 .f32) (h : S80x16x32.Slices ![0, 1, 0] S80x15x32) (r : Fin 80) (q : Fin 15) (g : Fin 32) :
    extractStridedSlice S80x15x32 ![0, 1, 0] v h (ix3 r q g) = v (ix3 r (⟨skip 0 q, skip_lt q.isLt⟩ : Fin 16) g) :=
  extractStridedSlice_apply _ v h _ (ix3 r (⟨skip 0 q, skip_lt q.isLt⟩ : Fin 16) g) (fun b => match b with
    | ⟨0, _⟩ => by show r.val = 0 + r.val; omega
    | ⟨1, _⟩ => by show skip 0 q = 1 + q.val; rw [skip_of_le (Nat.zero_le _)]; omega
    | ⟨2, _⟩ => by show g.val = 0 + g.val; omega)

theorem drop3_last (v : FVec F S80x16x32 .f32) (h : S80x16x32.Slices ![0, 0, 0] S80x15x32) (r : Fin 80) (q : Fin 15) (g : Fin 32) :
    extractStridedSlice S80x15x32 ![0, 0, 0] v h (ix3 r q g) = v (ix3 r (⟨skip 15 q, skip_lt q.isLt⟩ : Fin 16) g) :=
  extractStridedSlice_apply _ v h _ (ix3 r (⟨skip 15 q, skip_lt q.isLt⟩ : Fin 16) g) (fun b => match b with
    | ⟨0, _⟩ => by show r.val = 0 + r.val; omega
    | ⟨1, _⟩ => by show skip 15 q = 0 + q.val; rw [skip_of_lt q.isLt]; omega
    | ⟨2, _⟩ => by show g.val = 0 + g.val; omega)

end Cert.KernelIdeal.Body

end
-- ==== Proof.KernelRowValue.lean ====
/-
  One neighbour's fifteen pairs, read at an index: the row built from column a and from the columns with a left out is,
  at (r, q, f), feature f of the pair (a, the q-th neighbour once a is left out) of centre r.

  The row lays six groups side by side along its last axis, of widths 1, 1, 1, 32, 32, 32: position f falls in the group
  whose span holds it, at f less the widths before (0, 1, 2, 3, 35, 67).  Each group is a relabelling of one input: a
  trailing unit axis added or dropped keeps the row-major position, and a unit axis repeated along fifteen columns reads
  its one entry.  The arithmetic of the third side is pointwise, so at (r, q) it is the same expression of the entries.
-/
import proofs.«408688_j81827716923455_3_alg».proof.Proof.KernelRows
import proofs.«408688_j81827716923455_3_alg».proof.Proof.Spec
import proofs.«408688_j81827716923455_3_alg».proof.Proof.KernelRowSlices
import Idealize.ShloMosaic.Lib.Pipeline.Value

noncomputable section

namespace Cert.KernelIdeal.Body

open Cert.KernelIdeal Cert.KernelIdeal.Gen Idealize.ShloMosaic Idealize.ShloMosaic.ValueIdx Cert.Angle

variable {F : FTy → Type} [FloatOps F]

/-! ## Relabellings read at an index -/

/-- An [n, m] array viewed [n, m, 1] reads (r, q, 0) at (r, q): both sit at row-major position r·m + q. -/
theorem cast_addLast {α : Type} {n m : ℕ} (v : (⟨2, ![n, m]⟩ : Shape).Idx → α)
    (h : (⟨2, ![n, m]⟩ : Shape).ShapeCasts ⟨3, ![n, m, 1]⟩) (r : Fin n) (q : Fin m) (z : Fin 1) :
    shapeCast ⟨3, ![n, m, 1]⟩ v h (ix3 r q z) = v (ix2 r q) :=
  shapeCast_apply v h _ _ (by
    rw [Shape.rowMajor_val_two, Shape.rowMajor_val_three]
    have := z.isLt
    show r.val * m + q.val = (r.val * m + q.val) * 1 + z.val
    omega)

/-- An [n, m] array viewed [n, 1, m] reads (r, 0, g) at (r, g). -/
theorem cast_addMid {α : Type} {n m : ℕ} (v : (⟨2, ![n, m]⟩ : Shape).Idx → α)
    (h : (⟨2, ![n, m]⟩ : Shape).ShapeCasts ⟨3, ![n, 1, m]⟩) (r : Fin n) (z : Fin 1) (g : Fin m) :
    shapeCast ⟨3, ![n, 1, m]⟩ v h (ix3 r z g) = v (ix2 r g) :=
  shapeCast_apply v h _ _ (by
    rw [Shape.rowMajor_val_two, Shape.rowMajor_val_three]
    have hz : z.val = 0 := by have := z.isLt; omega
    show r.val * m + g.val = (r.val * 1 + z.val) * m + g.val
    rw [hz, Nat.mul_one, Nat.add_zero])

/-- An [80, 1] column repeated along m columns reads (r, q) at (r, 0). -/
theorem bcast_col {α : Type} {m : ℕ} (v : (⟨2, ![80, 1]⟩ : Shape).Idx → α)
    (h : (⟨2, ![80, 1]⟩ : Shape).Broadcasts ⟨2, ![80, m]⟩) (r : Fin 80) (q : Fin m) :
    broadcastTo ⟨2, ![80, m]⟩ v h (ix2 r q) = v (ix2 r (0 : Fin 1)) :=
  broadcastTo_apply v h _ _ fun a => match a with
    | ⟨0, _⟩ => by show r.val = if (80 : ℕ) = 1 then 0 else r.val; rfl
    | ⟨1, _⟩ => by show (0 : ℕ) = if (1 : ℕ) = 1 then 0 else q.val; rfl

/-- An [80, 1, 32] array repeated along m rows of its middle axis reads (r, q, g) at (r, 0, g). -/
theorem bcast_mid {α : Type} {m : ℕ} (v : (⟨3, ![80, 1, 32]⟩ : Shape).Idx → α)
    (h : (⟨3, ![80, 1, 32]⟩ : Shape).Broadcasts ⟨3, ![80, m, 32]⟩) (r : Fin 80) (q : Fin m) (g : Fin 32) :
    broadcastTo ⟨3, ![80, m, 32]⟩ v h (ix3 r q g) = v (ix3 r (0 : Fin 1) g) :=
  broadcastTo_apply v h _ _ fun a => match a with
    | ⟨0, _⟩ => by show r.val = if (80 : ℕ) = 1 then 0 else r.val; rfl
    | ⟨1, _⟩ => by show (0 : ℕ) = if (1 : ℕ) = 1 then 0 else q.val; rfl
    | ⟨2, _⟩ => by show g.val = if (32 : ℕ) = 1 then 0 else g.val; rfl

/-- An [80, m, 1] array repeated along 32 entries of its last axis reads (r, j, g) at (r, j, 0). -/
theorem bcast_last {α : Type} {m : ℕ} (hm : m ≠ 1) (v : (⟨3, ![80, m, 1]⟩ : Shape).Idx → α)
    (h : (⟨3, ![80, m, 1]⟩ : Shape).Broadcasts ⟨3, ![80, m, 32]⟩) (r : Fin 80) (j : Fin m) (g : Fin 32) :
    broadcastTo ⟨3, ![80, m, 32]⟩ v h (ix3 r j g) = v (ix3 r j (0 : Fin 1)) :=
  broadcastTo_apply v h _ _ fun a => match a with
    | ⟨0, _⟩ => by show r.val = if (80 : ℕ) = 1 then 0 else r.val; rfl
    | ⟨1, _⟩ => by show j.val = if m = 1 then 0 else j.val; rw [if_neg hm]
    | ⟨2, _⟩ => by show (0 : ℕ) = if (1 : ℕ) = 1 then 0 else g.val; rfl

/-! ## The six groups side by side -/

/-- Six groups of widths 1, 1, 1, 32, 32, 32 along the last axis, read at (r, q, f): the group whose span holds f, at f
    less the widths before it. -/
theorem cat6_apply {α : Type} (p0 p1 p2 : S80x15x1.Idx → α) (p3 p4 p5 : S80x15x32.Idx → α)
    (h : Shape.Concatenates [S80x15x1, S80x15x1, S80x15x1, S80x15x32, S80x15x32, S80x15x32] S80x15x99 2)
    (r : Fin 80) (q : Fin 15) (f : Fin 99) :
    concatenate S80x15x99 2
        [⟨S80x15x1, p0⟩, ⟨S80x15x1, p1⟩, ⟨S80x15x1, p2⟩, ⟨S80x15x32, p3⟩, ⟨S80x15x32, p4⟩, ⟨S80x15x32, p5⟩] h (ix3 r q f)
      = if f.val = 0 then p0 (ix3 r q (0 : Fin 1))
        else if f.val = 1 then p1 (ix3 r q (0 : Fin 1))
        else if f.val = 2 then p2 (ix3 r q (0 : Fin 1))
        else if f.val < 35 then p3 (ix3 r q ⟨(f.val - 3) % 32, Nat.mod_lt _ (by decide)⟩)
        else if f.val < 67 then p4 (ix3 r q ⟨(f.val - 35) % 32, Nat.mod_lt _ (by decide)⟩)
        else p5 (ix3 r q ⟨(f.val - 67) % 32, Nat.mod_lt _ (by decide)⟩) := by
  have hf := f.isLt
  have key := concatenate_apply_piece (t := S80x15x99) 2
    [⟨S80x15x1, p0⟩, ⟨S80x15x1, p1⟩, ⟨S80x15x1, p2⟩, ⟨S80x15x32, p3⟩, ⟨S80x15x32, p4⟩, ⟨S80x15x32, p5⟩] h (ix3 r q f)
  by_cases h0 : f.val = 0
  · rw [if_pos h0]
    exact key 0 (by show (0 : ℕ) < 6; omega) S80x15x1 p0 rfl rfl 0 rfl (ix3 r q (0 : Fin 1))
      (fun b hb => match b, hb with | ⟨0, _⟩, _ => rfl | ⟨1, _⟩, _ => rfl | ⟨2, _⟩, hb => absurd rfl hb)
      (by show 0 + 0 = f.val; omega)
  rw [if_neg h0]
  by_cases h1 : f.val = 1
  · rw [if_pos h1]
    exact key 1 (by show (1 : ℕ) < 6; omega) S80x15x1 p1 rfl rfl 1 rfl (ix3 r q (0 : Fin 1))
      (fun b hb => match b, hb with | ⟨0, _⟩, _ => rfl | ⟨1, _⟩, _ => rfl | ⟨2, _⟩, hb => absurd rfl hb)
      (by show 1 + 0 = f.val; omega)
  rw [if_neg h1]
  by_cases h2 : f.val = 2
  · rw [if_pos h2]
    exact key 2 (by show (2 : ℕ) < 6; omega) S80x15x1 p2 rfl rfl 2 rfl (ix3 r q (0 : Fin 1))
      (fun b hb => match b, hb with | ⟨0, _⟩, _ => rfl | ⟨1, _⟩, _ => rfl | ⟨2, _⟩, hb => absurd rfl hb)
      (by show 2 + 0 = f.val; omega)
  rw [if_neg h2]
  by_cases h3 : f.val < 35
  · rw [if_pos h3]
    exact key 3 (by show (3 : ℕ) < 6; omega) S80x15x32 p3 rfl rfl 3 rfl _
      (fun b hb => match b, hb with | ⟨0, _⟩, _ => rfl | ⟨1, _⟩, _ => rfl | ⟨2, _⟩, hb => absurd rfl hb)
      (by show 3 + (f.val - 3) % 32 = f.val; omega)
  rw [if_neg h3]
  by_cases h4 : f.val < 67
  · rw [if_pos h4]
    exact key 4 (by show (4 : ℕ) < 6; omega) S80x15x32 p4 rfl rfl 35 rfl _
      (fun b hb => match b, hb with | ⟨0, _⟩, _ => rfl | ⟨1, _⟩, _ => rfl | ⟨2, _⟩, hb => absurd rfl hb)
      (by show 35 + (f.val - 35) % 32 = f.val; omega)
  rw [if_neg h4]
  exact key 5 (by show (5 : ℕ) < 6; omega) S80x15x32 p5 rfl rfl 67 rfl _
    (fun b hb => match b, hb with | ⟨0, _⟩, _ => rfl | ⟨1, _⟩, _ => rfl | ⟨2, _⟩, hb => absurd rfl hb)
    (by show 67 + (f.val - 67) % 32 = f.val; omega)

/-! ## The third side at an index -/

/-- The third-side vector at (r, q) is the third side of the entries at (r, q) and at column 0 of the single columns. -/
theorem sideV_apply (da : FVec F S80x1 .f32) (dk xk yk zk : FVec F S80x15 .f32) (xa ya za : FVec F S80x1 .f32)
    (r : Fin 80) (q : Fin 15) :
    sideV da dk xk yk zk xa ya za (ix2 r q)
      = sideK (FloatOps.ofBits (F := F) .f32 0x40000000#32) (da (ix2 r (0 : Fin 1))) (dk (ix2 r q))
          (xa (ix2 r (0 : Fin 1))) (ya (ix2 r (0 : Fin 1))) (za (ix2 r (0 : Fin 1))) (xk (ix2 r q)) (yk (ix2 r q)) (zk (ix2 r q)) := by
  have hx := bcast_col xa broadcasts_S80x1_S80x15 r q
  have hy := bcast_col ya broadcasts_S80x1_S80x15 r q
  have hz := bcast_col za broadcasts_S80x1_S80x15 r q
  have hd : broadcastTo S80x15 (shapeCast S80x1 da shapeCasts_S80x1_S80x1) broadcasts_S80x1_S80x15 (ix2 r q) = da (ix2 r (0 : Fin 1)) := by
    rw [shapeCast_self]; exact bcast_col da broadcasts_S80x1_S80x15 r q
  unfold sideV sideK
  simp only [divf, addf, subf, mulf, sqrt, maximumf, minimumf, broadcast]
  rw [hx, hy, hz, hd]

/-- One row read at an index, given what its inputs read: the pair (a, skip a q) of neighbours of centre r. -/
theorem rowCore_entry (a : ℕ) (ha : a < 16)
    (d x y z : FVec F S80x16 .f32) (e : FVec F S80x16x32 .f32) (ei : FVec F S80x32 .f32)
    (da : FVec F S80x1 .f32) (dk xk yk zk : FVec F S80x15 .f32) (xa ya za : FVec F S80x1 .f32)
    (ea : FVec F S80x1x32 .f32) (ek : FVec F S80x15x32 .f32)
    (hda : ∀ r : Fin 80, da (ix2 r (0 : Fin 1)) = d (ix2 r (⟨a, ha⟩ : Fin 16)))
    (hdk : ∀ (r : Fin 80) (q : Fin 15), dk (ix2 r q) = d (ix2 r (⟨skip a q, skip_lt q.isLt⟩ : Fin 16)))
    (hxk : ∀ (r : Fin 80) (q : Fin 15), xk (ix2 r q) = x (ix2 r (⟨skip a q, skip_lt q.isLt⟩ : Fin 16)))
    (hyk : ∀ (r : Fin 80) (q : Fin 15), yk (ix2 r q) = y (ix2 r (⟨skip a q, skip_lt q.isLt⟩ : Fin 16)))
    (hzk : ∀ (r : Fin 80) (q : Fin 15), zk (ix2 r q) = z (ix2 r (⟨skip a q, skip_lt q.isLt⟩ : Fin 16)))
    (hxa : ∀ r : Fin 80, xa (ix2 r (0 : Fin 1)) = x (ix2 r (⟨a, ha⟩ : Fin 16)))
    (hya : ∀ r : Fin 80, ya (ix2 r (0 : Fin 1)) = y (ix2 r (⟨a, ha⟩ : Fin 16)))
    (hza : ∀ r : Fin 80, za (ix2 r (0 : Fin 1)) = z (ix2 r (⟨a, ha⟩ : Fin 16)))
    (hea : ∀ (r : Fin 80) (g : Fin 32), ea (ix3 r (0 : Fin 1) g)
      = FloatOps.divf (e (ix3 r (⟨a, ha⟩ : Fin 16) g)) (d (ix2 r (⟨a, ha⟩ : Fin 16))))
    (hek : ∀ (r : Fin 80) (q : Fin 15) (g : Fin 32), ek (ix3 r q g)
      = FloatOps.divf (e (ix3 r (⟨skip a q, skip_lt q.isLt⟩ : Fin 16) g)) (d (ix2 r (⟨skip a q, skip_lt q.isLt⟩ : Fin 16))))
    (r : Fin 80) (q : Fin 15) (f : Fin 99) :
    rowCore da dk xk yk zk xa ya za ei ea ek (ix3 r q f)
      = entry (sideK (FloatOps.ofBits (F := F) .f32 0x40000000#32)) d x y z e ei r ⟨a, ha⟩ ⟨skip a q, skip_lt q.isLt⟩ f.val := by
  -- the six groups, each read at an index of its own
  have g0 : shapeCast S80x15x1 (broadcastTo S80x15 (shapeCast S80x1 da shapeCasts_S80x1_S80x1) broadcasts_S80x1_S80x15)
      shapeCasts_S80x15_S80x15x1 (ix3 r q (0 : Fin 1)) = d (ix2 r (⟨a, ha⟩ : Fin 16)) := by
    rw [cast_addLast, shapeCast_self, bcast_col, hda]
  have g1 : shapeCast S80x15x1 dk shapeCasts_S80x15_S80x15x1 (ix3 r q (0 : Fin 1))
      = d (ix2 r (⟨skip a q, skip_lt q.isLt⟩ : Fin 16)) := by
    rw [cast_addLast, hdk]
  have g2 : shapeCast S80x15x1 (sideV da dk xk yk zk xa ya za) shapeCasts_S80x15_S80x15x1 (ix3 r q (0 : Fin 1))
      = sideK (FloatOps.ofBits (F := F) .f32 0x40000000#32) (d (ix2 r (⟨a, ha⟩ : Fin 16))) (d (ix2 r (⟨skip a q, skip_lt q.isLt⟩ : Fin 16)))
          (x (ix2 r (⟨a, ha⟩ : Fin 16))) (y (ix2 r (⟨a, ha⟩ : Fin 16))) (z (ix2 r (⟨a, ha⟩ : Fin 16)))
          (x (ix2 r (⟨skip a q, skip_lt q.isLt⟩ : Fin 16))) (y (ix2 r (⟨skip a q, skip_lt q.isLt⟩ : Fin 16)))
          (z (ix2 r (⟨skip a q, skip_lt q.isLt⟩ : Fin 16))) := by
    rw [cast_addLast, sideV_apply, hda, hdk, hxa, hya, hza, hxk, hyk, hzk]
  have g3 : ∀ g : Fin 32, broadcastTo S80x15x32 (shapeCast S80x1x32 (shapeCast S80x1x32 ei shapeCasts_S80x32_S80x1x32) shapeCasts_S80x1x32_S80x1x32)
      broadcasts_S80x1x32_S80x15x32 (ix3 r q g) = ei (ix2 r g) := fun g => by
    rw [bcast_mid, shapeCast_self, cast_addMid]
  have g4 : ∀ g : Fin 32, broadcastTo S80x15x32 (shapeCast S80x1x32 (shapeCast S80x1x32 (shapeCast S80x32 ea shapeCasts_S80x1x32_S80x32)
      shapeCasts_S80x32_S80x1x32) shapeCasts_S80x1x32_S80x1x32) broadcasts_S80x1x32_S80x15x32 (ix3 r q g)
      = FloatOps.divf (e (ix3 r (⟨a, ha⟩ : Fin 16) g)) (d (ix2 r (⟨a, ha⟩ : Fin 16))) := fun g => by
    rw [bcast_mid, shapeCast_self, shapeCast_shapeCast, hea]
  unfold rowCore
  rw [cat6_apply, g0, g1, g2, g3, g4, hek]
  rfl

/-- The neighbours' embedding rows over their distances, read at an index. -/
theorem eod_apply (x0 : Vec F S80x16 .f32) (x4 : Vec F S80x16x32 .f32) (r : Fin 80) (j : Fin 16) (g : Fin 32) :
    k0_pay6 x0 x4 (ix3 r j g) = FloatOps.divf (x4 (ix3 r j g)) (x0 (ix2 r j)) := by
  have hb : broadcastTo S80x16x32 (shapeCast S80x16x1 x0 shapeCasts_S80x16_S80x16x1) broadcasts_S80x16x1_S80x16x32 (ix3 r j g)
      = x0 (ix2 r j) := by
    rw [bcast_last (by decide), cast_addLast]
  have hs : shapeCast S80x16x32 x4 shapeCasts_S80x16x32_S80x16x32 = x4 := shapeCast_self _ _
  show FloatOps.divf (shapeCast S80x16x32 x4 shapeCasts_S80x16x32_S80x16x32 (ix3 r j g))
      (broadcastTo S80x16x32 (shapeCast S80x16x1 x0 shapeCasts_S80x16_S80x16x1) broadcasts_S80x16x1_S80x16x32 (ix3 r j g)) = _
  rw [hb, hs]

end Cert.KernelIdeal.Body

end
-- ==== Proof.KernelBody.lean ====
/-
  What the kernel's body leaves in its output block: from a block of 80 centres (distances, neighbour coordinates,
  neighbour embedding rows, centre embedding rows) it writes the angular descriptor of those 80 centres.

  The body computes sixteen rows, one per first neighbour a, each a block [80, 15, 99] built from column a of the
  loaded blocks and from the blocks with column a left out; rows 0 to 7 are laid one after the other along axis 1
  and stored at offset 0, rows 8 to 15 at offset 120.  Entry (c, 15 a + q, f) of the block is therefore row a at
  (c, q, f), which is feature f of the pair (a, skip a q) of neighbours of centre c.
-/
import proofs.«408688_j81827716923455_3_alg».proof.Proof.Gen.KernelIdeal.Frame
import proofs.«408688_j81827716923455_3_alg».proof.Proof.Spec
import proofs.«408688_j81827716923455_3_alg».proof.Proof.KernelRows
import proofs.«408688_j81827716923455_3_alg».proof.Proof.KernelRowValue
import Idealize.ShloMosaic.Lib.Pipeline.Value

noncomputable section

namespace Cert.KernelIdeal.Body

open Cert.KernelIdeal Cert.KernelIdeal.Gen Idealize.ShloMosaic Idealize.ShloMosaic.ValueIdx Cert.Angle

variable {F : FTy → Type} [FloatOps F]

/-- Row 0: neighbour 0 against the fifteen others. -/
def row0 (v0 v2 v4 v6 : FVec F S80x16 .f32) (v10 : FVec F S80x32 .f32) (v13 : FVec F S80x16x32 .f32) : FVec F S80x15x99 .f32 :=
  rowCore (extractStridedSlice S80x1 ![0, 0] v0 slices_S80x16_o0_0_S80x1) (extractStridedSlice S80x15 ![0, 1] v0 slices_S80x16_o0_1_S80x15) (extractStridedSlice S80x15 ![0, 1] v2 slices_S80x16_o0_1_S80x15) (extractStridedSlice S80x15 ![0, 1] v4 slices_S80x16_o0_1_S80x15) (extractStridedSlice S80x15 ![0, 1] v6 slices_S80x16_o0_1_S80x15) (extractStridedSlice S80x1 ![0, 0] v2 slices_S80x16_o0_0_S80x1) (extractStridedSlice S80x1 ![0, 0] v4 slices_S80x16_o0_0_S80x1) (extractStridedSlice S80x1 ![0, 0] v6 slices_S80x16_o0_0_S80x1) v10 (extractStridedSlice S80x1x32 ![0, 0, 0] v13 slices_S80x16x32_o0_0_0_S80x1x32) (extractStridedSlice S80x15x32 ![0, 1, 0] v13 slices_S80x16x32_o0_1_0_S80x15x32)

/-- Row 1: neighbour 1 against the fifteen others. -/
def row1 (v0 v2 v4 v6 : FVec F S80x16 .f32) (v10 : FVec F S80x32 .f32) (v13 : FVec F S80x16x32 .f32) : FVec F S80x15x99 .f32 :=
  rowCore (extractStridedSlice S80x1 ![0, 1] v0 slices_S80x16_o0_1_S80x1) (concatenate S80x15 1 [⟨S80x1, extractStridedSlice S80x1 ![0, 0] v0 slices_S80x16_o0_0_S80x1⟩, ⟨S80x14, extractStridedSlice S80x14 ![0, 2] v0 slices_S80x16_o0_2_S80x14⟩] concatenates_S80x1_S80x14_S80x15_d1) (concatenate S80x15 1 [⟨S80x1, extractStridedSlice S80x1 ![0, 0] v2 slices_S80x16_o0_0_S80x1⟩, ⟨S80x14, extractStridedSlice S80x14 ![0, 2] v2 slices_S80x16_o0_2_S80x14⟩] concatenates_S80x1_S80x14_S80x15_d1) (concatenate S80x15 1 [⟨S80x1, extractStridedSlice S80x1 ![0, 0] v4 slices_S80x16_o0_0_S80x1⟩, ⟨S80x14, extractStridedSlice S80x14 ![0, 2] v4 slices_S80x16_o0_2_S80x14⟩] concatenates_S80x1_S80x14_S80x15_d1) (concatenate S80x15 1 [⟨S80x1, extractStridedSlice S80x1 ![0, 0] v6 slices_S80x16_o0_0_S80x1⟩, ⟨S80x14, extractStridedSlice S80x14 ![0, 2] v6 slices_S80x16_o0_2_S80x14⟩] concatenates_S80x1_S80x14_S80x15_d1) (extractStridedSlice S80x1 ![0, 1] v2 slices_S80x16_o0_1_S80x1) (extractStridedSlice S80x1 ![0, 1] v4 slices_S80x16_o0_1_S80x1) (extractStridedSlice S80x1 ![0, 1] v6 slices_S80x16_o0_1_S80x1) v10 (extractStridedSlice S80x1x32 ![0, 1, 0] v13 slices_S80x16x32_o0_1_0_S80x1x32) (concatenate S80x15x32 1 [⟨S80x1x32, extractStridedSlice S80x1x32 ![0, 0, 0] v13 slices_S80x16x32_o0_0_0_S80x1x32⟩, ⟨S80x14x32, extractStridedSlice S80x14x32 ![0, 2, 0] v13 slices_S80x16x32_o0_2_0_S80x14x32⟩] concatenates_S80x1x32_S80x14x32_S80x15x32_d1)

/-- Row 2: neighbour 2 against the fifteen others. -/
def row2 (v0 v2 v4 v6 : FVec F S80x16 .f32) (v10 : FVec F S80x32 .f32) (v13 : FVec F S80x16x32 .f32) : FVec F S80x15x99 .f32 :=
  rowCore (extractStridedSlice S80x1 ![0, 2] v0 slices_S80x16_o0_2_S80x1) (concatenate S80x15 1 [⟨S80x2, extractStridedSlice S80x2 ![0, 0] v0 slices_S80x16_o0_0_S80x2⟩, ⟨S80x13, extractStridedSlice S80x13 ![0, 3] v0 slices_S80x16_o0_3_S80x13⟩] concatenates_S80x2_S80x13_S80x15_d1) (concatenate S80x15 1 [⟨S80x2, extractStridedSlice S80x2 ![0, 0] v2 slices_S80x16_o0_0_S80x2⟩, ⟨S80x13, extractStridedSlice S80x13 ![0, 3] v2 slices_S80x16_o0_3_S80x13⟩] concatenates_S80x2_S80x13_S80x15_d1) (concatenate S80x15 1 [⟨S80x2, extractStridedSlice S80x2 ![0, 0] v4 slices_S80x16_o0_0_S80x2⟩, ⟨S80x13, extractStridedSlice S80x13 ![0, 3] v4 slices_S80x16_o0_3_S80x13⟩] concatenates_S80x2_S80x13_S80x15_d1) (concatenate S80x15 1 [⟨S80x2, extractStridedSlice S80x2 ![0, 0] v6 slices_S80x16_o0_0_S80x2⟩, ⟨S80x13, extractStridedSlice S80x13 ![0, 3] v6 slices_S80x16_o0_3_S80x13⟩] concatenates_S80x2_S80x13_S80x15_d1) (extractStridedSlice S80x1 ![0, 2] v2 slices_S80x16_o0_2_S80x1) (extractStridedSlice S80x1 ![0, 2] v4 slices_S80x16_o0_2_S80x1) (extractStridedSlice S80x1 ![0, 2] v6 slices_S80x16_o0_2_S80x1) v10 (extractStridedSlice S80x1x32 ![0, 2, 0] v13 slices_S80x16x32_o0_2_0_S80x1x32) (concatenate S80x15x32 1 [⟨S80x2x32, extractStridedSlice S80x2x32 ![0, 0, 0] v13 slices_S80x16x32_o0_0_0_S80x2x32⟩, ⟨S80x13x32, extractStridedSlice S80x13x32 ![0, 3, 0] v13 slices_S80x16x32_o0_3_0_S80x13x32⟩] concatenates_S80x2x32_S80x13x32_S80x15x32_d1)

/-- Row 3: neighbour 3 against the fifteen others. -/
def row3 (v0 v2 v4 v6 : FVec F S80x16 .f32) (v10 : FVec F S80x32 .f32) (v13 : FVec F S80x16x32 .f32) : FVec F S80x15x99 .f32 :=
  rowCore (extractStridedSlice S80x1 ![0, 3] v0 slices_S80x16_o0_3_S80x1) (concatenate S80x15 1 [⟨S80x3, extractStridedSlice S80x3 ![0, 0] v0 slices_S80x16_o0_0_S80x3⟩, ⟨S80x12, extractStridedSlice S80x12 ![0, 4] v0 slices_S80x16_o0_4_S80x12⟩] concatenates_S80x3_S80x12_S80x15_d1) (concatenate S80x15 1 [⟨S80x3, extractStridedSlice S80x3 ![0, 0] v2 slices_S80x16_o0_0_S80x3⟩, ⟨S80x12, extractStridedSlice S80x12 ![0, 4] v2 slices_S80x16_o0_4_S80x12⟩] concatenates_S80x3_S80x12_S80x15_d1) (concatenate S80x15 1 [⟨S80x3, extractStridedSlice S80x3 ![0, 0] v4 slices_S80x16_o0_0_S80x3⟩, ⟨S80x12, extractStridedSlice S80x12 ![0, 4] v4 slices_S80x16_o0_4_S80x12⟩] concatenates_S80x3_S80x12_S80x15_d1) (concatenate S80x15 1 [⟨S80x3, extractStridedSlice S80x3 ![0, 0] v6 slices_S80x16_o0_0_S80x3⟩, ⟨S80x12, extractStridedSlice S80x12 ![0, 4] v6 slices_S80x16_o0_4_S80x12⟩] concatenates_S80x3_S80x12_S80x15_d1) (extractStridedSlice S80x1 ![0, 3] v2 slices_S80x16_o0_3_S80x1) (extractStridedSlice S80x1 ![0, 3] v4 slices_S80x16_o0_3_S80x1) (extractStridedSlice S80x1 ![0, 3] v6 slices_S80x16_o0_3_S80x1) v10 (extractStridedSlice S80x1x32 ![0, 3, 0] v13 slices_S80x16x32_o0_3_0_S80x1x32) (concatenate S80x15x32 1 [⟨S80x3x32, extractStridedSlice S80x3x32 ![0, 0, 0] v13 slices_S80x16x32_o0_0_0_S80x3x32⟩, ⟨S80x12x32, extractStridedSlice S80x12x32 ![0, 4, 0] v13 slices_S80x16x32_o0_4_0_S80x12x32⟩] concatenates_S80x3x32_S80x12x32_S80x15x32_d1)

/-- Row 4: neighbour 4 against the fifteen others. -/
def row4 (v0 v2 v4 v6 : FVec F S80x16 .f32) (v10 : FVec F S80x32 .f32) (v13 : FVec F S80x16x32 .f32) : FVec F S80x15x99 .f32 :=
  rowCore (extractStridedSlice S80x1 ![0, 4] v0 slices_S80x16_o0_4_S80x1) (concatenate S80x15 1 [⟨S80x4, extractStridedSlice S80x4 ![0, 0] v0 slices_S80x16_o0_0_S80x4⟩, ⟨S80x11, extractStridedSlice S80x11 ![0, 5] v0 slices_S80x16_o0_5_S80x11⟩] concatenates_S80x4_S80x11_S80x15_d1) (concatenate S80x15 1 [⟨S80x4, extractStridedSlice S80x4 ![0, 0] v2 slices_S80x16_o0_0_S80x4⟩, ⟨S80x11, extractStridedSlice S80x11 ![0, 5] v2 slices_S80x16_o0_5_S80x11⟩] concatenates_S80x4_S80x11_S80x15_d1) (concatenate S80x15 1 [⟨S80x4, extractStridedSlice S80x4 ![0, 0] v4 slices_S80x16_o0_0_S80x4⟩, ⟨S80x11, extractStridedSlice S80x11 ![0, 5] v4 slices_S80x16_o0_5_S80x11⟩] concatenates_S80x4_S80x11_S80x15_d1) (concatenate S80x15 1 [⟨S80x4, extractStridedSlice S80x4 ![0, 0] v6 slices_S80x16_o0_0_S80x4⟩, ⟨S80x11, extractStridedSlice S80x11 ![0, 5] v6 slices_S80x16_o0_5_S80x11⟩] concatenates_S80x4_S80x11_S80x15_d1) (extractStridedSlice S80x1 ![0, 4] v2 slices_S80x16_o0_4_S80x1) (extractStridedSlice S80x1 ![0, 4] v4 slices_S80x16_o0_4_S80x1) (extractStridedSlice S80x1 ![0, 4] v6 slices_S80x16_o0_4_S80x1) v10 (extractStridedSlice S80x1x32 ![0, 4, 0] v13 slices_S80x16x32_o0_4_0_S80x1x32) (concatenate S80x15x32 1 [⟨S80x4x32, extractStridedSlice S80x4x32 ![0, 0, 0] v13 slices_S80x16x32_o0_0_0_S80x4x32⟩, ⟨S80x11x32, extractStridedSlice S80x11x32 ![0, 5, 0] v13 slices_S80x16x32_o0_5_0_S80x11x32⟩] concatenates_S80x4x32_S80x11x32_S80x15x32_d1)

/-- Row 5: neighbour 5 against the fifteen others. -/
def row5 (v0 v2 v4 v6 : FVec F S80x16 .f32) (v10 : FVec F S80x32 .f32) (v13 : FVec F S80x16x32 .f32) : FVec F S80x15x99 .f32 :=
  rowCore (extractStridedSlice S80x1 ![0, 5] v0 slices_S80x16_o0_5_S80x1) (concatenate S80x15 1 [⟨S80x5, extractStridedSlice S80x5 ![0, 0] v0 slices_S80x16_o0_0_S80x5⟩, ⟨S80x10, extractStridedSlice S80x10 ![0, 6] v0 slices_S80x16_o0_6_S80x10⟩] concatenates_S80x5_S80x10_S80x15_d1) (concatenate S80x15 1 [⟨S80x5, extractStridedSlice S80x5 ![0, 0] v2 slices_S80x16_o0_0_S80x5⟩, ⟨S80x10, extractStridedSlice S80x10 ![0, 6] v2 slices_S80x16_o0_6_S80x10⟩] concatenates_S80x5_S80x10_S80x15_d1) (concatenate S80x15 1 [⟨S80x5, extractStridedSlice S80x5 ![0, 0] v4 slices_S80x16_o0_0_S80x5⟩, ⟨S80x10, extractStridedSlice S80x10 ![0, 6] v4 slices_S80x16_o0_6_S80x10⟩] concatenates_S80x5_S80x10_S80x15_d1) (concatenate S80x15 1 [⟨S80x5, extractStridedSlice S80x5 ![0, 0] v6 slices_S80x16_o0_0_S80x5⟩, ⟨S80x10, extractStridedSlice S80x10 ![0, 6] v6 slices_S80x16_o0_6_S80x10⟩] concatenates_S80x5_S80x10_S80x15_d1) (extractStridedSlice S80x1 ![0, 5] v2 slices_S80x16_o0_5_S80x1) (extractStridedSlice S80x1 ![0, 5] v4 slices_S80x16_o0_5_S80x1) (extractStridedSlice S80x1 ![0, 5] v6 slices_S80x16_o0_5_S80x1) v10 (extractStridedSlice S80x1x32 ![0, 5, 0] v13 slices_S80x16x32_o0_5_0_S80x1x32) (concatenate S80x15x32 1 [⟨S80x5x32, extractStridedSlice S80x5x32 ![0, 0, 0] v13 slices_S80x16x32_o0_0_0_S80x5x32⟩, ⟨S80x10x32, extractStridedSlice S80x10x32 ![0, 6, 0] v13 slices_S80x16x32_o0_6_0_S80x10x32⟩] concatenates_S80x5x32_S80x10x32_S80x15x32_d1)

/-- Row 6: neighbour 6 against the fifteen others. -/
def row6 (v0 v2 v4 v6 : FVec F S80x16 .f32) (v10 : FVec F S80x32 .f32) (v13 : FVec F S80x16x32 .f32) : FVec F S80x15x99 .f32 :=
  rowCore (extractStridedSlice S80x1 ![0, 6] v0 slices_S80x16_o0_6_S80x1) (concatenate S80x15 1 [⟨S80x6, extractStridedSlice S80x6 ![0, 0] v0 slices_S80x16_o0_0_S80x6⟩, ⟨S80x9, extractStridedSlice S80x9 ![0, 7] v0 slices_S80x16_o0_7_S80x9⟩] concatenates_S80x6_S80x9_S80x15_d1) (concatenate S80x15 1 [⟨S80x6, extractStridedSlice S80x6 ![0, 0] v2 slices_S80x16_o0_0_S80x6⟩, ⟨S80x9, extractStridedSlice S80x9 ![0, 7] v2 slices_S80x16_o0_7_S80x9⟩] concatenates_S80x6_S80x9_S80x15_d1) (concatenate S80x15 1 [⟨S80x6, extractStridedSlice S80x6 ![0, 0] v4 slices_S80x16_o0_0_S80x6⟩, ⟨S80x9, extractStridedSlice S80x9 ![0, 7] v4 slices_S80x16_o0_7_S80x9⟩] concatenates_S80x6_S80x9_S80x15_d1) (concatenate S80x15 1 [⟨S80x6, extractStridedSlice S80x6 ![0, 0] v6 slices_S80x16_o0_0_S80x6⟩, ⟨S80x9, extractStridedSlice S80x9 ![0, 7] v6 slices_S80x16_o0_7_S80x9⟩] concatenates_S80x6_S80x9_S80x15_d1) (extractStridedSlice S80x1 ![0, 6] v2 slices_S80x16_o0_6_S80x1) (extractStridedSlice S80x1 ![0, 6] v4 slices_S80x16_o0_6_S80x1) (extractStridedSlice S80x1 ![0, 6] v6 slices_S80x16_o0_6_S80x1) v10 (extractStridedSlice S80x1x32 ![0, 6, 0] v13 slices_S80x16x32_o0_6_0_S80x1x32) (concatenate S80x15x32 1 [⟨S80x6x32, extractStridedSlice S80x6x32 ![0, 0, 0] v13 slices_S80x16x32_o0_0_0_S80x6x32⟩, ⟨S80x9x32, extractStridedSlice S80x9x32 ![0, 7, 0] v13 slices_S80x16x32_o0_7_0_S80x9x32⟩] concatenates_S80x6x32_S80x9x32_S80x15x32_d1)

/-- Row 7: neighbour 7 against the fifteen others. -/
def row7 (v0 v2 v4 v6 : FVec F S80x16 .f32) (v10 : FVec F S80x32 .f32) (v13 : FVec F S80x16x32 .f32) : FVec F S80x15x99 .f32 :=
  rowCore (extractStridedSlice S80x1 ![0, 7] v0 slices_S80x16_o0_7_S80x1) (concatenate S80x15 1 [⟨S80x7, extractStridedSlice S80x7 ![0, 0] v0 slices_S80x16_o0_0_S80x7⟩, ⟨S80x8, extractStridedSlice S80x8 ![0, 8] v0 slices_S80x16_o0_8_S80x8⟩] concatenates_S80x7_S80x8_S80x15_d1) (concatenate S80x15 1 [⟨S80x7, extractStridedSlice S80x7 ![0, 0] v2 slices_S80x16_o0_0_S80x7⟩, ⟨S80x8, extractStridedSlice S80x8 ![0, 8] v2 slices_S80x16_o0_8_S80x8⟩] concatenates_S80x7_S80x8_S80x15_d1) (concatenate S80x15 1 [⟨S80x7, extractStridedSlice S80x7 ![0, 0] v4 slices_S80x16_o0_0_S80x7⟩, ⟨S80x8, extractStridedSlice S80x8 ![0, 8] v4 slices_S80x16_o0_8_S80x8⟩] concatenates_S80x7_S80x8_S80x15_d1) (concatenate S80x15 1 [⟨S80x7, extractStridedSlice S80x7 ![0, 0] v6 slices_S80x16_o0_0_S80x7⟩, ⟨S80x8, extractStridedSlice S80x8 ![0, 8] v6 slices_S80x16_o0_8_S80x8⟩] concatenates_S80x7_S80x8_S80x15_d1) (extractStridedSlice S80x1 ![0, 7] v2 slices_S80x16_o0_7_S80x1) (extractStridedSlice S80x1 ![0, 7] v4 slices_S80x16_o0_7_S80x1) (extractStridedSlice S80x1 ![0, 7] v6 slices_S80x16_o0_7_S80x1) v10 (extractStridedSlice S80x1x32 ![0, 7, 0] v13 slices_S80x16x32_o0_7_0_S80x1x32) (concatenate S80x15x32 1 [⟨S80x7x32, extractStridedSlice S80x7x32 ![0, 0, 0] v13 slices_S80x16x32_o0_0_0_S80x7x32⟩, ⟨S80x8x32, extractStridedSlice S80x8x32 ![0, 8, 0] v13 slices_S80x16x32_o0_8_0_S80x8x32⟩] concatenates_S80x7x32_S80x8x32_S80x15x32_d1)

/-- Row 8: neighbour 8 against the fifteen others. -/
def row8 (v0 v2 v4 v6 : FVec F S80x16 .f32) (v10 : FVec F S80x32 .f32) (v13 : FVec F S80x16x32 .f32) : FVec F S80x15x99 .f32 :=
  rowCore (extractStridedSlice S80x1 ![0, 8] v0 slices_S80x16_o0_8_S80x1) (concatenate S80x15 1 [⟨S80x8, extractStridedSlice S80x8 ![0, 0] v0 slices_S80x16_o0_0_S80x8⟩, ⟨S80x7, extractStridedSlice S80x7 ![0, 9] v0 slices_S80x16_o0_9_S80x7⟩] concatenates_S80x8_S80x7_S80x15_d1) (concatenate S80x15 1 [⟨S80x8, extractStridedSlice S80x8 ![0, 0] v2 slices_S80x16_o0_0_S80x8⟩, ⟨S80x7, extractStridedSlice S80x7 ![0, 9] v2 slices_S80x16_o0_9_S80x7⟩] concatenates_S80x8_S80x7_S80x15_d1) (concatenate S80x15 1 [⟨S80x8, extractStridedSlice S80x8 ![0, 0] v4 slices_S80x16_o0_0_S80x8⟩, ⟨S80x7, extractStridedSlice S80x7 ![0, 9] v4 slices_S80x16_o0_9_S80x7⟩] concatenates_S80x8_S80x7_S80x15_d1) (concatenate S80x15 1 [⟨S80x8, extractStridedSlice S80x8 ![0, 0] v6 slices_S80x16_o0_0_S80x8⟩, ⟨S80x7, extractStridedSlice S80x7 ![0, 9] v6 slices_S80x16_o0_9_S80x7⟩] concatenates_S80x8_S80x7_S80x15_d1) (extractStridedSlice S80x1 ![0, 8] v2 slices_S80x16_o0_8_S80x1) (extractStridedSlice S80x1 ![0, 8] v4 slices_S80x16_o0_8_S80x1) (extractStridedSlice S80x1 ![0, 8] v6 slices_S80x16_o0_8_S80x1) v10 (extractStridedSlice S80x1x32 ![0, 8, 0] v13 slices_S80x16x32_o0_8_0_S80x1x32) (concatenate S80x15x32 1 [⟨S80x8x32, extractStridedSlice S80x8x32 ![0, 0, 0] v13 slices_S80x16x32_o0_0_0_S80x8x32⟩, ⟨S80x7x32, extractStridedSlice S80x7x32 ![0, 9, 0] v13 slices_S80x16x32_o0_9_0_S80x7x32⟩] concatenates_S80x8x32_S80x7x32_S80x15x32_d1)

/-- Row 9: neighbour 9 against the fifteen others. -/
def row9 (v0 v2 v4 v6 : FVec F S80x16 .f32) (v10 : FVec F S80x32 .f32) (v13 : FVec F S80x16x32 .f32) : FVec F S80x15x99 .f32 :=
  rowCore (extractStridedSlice S80x1 ![0, 9] v0 slices_S80x16_o0_9_S80x1) (concatenate S80x15 1 [⟨S80x9, extractStridedSlice S80x9 ![0, 0] v0 slices_S80x16_o0_0_S80x9⟩, ⟨S80x6, extractStridedSlice S80x6 ![0, 10] v0 slices_S80x16_o0_10_S80x6⟩] concatenates_S80x9_S80x6_S80x15_d1) (concatenate S80x15 1 [⟨S80x9, extractStridedSlice S80x9 ![0, 0] v2 slices_S80x16_o0_0_S80x9⟩, ⟨S80x6, extractStridedSlice S80x6 ![0, 10] v2 slices_S80x16_o0_10_S80x6⟩] concatenates_S80x9_S80x6_S80x15_d1) (concatenate S80x15 1 [⟨S80x9, extractStridedSlice S80x9 ![0, 0] v4 slices_S80x16_o0_0_S80x9⟩, ⟨S80x6, extractStridedSlice S80x6 ![0, 10] v4 slices_S80x16_o0_10_S80x6⟩] concatenates_S80x9_S80x6_S80x15_d1) (concatenate S80x15 1 [⟨S80x9, extractStridedSlice S80x9 ![0, 0] v6 slices_S80x16_o0_0_S80x9⟩, ⟨S80x6, extractStridedSlice S80x6 ![0, 10] v6 slices_S80x16_o0_10_S80x6⟩] concatenates_S80x9_S80x6_S80x15_d1) (extractStridedSlice S80x1 ![0, 9] v2 slices_S80x16_o0_9_S80x1) (extractStridedSlice S80x1 ![0, 9] v4 slices_S80x16_o0_9_S80x1) (extractStridedSlice S80x1 ![0, 9] v6 slices_S80x16_o0_9_S80x1) v10 (extractStridedSlice S80x1x32 ![0, 9, 0] v13 slices_S80x16x32_o0_9_0_S80x1x32) (concatenate S80x15x32 1 [⟨S80x9x32, extractStridedSlice S80x9x32 ![0, 0, 0] v13 slices_S80x16x32_o0_0_0_S80x9x32⟩, ⟨S80x6x32, extractStridedSlice S80x6x32 ![0, 10, 0] v13 slices_S80x16x32_o0_10_0_S80x6x32⟩] concatenates_S80x9x32_S80x6x32_S80x15x32_d1)

/-- Row 10: neighbour 10 against the fifteen others. -/
def row10 (v0 v2 v4 v6 : FVec F S80x16 .f32) (v10 : FVec F S80x32 .f32) (v13 : FVec F S80x16x32 .f32) : FVec F S80x15x99 .f32 :=
  rowCore (extractStridedSlice S80x1 ![0, 10] v0 slices_S80x16_o0_10_S80x1) (concatenate S80x15 1 [⟨S80x10, extractStridedSlice S80x10 ![0, 0] v0 slices_S80x16_o0_0_S80x10⟩, ⟨S80x5, extractStridedSlice S80x5 ![0, 11] v0 slices_S80x16_o0_11_S80x5⟩] concatenates_S80x10_S80x5_S80x15_d1) (concatenate S80x15 1 [⟨S80x10, extractStridedSlice S80x10 ![0, 0] v2 slices_S80x16_o0_0_S80x10⟩, ⟨S80x5, extractStridedSlice S80x5 ![0, 11] v2 slices_S80x16_o0_11_S80x5⟩] concatenates_S80x10_S80x5_S80x15_d1) (concatenate S80x15 1 [⟨S80x10, extractStridedSlice S80x10 ![0, 0] v4 slices_S80x16_o0_0_S80x10⟩, ⟨S80x5, extractStridedSlice S80x5 ![0, 11] v4 slices_S80x16_o0_11_S80x5⟩] concatenates_S80x10_S80x5_S80x15_d1) (concatenate S80x15 1 [⟨S80x10, extractStridedSlice S80x10 ![0, 0] v6 slices_S80x16_o0_0_S80x10⟩, ⟨S80x5, extractStridedSlice S80x5 ![0, 11] v6 slices_S80x16_o0_11_S80x5⟩] concatenates_S80x10_S80x5_S80x15_d1) (extractStridedSlice S80x1 ![0, 10] v2 slices_S80x16_o0_10_S80x1) (extractStridedSlice S80x1 ![0, 10] v4 slices_S80x16_o0_10_S80x1) (extractStridedSlice S80x1 ![0, 10] v6 slices_S80x16_o0_10_S80x1) v10 (extractStridedSlice S80x1x32 ![0, 10, 0] v13 slices_S80x16x32_o0_10_0_S80x1x32) (concatenate S80x15x32 1 [⟨S80x10x32, extractStridedSlice S80x10x32 ![0, 0, 0] v13 slices_S80x16x32_o0_0_0_S80x10x32⟩, ⟨S80x5x32, extractStridedSlice S80x5x32 ![0, 11, 0] v13 slices_S80x16x32_o0_11_0_S80x5x32⟩] concatenates_S80x10x32_S80x5x32_S80x15x32_d1)

/-- Row 11: neighbour 11 against the fifteen others. -/
def row11 (v0 v2 v4 v6 : FVec F S80x16 .f32) (v10 : FVec F S80x32 .f32) (v13 : FVec F S80x16x32 .f32) : FVec F S80x15x99 .f32 :=
  rowCore (extractStridedSlice S80x1 ![0, 11] v0 slices_S80x16_o0_11_S80x1) (concatenate S80x15 1 [⟨S80x11, extractStridedSlice S80x11 ![0, 0] v0 slices_S80x16_o0_0_S80x11⟩, ⟨S80x4, extractStridedSlice S80x4 ![0, 12] v0 slices_S80x16_o0_12_S80x4⟩] concatenates_S80x11_S80x4_S80x15_d1) (concatenate S80x15 1 [⟨S80x11, extractStridedSlice S80x11 ![0, 0] v2 slices_S80x16_o0_0_S80x11⟩, ⟨S80x4, extractStridedSlice S80x4 ![0, 12] v2 slices_S80x16_o0_12_S80x4⟩] concatenates_S80x11_S80x4_S80x15_d1) (concatenate S80x15 1 [⟨S80x11, extractStridedSlice S80x11 ![0, 0] v4 slices_S80x16_o0_0_S80x11⟩, ⟨S80x4, extractStridedSlice S80x4 ![0, 12] v4 slices_S80x16_o0_12_S80x4⟩] concatenates_S80x11_S80x4_S80x15_d1) (concatenate S80x15 1 [⟨S80x11, extractStridedSlice S80x11 ![0, 0] v6 slices_S80x16_o0_0_S80x11⟩, ⟨S80x4, extractStridedSlice S80x4 ![0, 12] v6 slices_S80x16_o0_12_S80x4⟩] concatenates_S80x11_S80x4_S80x15_d1) (extractStridedSlice S80x1 ![0, 11] v2 slices_S80x16_o0_11_S80x1) (extractStridedSlice S80x1 ![0, 11] v4 slices_S80x16_o0_11_S80x1) (extractStridedSlice S80x1 ![0, 11] v6 slices_S80x16_o0_11_S80x1) v10 (extractStridedSlice S80x1x32 ![0, 11, 0] v13 slices_S80x16x32_o0_11_0_S80x1x32) (concatenate S80x15x32 1 [⟨S80x11x32, extractStridedSlice S80x11x32 ![0, 0, 0] v13 slices_S80x16x32_o0_0_0_S80x11x32⟩, ⟨S80x4x32, extractStridedSlice S80x4x32 ![0, 12, 0] v13 slices_S80x16x32_o0_12_0_S80x4x32⟩] concatenates_S80x11x32_S80x4x32_S80x15x32_d1)

/-- Row 12: neighbour 12 against the fifteen others. -/
def row12 (v0 v2 v4 v6 : FVec F S80x16 .f32) (v10 : FVec F S80x32 .f32) (v13 : FVec F S80x16x32 .f32) : FVec F S80x15x99 .f32 :=
  rowCore (extractStridedSlice S80x1 ![0, 12] v0 slices_S80x16_o0_12_S80x1) (concatenate S80x15 1 [⟨S80x12, extractStridedSlice S80x12 ![0, 0] v0 slices_S80x16_o0_0_S80x12⟩, ⟨S80x3, extractStridedSlice S80x3 ![0, 13] v0 slices_S80x16_o0_13_S80x3⟩] concatenates_S80x12_S80x3_S80x15_d1) (concatenate S80x15 1 [⟨S80x12, extractStridedSlice S80x12 ![0, 0] v2 slices_S80x16_o0_0_S80x12⟩, ⟨S80x3, extractStridedSlice S80x3 ![0, 13] v2 slices_S80x16_o0_13_S80x3⟩] concatenates_S80x12_S80x3_S80x15_d1) (concatenate S80x15 1 [⟨S80x12, extractStridedSlice S80x12 ![0, 0] v4 slices_S80x16_o0_0_S80x12⟩, ⟨S80x3, extractStridedSlice S80x3 ![0, 13] v4 slices_S80x16_o0_13_S80x3⟩] concatenates_S80x12_S80x3_S80x15_d1) (concatenate S80x15 1 [⟨S80x12, extractStridedSlice S80x12 ![0, 0] v6 slices_S80x16_o0_0_S80x12⟩, ⟨S80x3, extractStridedSlice S80x3 ![0, 13] v6 slices_S80x16_o0_13_S80x3⟩] concatenates_S80x12_S80x3_S80x15_d1) (extractStridedSlice S80x1 ![0, 12] v2 slices_S80x16_o0_12_S80x1) (extractStridedSlice S80x1 ![0, 12] v4 slices_S80x16_o0_12_S80x1) (extractStridedSlice S80x1 ![0, 12] v6 slices_S80x16_o0_12_S80x1) v10 (extractStridedSlice S80x1x32 ![0, 12, 0] v13 slices_S80x16x32_o0_12_0_S80x1x32) (concatenate S80x15x32 1 [⟨S80x12x32, extractStridedSlice S80x12x32 ![0, 0, 0] v13 slices_S80x16x32_o0_0_0_S80x12x32⟩, ⟨S80x3x32, extractStridedSlice S80x3x32 ![0, 13, 0] v13 slices_S80x16x32_o0_13_0_S80x3x32⟩] concatenates_S80x12x32_S80x3x32_S80x15x32_d1)

/-- Row 13: neighbour 13 against the fifteen others. -/
def row13 (v0 v2 v4 v6 : FVec F S80x16 .f32) (v10 : FVec F S80x32 .f32) (v13 : FVec F S80x16x32 .f32) : FVec F S80x15x99 .f32 :=
  rowCore (extractStridedSlice S80x1 ![0, 13] v0 slices_S80x16_o0_13_S80x1) (concatenate S80x15 1 [⟨S80x13, extractStridedSlice S80x13 ![0, 0] v0 slices_S80x16_o0_0_S80x13⟩, ⟨S80x2, extractStridedSlice S80x2 ![0, 14] v0 slices_S80x16_o0_14_S80x2⟩] concatenates_S80x13_S80x2_S80x15_d1) (concatenate S80x15 1 [⟨S80x13, extractStridedSlice S80x13 ![0, 0] v2 slices_S80x16_o0_0_S80x13⟩, ⟨S80x2, extractStridedSlice S80x2 ![0, 14] v2 slices_S80x16_o0_14_S80x2⟩] concatenates_S80x13_S80x2_S80x15_d1) (concatenate S80x15 1 [⟨S80x13, extractStridedSlice S80x13 ![0, 0] v4 slices_S80x16_o0_0_S80x13⟩, ⟨S80x2, extractStridedSlice S80x2 ![0, 14] v4 slices_S80x16_o0_14_S80x2⟩] concatenates_S80x13_S80x2_S80x15_d1) (concatenate S80x15 1 [⟨S80x13, extractStridedSlice S80x13 ![0, 0] v6 slices_S80x16_o0_0_S80x13⟩, ⟨S80x2, extractStridedSlice S80x2 ![0, 14] v6 slices_S80x16_o0_14_S80x2⟩] concatenates_S80x13_S80x2_S80x15_d1) (extractStridedSlice S80x1 ![0, 13] v2 slices_S80x16_o0_13_S80x1) (extractStridedSlice S80x1 ![0, 13] v4 slices_S80x16_o0_13_S80x1) (extractStridedSlice S80x1 ![0, 13] v6 slices_S80x16_o0_13_S80x1) v10 (extractStridedSlice S80x1x32 ![0, 13, 0] v13 slices_S80x16x32_o0_13_0_S80x1x32) (concatenate S80x15x32 1 [⟨S80x13x32, extractStridedSlice S80x13x32 ![0, 0, 0] v13 slices_S80x16x32_o0_0_0_S80x13x32⟩, ⟨S80x2x32, extractStridedSlice S80x2x32 ![0, 14, 0] v13 slices_S80x16x32_o0_14_0_S80x2x32⟩] concatenates_S80x13x32_S80x2x32_S80x15x32_d1)

/-- Row 14: neighbour 14 against the fifteen others. -/
def row14 (v0 v2 v4 v6 : FVec F S80x16 .f32) (v10 : FVec F S80x32 .f32) (v13 : FVec F S80x16x32 .f32) : FVec F S80x15x99 .f32 :=
  rowCore (extractStridedSlice S80x1 ![0, 14] v0 slices_S80x16_o0_14_S80x1) (concatenate S80x15 1 [⟨S80x14, extractStridedSlice S80x14 ![0, 0] v0 slices_S80x16_o0_0_S80x14⟩, ⟨S80x1, extractStridedSlice S80x1 ![0, 15] v0 slices_S80x16_o0_15_S80x1⟩] concatenates_S80x14_S80x1_S80x15_d1) (concatenate S80x15 1 [⟨S80x14, extractStridedSlice S80x14 ![0, 0] v2 slices_S80x16_o0_0_S80x14⟩, ⟨S80x1, extractStridedSlice S80x1 ![0, 15] v2 slices_S80x16_o0_15_S80x1⟩] concatenates_S80x14_S80x1_S80x15_d1) (concatenate S80x15 1 [⟨S80x14, extractStridedSlice S80x14 ![0, 0] v4 slices_S80x16_o0_0_S80x14⟩, ⟨S80x1, extractStridedSlice S80x1 ![0, 15] v4 slices_S80x16_o0_15_S80x1⟩] concatenates_S80x14_S80x1_S80x15_d1) (concatenate S80x15 1 [⟨S80x14, extractStridedSlice S80x14 ![0, 0] v6 slices_S80x16_o0_0_S80x14⟩, ⟨S80x1, extractStridedSlice S80x1 ![0, 15] v6 slices_S80x16_o0_15_S80x1⟩] concatenates_S80x14_S80x1_S80x15_d1) (extractStridedSlice S80x1 ![0, 14] v2 slices_S80x16_o0_14_S80x1) (extractStridedSlice S80x1 ![0, 14] v4 slices_S80x16_o0_14_S80x1) (extractStridedSlice S80x1 ![0, 14] v6 slices_S80x16_o0_14_S80x1) v10 (extractStridedSlice S80x1x32 ![0, 14, 0] v13 slices_S80x16x32_o0_14_0_S80x1x32) (concatenate S80x15x32 1 [⟨S80x14x32, extractStridedSlice S80x14x32 ![0, 0, 0] v13 slices_S80x16x32_o0_0_0_S80x14x32⟩, ⟨S80x1x32, extractStridedSlice S80x1x32 ![0, 15, 0] v13 slices_S80x16x32_o0_15_0_S80x1x32⟩] concatenates_S80x14x32_S80x1x32_S80x15x32_d1)

/-- Row 15: neighbour 15 against the fifteen others. -/
def row15 (v0 v2 v4 v6 : FVec F S80x16 .f32) (v10 : FVec F S80x32 .f32) (v13 : FVec F S80x16x32 .f32) : FVec F S80x15x99 .f32 :=
  rowCore (extractStridedSlice S80x1 ![0, 15] v0 slices_S80x16_o0_15_S80x1) (extractStridedSlice S80x15 ![0, 0] v0 slices_S80x16_o0_0_S80x15) (extractStridedSlice S80x15 ![0, 0] v2 slices_S80x16_o0_0_S80x15) (extractStridedSlice S80x15 ![0, 0] v4 slices_S80x16_o0_0_S80x15) (extractStridedSlice S80x15 ![0, 0] v6 slices_S80x16_o0_0_S80x15) (extractStridedSlice S80x1 ![0, 15] v2 slices_S80x16_o0_15_S80x1) (extractStridedSlice S80x1 ![0, 15] v4 slices_S80x16_o0_15_S80x1) (extractStridedSlice S80x1 ![0, 15] v6 slices_S80x16_o0_15_S80x1) v10 (extractStridedSlice S80x1x32 ![0, 15, 0] v13 slices_S80x16x32_o0_15_0_S80x1x32) (extractStridedSlice S80x15x32 ![0, 0, 0] v13 slices_S80x16x32_o0_0_0_S80x15x32)

/-- Rows 0 to 7, one after the other along axis 1. -/
def slab0 (v0 v2 v4 v6 : FVec F S80x16 .f32) (v10 : FVec F S80x32 .f32) (v13 : FVec F S80x16x32 .f32) : FVec F S80x120x99 .f32 :=
  concatenate S80x120x99 1 [⟨S80x15x99, row0 v0 v2 v4 v6 v10 v13⟩, ⟨S80x15x99, row1 v0 v2 v4 v6 v10 v13⟩, ⟨S80x15x99, row2 v0 v2 v4 v6 v10 v13⟩, ⟨S80x15x99, row3 v0 v2 v4 v6 v10 v13⟩, ⟨S80x15x99, row4 v0 v2 v4 v6 v10 v13⟩, ⟨S80x15x99, row5 v0 v2 v4 v6 v10 v13⟩, ⟨S80x15x99, row6 v0 v2 v4 v6 v10 v13⟩, ⟨S80x15x99, row7 v0 v2 v4 v6 v10 v13⟩] concatenates_S80x15x99_S80x15x99_S80x15x99_S80x15x99_S80x15x99_S80x15x99_S80x15x99_S80x15x99_S80x120x99_d1

/-- Rows 8 to 15, one after the other along axis 1. -/
def slab1 (v0 v2 v4 v6 : FVec F S80x16 .f32) (v10 : FVec F S80x32 .f32) (v13 : FVec F S80x16x32 .f32) : FVec F S80x120x99 .f32 :=
  concatenate S80x120x99 1 [⟨S80x15x99, row8 v0 v2 v4 v6 v10 v13⟩, ⟨S80x15x99, row9 v0 v2 v4 v6 v10 v13⟩, ⟨S80x15x99, row10 v0 v2 v4 v6 v10 v13⟩, ⟨S80x15x99, row11 v0 v2 v4 v6 v10 v13⟩, ⟨S80x15x99, row12 v0 v2 v4 v6 v10 v13⟩, ⟨S80x15x99, row13 v0 v2 v4 v6 v10 v13⟩, ⟨S80x15x99, row14 v0 v2 v4 v6 v10 v13⟩, ⟨S80x15x99, row15 v0 v2 v4 v6 v10 v13⟩] concatenates_S80x15x99_S80x15x99_S80x15x99_S80x15x99_S80x15x99_S80x15x99_S80x15x99_S80x15x99_S80x120x99_d1

/-- The two stores' payloads are the two slabs of rows: the printed operations of each row are those of `rowCore` on the
    row's own slices, and each store's value is the concatenation of its eight rows. -/
theorem out_regroup (x0 x1 x2 x3 : Vec F S80x16 .f32) (x4 : Vec F S80x16x32 .f32) (x5 : Vec F S80x32 .f32) :
    out0_6 x0 x1 x2 x3 x4 x5 =
      View.canon [⟨r0_4, slab1 (View.ld x0 r0_0) (k0_pay2 (View.ld x1 r0_0)) (k0_pay3 (View.ld x2 r0_0)) (k0_pay4 (View.ld x3 r0_0)) (k0_pay5 (View.ld x5 r0_2)) (k0_pay6 (View.ld x0 r0_0) (View.ld x4 r0_1))⟩,
        ⟨r0_3, slab0 (View.ld x0 r0_0) (k0_pay2 (View.ld x1 r0_0)) (k0_pay3 (View.ld x2 r0_0)) (k0_pay4 (View.ld x3 r0_0)) (k0_pay5 (View.ld x5 r0_2)) (k0_pay6 (View.ld x0 r0_0) (View.ld x4 r0_1))⟩] := rfl

theorem row0_entry (x0 x1 x2 x3 : Vec F S80x16 .f32) (x4 : Vec F S80x16x32 .f32) (x5 : Vec F S80x32 .f32)
    (r : Fin 80) (q : Fin 15) (f : Fin 99) :
    row0 x0 x1 x2 x3 x5 (k0_pay6 x0 x4) (ix3 r q f) = entry (sideK (FloatOps.ofBits (F := F) .f32 0x40000000#32)) x0 x1 x2 x3 x4 x5 r ⟨0, by omega⟩ ⟨skip 0 q, skip_lt q.isLt⟩ f.val :=
  rowCore_entry 0 (by omega) x0 x1 x2 x3 x4 x5 _ _ _ _ _ _ _ _ _ _
    (fun r => col2_apply 0 _ x0 _ r) (fun r q => drop2_first x0 _ r q) (fun r q => drop2_first x1 _ r q) (fun r q => drop2_first x2 _ r q) (fun r q => drop2_first x3 _ r q)
    (fun r => col2_apply 0 _ x1 _ r) (fun r => col2_apply 0 _ x2 _ r) (fun r => col2_apply 0 _ x3 _ r)
    (fun r g => (col3_apply 0 _ (k0_pay6 x0 x4) _ r g).trans (eod_apply x0 x4 r _ g))
    (fun r q g => (drop3_first (k0_pay6 x0 x4) _ r q g).trans (eod_apply x0 x4 r _ g)) r q f

theorem row1_entry (x0 x1 x2 x3 : Vec F S80x16 .f32) (x4 : Vec F S80x16x32 .f32) (x5 : Vec F S80x32 .f32)
    (r : Fin 80) (q : Fin 15) (f : Fin 99) :
    row1 x0 x1 x2 x3 x5 (k0_pay6 x0 x4) (ix3 r q f) = entry (sideK (FloatOps.ofBits (F := F) .f32 0x40000000#32)) x0 x1 x2 x3 x4 x5 r ⟨1, by omega⟩ ⟨skip 1 q, skip_lt q.isLt⟩ f.val :=
  rowCore_entry 1 (by omega) x0 x1 x2 x3 x4 x5 _ _ _ _ _ _ _ _ _ _
    (fun r => col2_apply 1 _ x0 _ r) (fun r q => drop2_apply 1 14 2 x0 _ _ rfl _ r q) (fun r q => drop2_apply 1 14 2 x1 _ _ rfl _ r q) (fun r q => drop2_apply 1 14 2 x2 _ _ rfl _ r q) (fun r q => drop2_apply 1 14 2 x3 _ _ rfl _ r q)
    (fun r => col2_apply 1 _ x1 _ r) (fun r => col2_apply 1 _ x2 _ r) (fun r => col2_apply 1 _ x3 _ r)
    (fun r g => (col3_apply 1 _ (k0_pay6 x0 x4) _ r g).trans (eod_apply x0 x4 r _ g))
    (fun r q g => (drop3_apply 1 14 2 (k0_pay6 x0 x4) _ _ rfl _ r q g).trans (eod_apply x0 x4 r _ g)) r q f

theorem row2_entry (x0 x1 x2 x3 : Vec F S80x16 .f32) (x4 : Vec F S80x16x32 .f32) (x5 : Vec F S80x32 .f32)
    (r : Fin 80) (q : Fin 15) (f : Fin 99) :
    row2 x0 x1 x2 x3 x5 (k0_pay6 x0 x4) (ix3 r q f) = entry (sideK (FloatOps.ofBits (F := F) .f32 0x40000000#32)) x0 x1 x2 x3 x4 x5 r ⟨2, by omega⟩ ⟨skip 2 q, skip_lt q.isLt⟩ f.val :=
  rowCore_entry 2 (by omega) x0 x1 x2 x3 x4 x5 _ _ _ _ _ _ _ _ _ _
    (fun r => col2_apply 2 _ x0 _ r) (fun r q => drop2_apply 2 13 3 x0 _ _ rfl _ r q) (fun r q => drop2_apply 2 13 3 x1 _ _ rfl _ r q) (fun r q => drop2_apply 2 13 3 x2 _ _ rfl _ r q) (fun r q => drop2_apply 2 13 3 x3 _ _ rfl _ r q)
    (fun r => col2_apply 2 _ x1 _ r) (fun r => col2_apply 2 _ x2 _ r) (fun r => col2_apply 2 _ x3 _ r)
    (fun r g => (col3_apply 2 _ (k0_pay6 x0 x4) _ r g).trans (eod_apply x0 x4 r _ g))
    (fun r q g => (drop3_apply 2 13 3 (k0_pay6 x0 x4) _ _ rfl _ r q g).trans (eod_apply x0 x4 r _ g)) r q f

theorem row3_entry (x0 x1 x2 x3 : Vec F S80x16 .f32) (x4 : Vec F S80x16x32 .f32) (x5 : Vec F S80x32 .f32)
    (r : Fin 80) (q : Fin 15) (f : Fin 99) :
    row3 x0 x1 x2 x3 x5 (k0_pay6 x0 x4) (ix3 r q f) = entry (sideK (FloatOps.ofBits (F := F) .f32 0x40000000#32)) x0 x1 x2 x3 x4 x5 r ⟨3, by omega⟩ ⟨skip 3 q, skip_lt q.isLt⟩ f.val :=
  rowCore_entry 3 (by omega) x0 x1 x2 x3 x4 x5 _ _ _ _ _ _ _ _ _ _
    (fun r => col2_apply 3 _ x0 _ r) (fun r q => drop2_apply 3 12 4 x0 _ _ rfl _ r q) (fun r q => drop2_apply 3 12 4 x1 _ _ rfl _ r q) (fun r q => drop2_apply 3 12 4 x2 _ _ rfl _ r q) (fun r q => drop2_apply 3 12 4 x3 _ _ rfl _ r q)
    (fun r => col2_apply 3 _ x1 _ r) (fun r => col2_apply 3 _ x2 _ r) (fun r => col2_apply 3 _ x3 _ r)
    (fun r g => (col3_apply 3 _ (k0_pay6 x0 x4) _ r g).trans (eod_apply x0 x4 r _ g))
    (fun r q g => (drop3_apply 3 12 4 (k0_pay6 x0 x4) _ _ rfl _ r q g).trans (eod_apply x0 x4 r _ g)) r q f

theorem row4_entry (x0 x1 x2 x3 : Vec F S80x16 .f32) (x4 : Vec F S80x16x32 .f32) (x5 : Vec F S80x32 .f32)
    (r : Fin 80) (q : Fin 15) (f : Fin 99) :
    row4 x0 x1 x2 x3 x5 (k0_pay6 x0 x4) (ix3 r q f) = entry (sideK (FloatOps.ofBits (F := F) .f32 0x40000000#32)) x0 x1 x2 x3 x4 x5 r ⟨4, by omega⟩ ⟨skip 4 q, skip_lt q.isLt⟩ f.val :=
  rowCore_entry 4 (by omega) x0 x1 x2 x3 x4 x5 _ _ _ _ _ _ _ _ _ _
    (fun r => col2_apply 4 _ x0 _ r) (fun r q => drop2_apply 4 11 5 x0 _ _ rfl _ r q) (fun r q => drop2_apply 4 11 5 x1 _ _ rfl _ r q) (fun r q => drop2_apply 4 11 5 x2 _ _ rfl _ r q) (fun r q => drop2_apply 4 11 5 x3 _ _ rfl _ r q)
    (fun r => col2_apply 4 _ x1 _ r) (fun r => col2_apply 4 _ x2 _ r) (fun r => col2_apply 4 _ x3 _ r)
    (fun r g => (col3_apply 4 _ (k0_pay6 x0 x4) _ r g).trans (eod_apply x0 x4 r _ g))
    (fun r q g => (drop3_apply 4 11 5 (k0_pay6 x0 x4) _ _ rfl _ r q g).trans (eod_apply x0 x4 r _ g)) r q f

theorem row5_entry (x0 x1 x2 x3 : Vec F S80x16 .f32) (x4 : Vec F S80x16x32 .f32) (x5 : Vec F S80x32 .f32)
    (r : Fin 80) (q : Fin 15) (f : Fin 99) :
    row5 x0 x1 x2 x3 x5 (k0_pay6 x0 x4) (ix3 r q f) = entry (sideK (FloatOps.ofBits (F := F) .f32 0x40000000#32)) x0 x1 x2 x3 x4 x5 r ⟨5, by omega⟩ ⟨skip 5 q, skip_lt q.isLt⟩ f.val :=
  rowCore_entry 5 (by omega) x0 x1 x2 x3 x4 x5 _ _ _ _ _ _ _ _ _ _
    (fun r => col2_apply 5 _ x0 _ r) (fun r q => drop2_apply 5 10 6 x0 _ _ rfl _ r q) (fun r q => drop2_apply 5 10 6 x1 _ _ rfl _ r q) (fun r q => drop2_apply 5 10 6 x2 _ _ rfl _ r q) (fun r q => drop2_apply 5 10 6 x3 _ _ rfl _ r q)
    (fun r => col2_apply 5 _ x1 _ r) (fun r => col2_apply 5 _ x2 _ r) (fun r => col2_apply 5 _ x3 _ r)
    (fun r g => (col3_apply 5 _ (k0_pay6 x0 x4) _ r g).trans (eod_apply x0 x4 r _ g))
    (fun r q g => (drop3_apply 5 10 6 (k0_pay6 x0 x4) _ _ rfl _ r q g).trans (eod_apply x0 x4 r _ g)) r q f

theorem row6_entry (x0 x1 x2 x3 : Vec F S80x16 .f32) (x4 : Vec F S80x16x32 .f32) (x5 : Vec F S80x32 .f32)
    (r : Fin 80) (q : Fin 15) (f : Fin 99) :
    row6 x0 x1 x2 x3 x5 (k0_pay6 x0 x4) (ix3 r q f) = entry (sideK (FloatOps.ofBits (F := F) .f32 0x40000000#32)) x0 x1 x2 x3 x4 x5 r ⟨6, by omega⟩ ⟨skip 6 q, skip_lt q.isLt⟩ f.val :=
  rowCore_entry 6 (by omega) x0 x1 x2 x3 x4 x5 _ _ _ _ _ _ _ _ _ _
    (fun r => col2_apply 6 _ x0 _ r) (fun r q => drop2_apply 6 9 7 x0 _ _ rfl _ r q) (fun r q => drop2_apply 6 9 7 x1 _ _ rfl _ r q) (fun r q => drop2_apply 6 9 7 x2 _ _ rfl _ r q) (fun r q => drop2_apply 6 9 7 x3 _ _ rfl _ r q)
    (fun r => col2_apply 6 _ x1 _ r) (fun r => col2_apply 6 _ x2 _ r) (fun r => col2_apply 6 _ x3 _ r)
    (fun r g => (col3_apply 6 _ (k0_pay6 x0 x4) _ r g).trans (eod_apply x0 x4 r _ g))
    (fun r q g => (drop3_apply 6 9 7 (k0_pay6 x0 x4) _ _ rfl _ r q g).trans (eod_apply x0 x4 r _ g)) r q f

theorem row7_entry (x0 x1 x2 x3 : Vec F S80x16 .f32) (x4 : Vec F S80x16x32 .f32) (x5 : Vec F S80x32 .f32)
    (r : Fin 80) (q : Fin 15) (f : Fin 99) :
    row7 x0 x1 x2 x3 x5 (k0_pay6 x0 x4) (ix3 r q f) = entry (sideK (FloatOps.ofBits (F := F) .f32 0x40000000#32)) x0 x1 x2 x3 x4 x5 r ⟨7, by omega⟩ ⟨skip 7 q, skip_lt q.isLt⟩ f.val :=
  rowCore_entry 7 (by omega) x0 x1 x2 x3 x4 x5 _ _ _ _ _ _ _ _ _ _
    (fun r => col2_apply 7 _ x0 _ r) (fun r q => drop2_apply 7 8 8 x0 _ _ rfl _ r q) (fun r q => drop2_apply 7 8 8 x1 _ _ rfl _ r q) (fun r q => drop2_apply 7 8 8 x2 _ _ rfl _ r q) (fun r q => drop2_apply 7 8 8 x3 _ _ rfl _ r q)
    (fun r => col2_apply 7 _ x1 _ r) (fun r => col2_apply 7 _ x2 _ r) (fun r => col2_apply 7 _ x3 _ r)
    (fun r g => (col3_apply 7 _ (k0_pay6 x0 x4) _ r g).trans (eod_apply x0 x4 r _ g))
    (fun r q g => (drop3_apply 7 8 8 (k0_pay6 x0 x4) _ _ rfl _ r q g).trans (eod_apply x0 x4 r _ g)) r q f

theorem row8_entry (x0 x1 x2 x3 : Vec F S80x16 .f32) (x4 : Vec F S80x16x32 .f32) (x5 : Vec F S80x32 .f32)
    (r : Fin 80) (q : Fin 15) (f : Fin 99) :
    row8 x0 x1 x2 x3 x5 (k0_pay6 x0 x4) (ix3 r q f) = entry (sideK (FloatOps.ofBits (F := F) .f32 0x40000000#32)) x0 x1 x2 x3 x4 x5 r ⟨8, by omega⟩ ⟨skip 8 q, skip_lt q.isLt⟩ f.val :=
  rowCore_entry 8 (by omega) x0 x1 x2 x3 x4 x5 _ _ _ _ _ _ _ _ _ _
    (fun r => col2_apply 8 _ x0 _ r) (fun r q => drop2_apply 8 7 9 x0 _ _ rfl _ r q) (fun r q => drop2_apply 8 7 9 x1 _ _ rfl _ r q) (fun r q => drop2_apply 8 7 9 x2 _ _ rfl _ r q) (fun r q => drop2_apply 8 7 9 x3 _ _ rfl _ r q)
    (fun r => col2_apply 8 _ x1 _ r) (fun r => col2_apply 8 _ x2 _ r) (fun r => col2_apply 8 _ x3 _ r)
    (fun r g => (col3_apply 8 _ (k0_pay6 x0 x4) _ r g).trans (eod_apply x0 x4 r _ g))
    (fun r q g => (drop3_apply 8 7 9 (k0_pay6 x0 x4) _ _ rfl _ r q g).trans (eod_apply x0 x4 r _ g)) r q f

theorem row9_entry (x0 x1 x2 x3 : Vec F S80x16 .f32) (x4 : Vec F S80x16x32 .f32) (x5 : Vec F S80x32 .f32)
    (r : Fin 80) (q : Fin 15) (f : Fin 99) :
    row9 x0 x1 x2 x3 x5 (k0_pay6 x0 x4) (ix3 r q f) = entry (sideK (FloatOps.ofBits (F := F) .f32 0x40000000#32)) x0 x1 x2 x3 x4 x5 r ⟨9, by omega⟩ ⟨skip 9 q, skip_lt q.isLt⟩ f.val :=
  rowCore_entry 9 (by omega) x0 x1 x2 x3 x4 x5 _ _ _ _ _ _ _ _ _ _
    (fun r => col2_apply 9 _ x0 _ r) (fun r q => drop2_apply 9 6 10 x0 _ _ rfl _ r q) (fun r q => drop2_apply 9 6 10 x1 _ _ rfl _ r q) (fun r q => drop2_apply 9 6 10 x2 _ _ rfl _ r q) (fun r q => drop2_apply 9 6 10 x3 _ _ rfl _ r q)
    (fun r => col2_apply 9 _ x1 _ r) (fun r => col2_apply 9 _ x2 _ r) (fun r => col2_apply 9 _ x3 _ r)
    (fun r g => (col3_apply 9 _ (k0_pay6 x0 x4) _ r g).trans (eod_apply x0 x4 r _ g))
    (fun r q g => (drop3_apply 9 6 10 (k0_pay6 x0 x4) _ _ rfl _ r q g).trans (eod_apply x0 x4 r _ g)) r q f

theorem row10_entry (x0 x1 x2 x3 : Vec F S80x16 .f32) (x4 : Vec F S80x16x32 .f32) (x5 : Vec F S80x32 .f32)
    (r : Fin 80) (q : Fin 15) (f : Fin 99) :
    row10 x0 x1 x2 x3 x5 (k0_pay6 x0 x4) (ix3 r q f) = entry (sideK (FloatOps.ofBits (F := F) .f32 0x40000000#32)) x0 x1 x2 x3 x4 x5 r ⟨10, by omega⟩ ⟨skip 10 q, skip_lt q.isLt⟩ f.val :=
  rowCore_entry 10 (by omega) x0 x1 x2 x3 x4 x5 _ _ _ _ _ _ _ _ _ _
    (fun r => col2_apply 10 _ x0 _ r) (fun r q => drop2_apply 10 5 11 x0 _ _ rfl _ r q) (fun r q => drop2_apply 10 5 11 x1 _ _ rfl _ r q) (fun r q => drop2_apply 10 5 11 x2 _ _ rfl _ r q) (fun r q => drop2_apply 10 5 11 x3 _ _ rfl _ r q)
    (fun r => col2_apply 10 _ x1 _ r) (fun r => col2_apply 10 _ x2 _ r) (fun r => col2_apply 10 _ x3 _ r)
    (fun r g => (col3_apply 10 _ (k0_pay6 x0 x4) _ r g).trans (eod_apply x0 x4 r _ g))
    (fun r q g => (drop3_apply 10 5 11 (k0_pay6 x0 x4) _ _ rfl _ r q g).trans (eod_apply x0 x4 r _ g)) r q f

theorem row11_entry (x0 x1 x2 x3 : Vec F S80x16 .f32) (x4 : Vec F S80x16x32 .f32) (x5 : Vec F S80x32 .f32)
    (r : Fin 80) (q : Fin 15) (f : Fin 99) :
    row11 x0 x1 x2 x3 x5 (k0_pay6 x0 x4) (ix3 r q f) = entry (sideK (FloatOps.ofBits (F := F) .f32 0x40000000#32)) x0 x1 x2 x3 x4 x5 r ⟨11, by omega⟩ ⟨skip 11 q, skip_lt q.isLt⟩ f.val :=
  rowCore_entry 11 (by omega) x0 x1 x2 x3 x4 x5 _ _ _ _ _ _ _ _ _ _
    (fun r => col2_apply 11 _ x0 _ r) (fun r q => drop2_apply 11 4 12 x0 _ _ rfl _ r q) (fun r q => drop2_apply 11 4 12 x1 _ _ rfl _ r q) (fun r q => drop2_apply 11 4 12 x2 _ _ rfl _ r q) (fun r q => drop2_apply 11 4 12 x3 _ _ rfl _ r q)
    (fun r => col2_apply 11 _ x1 _ r) (fun r => col2_apply 11 _ x2 _ r) (fun r => col2_apply 11 _ x3 _ r)
    (fun r g => (col3_apply 11 _ (k0_pay6 x0 x4) _ r g).trans (eod_apply x0 x4 r _ g))
    (fun r q g => (drop3_apply 11 4 12 (k0_pay6 x0 x4) _ _ rfl _ r q g).trans (eod_apply x0 x4 r _ g)) r q f

theorem row12_entry (x0 x1 x2 x3 : Vec F S80x16 .f32) (x4 : Vec F S80x16x32 .f32) (x5 : Vec F S80x32 .f32)
    (r : Fin 80) (q : Fin 15) (f : Fin 99) :
    row12 x0 x1 x2 x3 x5 (k0_pay6 x0 x4) (ix3 r q f) = entry (sideK (FloatOps.ofBits (F := F) .f32 0x40000000#32)) x0 x1 x2 x3 x4 x5 r ⟨12, by omega⟩ ⟨skip 12 q, skip_lt q.isLt⟩ f.val :=
  rowCore_entry 12 (by omega) x0 x1 x2 x3 x4 x5 _ _ _ _ _ _ _ _ _ _
    (fun r => col2_apply 12 _ x0 _ r) (fun r q => drop2_apply 12 3 13 x0 _ _ rfl _ r q) (fun r q => drop2_apply 12 3 13 x1 _ _ rfl _ r q) (fun r q => drop2_apply 12 3 13 x2 _ _ rfl _ r q) (fun r q => drop2_apply 12 3 13 x3 _ _ rfl _ r q)
    (fun r => col2_apply 12 _ x1 _ r) (fun r => col2_apply 12 _ x2 _ r) (fun r => col2_apply 12 _ x3 _ r)
    (fun r g => (col3_apply 12 _ (k0_pay6 x0 x4) _ r g).trans (eod_apply x0 x4 r _ g))
    (fun r q g => (drop3_apply 12 3 13 (k0_pay6 x0 x4) _ _ rfl _ r q g).trans (eod_apply x0 x4 r _ g)) r q f

theorem row13_entry (x0 x1 x2 x3 : Vec F S80x16 .f32) (x4 : Vec F S80x16x32 .f32) (x5 : Vec F S80x32 .f32)
    (r : Fin 80) (q : Fin 15) (f : Fin 99) :
    row13 x0 x1 x2 x3 x5 (k0_pay6 x0 x4) (ix3 r q f) = entry (sideK (FloatOps.ofBits (F := F) .f32 0x40000000#32)) x0 x1 x2 x3 x4 x5 r ⟨13, by omega⟩ ⟨skip 13 q, skip_lt q.isLt⟩ f.val :=
  rowCore_entry 13 (by omega) x0 x1 x2 x3 x4 x5 _ _ _ _ _ _ _ _ _ _
    (fun r => col2_apply 13 _ x0 _ r) (fun r q => drop2_apply 13 2 14 x0 _ _ rfl _ r q) (fun r q => drop2_apply 13 2 14 x1 _ _ rfl _ r q) (fun r q => drop2_apply 13 2 14 x2 _ _ rfl _ r q) (fun r q => drop2_apply 13 2 14 x3 _ _ rfl _ r q)
    (fun r => col2_apply 13 _ x1 _ r) (fun r => col2_apply 13 _ x2 _ r) (fun r => col2_apply 13 _ x3 _ r)
    (fun r g => (col3_apply 13 _ (k0_pay6 x0 x4) _ r g).trans (eod_apply x0 x4 r _ g))
    (fun r q g => (drop3_apply 13 2 14 (k0_pay6 x0 x4) _ _ rfl _ r q g).trans (eod_apply x0 x4 r _ g)) r q f

theorem row14_entry (x0 x1 x2 x3 : Vec F S80x16 .f32) (x4 : Vec F S80x16x32 .f32) (x5 : Vec F S80x32 .f32)
    (r : Fin 80) (q : Fin 15) (f : Fin 99) :
    row14 x0 x1 x2 x3 x5 (k0_pay6 x0 x4) (ix3 r q f) = entry (sideK (FloatOps.ofBits (F := F) .f32 0x40000000#32)) x0 x1 x2 x3 x4 x5 r ⟨14, by omega⟩ ⟨skip 14 q, skip_lt q.isLt⟩ f.val :=
  rowCore_entry 14 (by omega) x0 x1 x2 x3 x4 x5 _ _ _ _ _ _ _ _ _ _
    (fun r => col2_apply 14 _ x0 _ r) (fun r q => drop2_apply 14 1 15 x0 _ _ rfl _ r q) (fun r q => drop2_apply 14 1 15 x1 _ _ rfl _ r q) (fun r q => drop2_apply 14 1 15 x2 _ _ rfl _ r q) (fun r q => drop2_apply 14 1 15 x3 _ _ rfl _ r q)
    (fun r => col2_apply 14 _ x1 _ r) (fun r => col2_apply 14 _ x2 _ r) (fun r => col2_apply 14 _ x3 _ r)
    (fun r g => (col3_apply 14 _ (k0_pay6 x0 x4) _ r g).trans (eod_apply x0 x4 r _ g))
    (fun r q g => (drop3_apply 14 1 15 (k0_pay6 x0 x4) _ _ rfl _ r q g).trans (eod_apply x0 x4 r _ g)) r q f

theorem row15_entry (x0 x1 x2 x3 : Vec F S80x16 .f32) (x4 : Vec F S80x16x32 .f32) (x5 : Vec F S80x32 .f32)
    (r : Fin 80) (q : Fin 15) (f : Fin 99) :
    row15 x0 x1 x2 x3 x5 (k0_pay6 x0 x4) (ix3 r q f) = entry (sideK (FloatOps.ofBits (F := F) .f32 0x40000000#32)) x0 x1 x2 x3 x4 x5 r ⟨15, by omega⟩ ⟨skip 15 q, skip_lt q.isLt⟩ f.val :=
  rowCore_entry 15 (by omega) x0 x1 x2 x3 x4 x5 _ _ _ _ _ _ _ _ _ _
    (fun r => col2_apply 15 _ x0 _ r) (fun r q => drop2_last x0 _ r q) (fun r q => drop2_last x1 _ r q) (fun r q => drop2_last x2 _ r q) (fun r q => drop2_last x3 _ r q)
    (fun r => col2_apply 15 _ x1 _ r) (fun r => col2_apply 15 _ x2 _ r) (fun r => col2_apply 15 _ x3 _ r)
    (fun r g => (col3_apply 15 _ (k0_pay6 x0 x4) _ r g).trans (eod_apply x0 x4 r _ g))
    (fun r q g => (drop3_last (k0_pay6 x0 x4) _ r q g).trans (eod_apply x0 x4 r _ g)) r q f

/-- Slab 0 read at an index: position 15 a + q of axis 1 is row 0 + a at q. -/
theorem slab0_apply (x0 x1 x2 x3 : Vec F S80x16 .f32) (x4 : Vec F S80x16x32 .f32) (x5 : Vec F S80x32 .f32)
    (a : ℕ) (ha : a < 8) (r : Fin 80) (q : Fin 15) (f : Fin 99) :
    slab0 x0 x1 x2 x3 x5 (k0_pay6 x0 x4) (ix3 r (⟨15 * a + q.val, by omega⟩ : Fin 120) f)
      = entry (sideK (FloatOps.ofBits (F := F) .f32 0x40000000#32)) x0 x1 x2 x3 x4 x5 r ⟨0 + a, by omega⟩ ⟨skip (0 + a) q, skip_lt q.isLt⟩ f.val := by
  unfold slab0
  match a, ha with
  | 0, _ =>
    refine Eq.trans ?_ (row0_entry x0 x1 x2 x3 x4 x5 r q f)
    exact concatenate_apply_piece (t := S80x120x99) (1 : Fin 3) [⟨S80x15x99, row0 x0 x1 x2 x3 x5 (k0_pay6 x0 x4)⟩, ⟨S80x15x99, row1 x0 x1 x2 x3 x5 (k0_pay6 x0 x4)⟩, ⟨S80x15x99, row2 x0 x1 x2 x3 x5 (k0_pay6 x0 x4)⟩, ⟨S80x15x99, row3 x0 x1 x2 x3 x5 (k0_pay6 x0 x4)⟩, ⟨S80x15x99, row4 x0 x1 x2 x3 x5 (k0_pay6 x0 x4)⟩, ⟨S80x15x99, row5 x0 x1 x2 x3 x5 (k0_pay6 x0 x4)⟩, ⟨S80x15x99, row6 x0 x1 x2 x3 x5 (k0_pay6 x0 x4)⟩, ⟨S80x15x99, row7 x0 x1 x2 x3 x5 (k0_pay6 x0 x4)⟩] _
      (ix3 r (⟨15 * 0 + q.val, by omega⟩ : Fin 120) f) 0 (by show 0 < 8; decide) S80x15x99 _ rfl rfl 0 rfl (ix3 r q f)
      (fun b hb => match b with | ⟨0, _⟩ => rfl | ⟨1, _⟩ => absurd rfl hb | ⟨2, _⟩ => rfl) rfl
  | 1, _ =>
    refine Eq.trans ?_ (row1_entry x0 x1 x2 x3 x4 x5 r q f)
    exact concatenate_apply_piece (t := S80x120x99) (1 : Fin 3) [⟨S80x15x99, row0 x0 x1 x2 x3 x5 (k0_pay6 x0 x4)⟩, ⟨S80x15x99, row1 x0 x1 x2 x3 x5 (k0_pay6 x0 x4)⟩, ⟨S80x15x99, row2 x0 x1 x2 x3 x5 (k0_pay6 x0 x4)⟩, ⟨S80x15x99, row3 x0 x1 x2 x3 x5 (k0_pay6 x0 x4)⟩, ⟨S80x15x99, row4 x0 x1 x2 x3 x5 (k0_pay6 x0 x4)⟩, ⟨S80x15x99, row5 x0 x1 x2 x3 x5 (k0_pay6 x0 x4)⟩, ⟨S80x15x99, row6 x0 x1 x2 x3 x5 (k0_pay6 x0 x4)⟩, ⟨S80x15x99, row7 x0 x1 x2 x3 x5 (k0_pay6 x0 x4)⟩] _
      (ix3 r (⟨15 * 1 + q.val, by omega⟩ : Fin 120) f) 1 (by show 1 < 8; decide) S80x15x99 _ rfl rfl 15 rfl (ix3 r q f)
      (fun b hb => match b with | ⟨0, _⟩ => rfl | ⟨1, _⟩ => absurd rfl hb | ⟨2, _⟩ => rfl) rfl
  | 2, _ =>
    refine Eq.trans ?_ (row2_entry x0 x1 x2 x3 x4 x5 r q f)
    exact concatenate_apply_piece (t := S80x120x99) (1 : Fin 3) [⟨S80x15x99, row0 x0 x1 x2 x3 x5 (k0_pay6 x0 x4)⟩, ⟨S80x15x99, row1 x0 x1 x2 x3 x5 (k0_pay6 x0 x4)⟩, ⟨S80x15x99, row2 x0 x1 x2 x3 x5 (k0_pay6 x0 x4)⟩, ⟨S80x15x99, row3 x0 x1 x2 x3 x5 (k0_pay6 x0 x4)⟩, ⟨S80x15x99, row4 x0 x1 x2 x3 x5 (k0_pay6 x0 x4)⟩, ⟨S80x15x99, row5 x0 x1 x2 x3 x5 (k0_pay6 x0 x4)⟩, ⟨S80x15x99, row6 x0 x1 x2 x3 x5 (k0_pay6 x0 x4)⟩, ⟨S80x15x99, row7 x0 x1 x2 x3 x5 (k0_pay6 x0 x4)⟩] _
      (ix3 r (⟨15 * 2 + q.val, by omega⟩ : Fin 120) f) 2 (by show 2 < 8; decide) S80x15x99 _ rfl rfl 30 rfl (ix3 r q f)
      (fun b hb => match b with | ⟨0, _⟩ => rfl | ⟨1, _⟩ => absurd rfl hb | ⟨2, _⟩ => rfl) rfl
  | 3, _ =>
    refine Eq.trans ?_ (row3_entry x0 x1 x2 x3 x4 x5 r q f)
    exact concatenate_apply_piece (t := S80x120x99) (1 : Fin 3) [⟨S80x15x99, row0 x0 x1 x2 x3 x5 (k0_pay6 x0 x4)⟩, ⟨S80x15x99, row1 x0 x1 x2 x3 x5 (k0_pay6 x0 x4)⟩, ⟨S80x15x99, row2 x0 x1 x2 x3 x5 (k0_pay6 x0 x4)⟩, ⟨S80x15x99, row3 x0 x1 x2 x3 x5 (k0_pay6 x0 x4)⟩, ⟨S80x15x99, row4 x0 x1 x2 x3 x5 (k0_pay6 x0 x4)⟩, ⟨S80x15x99, row5 x0 x1 x2 x3 x5 (k0_pay6 x0 x4)⟩, ⟨S80x15x99, row6 x0 x1 x2 x3 x5 (k0_pay6 x0 x4)⟩, ⟨S80x15x99, row7 x0 x1 x2 x3 x5 (k0_pay6 x0 x4)⟩] _
      (ix3 r (⟨15 * 3 + q.val, by omega⟩ : Fin 120) f) 3 (by show 3 < 8; decide) S80x15x99 _ rfl rfl 45 rfl (ix3 r q f)
      (fun b hb => match b with | ⟨0, _⟩ => rfl | ⟨1, _⟩ => absurd rfl hb | ⟨2, _⟩ => rfl) rfl
  | 4, _ =>
    refine Eq.trans ?_ (row4_entry x0 x1 x2 x3 x4 x5 r q f)
    exact concatenate_apply_piece (t := S80x120x99) (1 : Fin 3) [⟨S80x15x99, row0 x0 x1 x2 x3 x5 (k0_pay6 x0 x4)⟩, ⟨S80x15x99, row1 x0 x1 x2 x3 x5 (k0_pay6 x0 x4)⟩, ⟨S80x15x99, row2 x0 x1 x2 x3 x5 (k0_pay6 x0 x4)⟩, ⟨S80x15x99, row3 x0 x1 x2 x3 x5 (k0_pay6 x0 x4)⟩, ⟨S80x15x99, row4 x0 x1 x2 x3 x5 (k0_pay6 x0 x4)⟩, ⟨S80x15x99, row5 x0 x1 x2 x3 x5 (k0_pay6 x0 x4)⟩, ⟨S80x15x99, row6 x0 x1 x2 x3 x5 (k0_pay6 x0 x4)⟩, ⟨S80x15x99, row7 x0 x1 x2 x3 x5 (k0_pay6 x0 x4)⟩] _
      (ix3 r (⟨15 * 4 + q.val, by omega⟩ : Fin 120) f) 4 (by show 4 < 8; decide) S80x15x99 _ rfl rfl 60 rfl (ix3 r q f)
      (fun b hb => match b with | ⟨0, _⟩ => rfl | ⟨1, _⟩ => absurd rfl hb | ⟨2, _⟩ => rfl) rfl
  | 5, _ =>
    refine Eq.trans ?_ (row5_entry x0 x1 x2 x3 x4 x5 r q f)
    exact concatenate_apply_piece (t := S80x120x99) (1 : Fin 3) [⟨S80x15x99, row0 x0 x1 x2 x3 x5 (k0_pay6 x0 x4)⟩, ⟨S80x15x99, row1 x0 x1 x2 x3 x5 (k0_pay6 x0 x4)⟩, ⟨S80x15x99, row2 x0 x1 x2 x3 x5 (k0_pay6 x0 x4)⟩, ⟨S80x15x99, row3 x0 x1 x2 x3 x5 (k0_pay6 x0 x4)⟩, ⟨S80x15x99, row4 x0 x1 x2 x3 x5 (k0_pay6 x0 x4)⟩, ⟨S80x15x99, row5 x0 x1 x2 x3 x5 (k0_pay6 x0 x4)⟩, ⟨S80x15x99, row6 x0 x1 x2 x3 x5 (k0_pay6 x0 x4)⟩, ⟨S80x15x99, row7 x0 x1 x2 x3 x5 (k0_pay6 x0 x4)⟩] _
      (ix3 r (⟨15 * 5 + q.val, by omega⟩ : Fin 120) f) 5 (by show 5 < 8; decide) S80x15x99 _ rfl rfl 75 rfl (ix3 r q f)
      (fun b hb => match b with | ⟨0, _⟩ => rfl | ⟨1, _⟩ => absurd rfl hb | ⟨2, _⟩ => rfl) rfl
  | 6, _ =>
    refine Eq.trans ?_ (row6_entry x0 x1 x2 x3 x4 x5 r q f)
    exact concatenate_apply_piece (t := S80x120x99) (1 : Fin 3) [⟨S80x15x99, row0 x0 x1 x2 x3 x5 (k0_pay6 x0 x4)⟩, ⟨S80x15x99, row1 x0 x1 x2 x3 x5 (k0_pay6 x0 x4)⟩, ⟨S80x15x99, row2 x0 x1 x2 x3 x5 (k0_pay6 x0 x4)⟩, ⟨S80x15x99, row3 x0 x1 x2 x3 x5 (k0_pay6 x0 x4)⟩, ⟨S80x15x99, row4 x0 x1 x2 x3 x5 (k0_pay6 x0 x4)⟩, ⟨S80x15x99, row5 x0 x1 x2 x3 x5 (k0_pay6 x0 x4)⟩, ⟨S80x15x99, row6 x0 x1 x2 x3 x5 (k0_pay6 x0 x4)⟩, ⟨S80x15x99, row7 x0 x1 x2 x3 x5 (k0_pay6 x0 x4)⟩] _
      (ix3 r (⟨15 * 6 + q.val, by omega⟩ : Fin 120) f) 6 (by show 6 < 8; decide) S80x15x99 _ rfl rfl 90 rfl (ix3 r q f)
      (fun b hb => match b with | ⟨0, _⟩ => rfl | ⟨1, _⟩ => absurd rfl hb | ⟨2, _⟩ => rfl) rfl
  | 7, _ =>
    refine Eq.trans ?_ (row7_entry x0 x1 x2 x3 x4 x5 r q f)
    exact concatenate_apply_piece (t := S80x120x99) (1 : Fin 3) [⟨S80x15x99, row0 x0 x1 x2 x3 x5 (k0_pay6 x0 x4)⟩, ⟨S80x15x99, row1 x0 x1 x2 x3 x5 (k0_pay6 x0 x4)⟩, ⟨S80x15x99, row2 x0 x1 x2 x3 x5 (k0_pay6 x0 x4)⟩, ⟨S80x15x99, row3 x0 x1 x2 x3 x5 (k0_pay6 x0 x4)⟩, ⟨S80x15x99, row4 x0 x1 x2 x3 x5 (k0_pay6 x0 x4)⟩, ⟨S80x15x99, row5 x0 x1 x2 x3 x5 (k0_pay6 x0 x4)⟩, ⟨S80x15x99, row6 x0 x1 x2 x3 x5 (k0_pay6 x0 x4)⟩, ⟨S80x15x99, row7 x0 x1 x2 x3 x5 (k0_pay6 x0 x4)⟩] _
      (ix3 r (⟨15 * 7 + q.val, by omega⟩ : Fin 120) f) 7 (by show 7 < 8; decide) S80x15x99 _ rfl rfl 105 rfl (ix3 r q f)
      (fun b hb => match b with | ⟨0, _⟩ => rfl | ⟨1, _⟩ => absurd rfl hb | ⟨2, _⟩ => rfl) rfl
  | n + 8, h => exact absurd h (by omega)

/-- Slab 1 read at an index: position 15 a + q of axis 1 is row 8 + a at q. -/
theorem slab1_apply (x0 x1 x2 x3 : Vec F S80x16 .f32) (x4 : Vec F S80x16x32 .f32) (x5 : Vec F S80x32 .f32)
    (a : ℕ) (ha : a < 8) (r : Fin 80) (q : Fin 15) (f : Fin 99) :
    slab1 x0 x1 x2 x3 x5 (k0_pay6 x0 x4) (ix3 r (⟨15 * a + q.val, by omega⟩ : Fin 120) f)
      = entry (sideK (FloatOps.ofBits (F := F) .f32 0x40000000#32)) x0 x1 x2 x3 x4 x5 r ⟨8 + a, by omega⟩ ⟨skip (8 + a) q, skip_lt q.isLt⟩ f.val := by
  unfold slab1
  match a, ha with
  | 0, _ =>
    refine Eq.trans ?_ (row8_entry x0 x1 x2 x3 x4 x5 r q f)
    exact concatenate_apply_piece (t := S80x120x99) (1 : Fin 3) [⟨S80x15x99, row8 x0 x1 x2 x3 x5 (k0_pay6 x0 x4)⟩, ⟨S80x15x99, row9 x0 x1 x2 x3 x5 (k0_pay6 x0 x4)⟩, ⟨S80x15x99, row10 x0 x1 x2 x3 x5 (k0_pay6 x0 x4)⟩, ⟨S80x15x99, row11 x0 x1 x2 x3 x5 (k0_pay6 x0 x4)⟩, ⟨S80x15x99, row12 x0 x1 x2 x3 x5 (k0_pay6 x0 x4)⟩, ⟨S80x15x99, row13 x0 x1 x2 x3 x5 (k0_pay6 x0 x4)⟩, ⟨S80x15x99, row14 x0 x1 x2 x3 x5 (k0_pay6 x0 x4)⟩, ⟨S80x15x99, row15 x0 x1 x2 x3 x5 (k0_pay6 x0 x4)⟩] _
      (ix3 r (⟨15 * 0 + q.val, by omega⟩ : Fin 120) f) 0 (by show 0 < 8; decide) S80x15x99 _ rfl rfl 0 rfl (ix3 r q f)
      (fun b hb => match b with | ⟨0, _⟩ => rfl | ⟨1, _⟩ => absurd rfl hb | ⟨2, _⟩ => rfl) rfl
  | 1, _ =>
    refine Eq.trans ?_ (row9_entry x0 x1 x2 x3 x4 x5 r q f)
    exact concatenate_apply_piece (t := S80x120x99) (1 : Fin 3) [⟨S80x15x99, row8 x0 x1 x2 x3 x5 (k0_pay6 x0 x4)⟩, ⟨S80x15x99, row9 x0 x1 x2 x3 x5 (k0_pay6 x0 x4)⟩, ⟨S80x15x99, row10 x0 x1 x2 x3 x5 (k0_pay6 x0 x4)⟩, ⟨S80x15x99, row11 x0 x1 x2 x3 x5 (k0_pay6 x0 x4)⟩, ⟨S80x15x99, row12 x0 x1 x2 x3 x5 (k0_pay6 x0 x4)⟩, ⟨S80x15x99, row13 x0 x1 x2 x3 x5 (k0_pay6 x0 x4)⟩, ⟨S80x15x99, row14 x0 x1 x2 x3 x5 (k0_pay6 x0 x4)⟩, ⟨S80x15x99, row15 x0 x1 x2 x3 x5 (k0_pay6 x0 x4)⟩] _
      (ix3 r (⟨15 * 1 + q.val, by omega⟩ : Fin 120) f) 1 (by show 1 < 8; decide) S80x15x99 _ rfl rfl 15 rfl (ix3 r q f)
      (fun b hb => match b with | ⟨0, _⟩ => rfl | ⟨1, _⟩ => absurd rfl hb | ⟨2, _⟩ => rfl) rfl
  | 2, _ =>
    refine Eq.trans ?_ (row10_entry x0 x1 x2 x3 x4 x5 r q f)
    exact concatenate_apply_piece (t := S80x120x99) (1 : Fin 3) [⟨S80x15x99, row8 x0 x1 x2 x3 x5 (k0_pay6 x0 x4)⟩, ⟨S80x15x99, row9 x0 x1 x2 x3 x5 (k0_pay6 x0 x4)⟩, ⟨S80x15x99, row10 x0 x1 x2 x3 x5 (k0_pay6 x0 x4)⟩, ⟨S80x15x99, row11 x0 x1 x2 x3 x5 (k0_pay6 x0 x4)⟩, ⟨S80x15x99, row12 x0 x1 x2 x3 x5 (k0_pay6 x0 x4)⟩, ⟨S80x15x99, row13 x0 x1 x2 x3 x5 (k0_pay6 x0 x4)⟩, ⟨S80x15x99, row14 x0 x1 x2 x3 x5 (k0_pay6 x0 x4)⟩, ⟨S80x15x99, row15 x0 x1 x2 x3 x5 (k0_pay6 x0 x4)⟩] _
      (ix3 r (⟨15 * 2 + q.val, by omega⟩ : Fin 120) f) 2 (by show 2 < 8; decide) S80x15x99 _ rfl rfl 30 rfl (ix3 r q f)
      (fun b hb => match b with | ⟨0, _⟩ => rfl | ⟨1, _⟩ => absurd rfl hb | ⟨2, _⟩ => rfl) rfl
  | 3, _ =>
    refine Eq.trans ?_ (row11_entry x0 x1 x2 x3 x4 x5 r q f)
    exact concatenate_apply_piece (t := S80x120x99) (1 : Fin 3) [⟨S80x15x99, row8 x0 x1 x2 x3 x5 (k0_pay6 x0 x4)⟩, ⟨S80x15x99, row9 x0 x1 x2 x3 x5 (k0_pay6 x0 x4)⟩, ⟨S80x15x99, row10 x0 x1 x2 x3 x5 (k0_pay6 x0 x4)⟩, ⟨S80x15x99, row11 x0 x1 x2 x3 x5 (k0_pay6 x0 x4)⟩, ⟨S80x15x99, row12 x0 x1 x2 x3 x5 (k0_pay6 x0 x4)⟩, ⟨S80x15x99, row13 x0 x1 x2 x3 x5 (k0_pay6 x0 x4)⟩, ⟨S80x15x99, row14 x0 x1 x2 x3 x5 (k0_pay6 x0 x4)⟩, ⟨S80x15x99, row15 x0 x1 x2 x3 x5 (k0_pay6 x0 x4)⟩] _
      (ix3 r (⟨15 * 3 + q.val, by omega⟩ : Fin 120) f) 3 (by show 3 < 8; decide) S80x15x99 _ rfl rfl 45 rfl (ix3 r q f)
      (fun b hb => match b with | ⟨0, _⟩ => rfl | ⟨1, _⟩ => absurd rfl hb | ⟨2, _⟩ => rfl) rfl
  | 4, _ =>
    refine Eq.trans ?_ (row12_entry x0 x1 x2 x3 x4 x5 r q f)
    exact concatenate_apply_piece (t := S80x120x99) (1 : Fin 3) [⟨S80x15x99, row8 x0 x1 x2 x3 x5 (k0_pay6 x0 x4)⟩, ⟨S80x15x99, row9 x0 x1 x2 x3 x5 (k0_pay6 x0 x4)⟩, ⟨S80x15x99, row10 x0 x1 x2 x3 x5 (k0_pay6 x0 x4)⟩, ⟨S80x15x99, row11 x0 x1 x2 x3 x5 (k0_pay6 x0 x4)⟩, ⟨S80x15x99, row12 x0 x1 x2 x3 x5 (k0_pay6 x0 x4)⟩, ⟨S80x15x99, row13 x0 x1 x2 x3 x5 (k0_pay6 x0 x4)⟩, ⟨S80x15x99, row14 x0 x1 x2 x3 x5 (k0_pay6 x0 x4)⟩, ⟨S80x15x99, row15 x0 x1 x2 x3 x5 (k0_pay6 x0 x4)⟩] _
      (ix3 r (⟨15 * 4 + q.val, by omega⟩ : Fin 120) f) 4 (by show 4 < 8; decide) S80x15x99 _ rfl rfl 60 rfl (ix3 r q f)
      (fun b hb => match b with | ⟨0, _⟩ => rfl | ⟨1, _⟩ => absurd rfl hb | ⟨2, _⟩ => rfl) rfl
  | 5, _ =>
    refine Eq.trans ?_ (row13_entry x0 x1 x2 x3 x4 x5 r q f)
    exact concatenate_apply_piece (t := S80x120x99) (1 : Fin 3) [⟨S80x15x99, row8 x0 x1 x2 x3 x5 (k0_pay6 x0 x4)⟩, ⟨S80x15x99, row9 x0 x1 x2 x3 x5 (k0_pay6 x0 x4)⟩, ⟨S80x15x99, row10 x0 x1 x2 x3 x5 (k0_pay6 x0 x4)⟩, ⟨S80x15x99, row11 x0 x1 x2 x3 x5 (k0_pay6 x0 x4)⟩, ⟨S80x15x99, row12 x0 x1 x2 x3 x5 (k0_pay6 x0 x4)⟩, ⟨S80x15x99, row13 x0 x1 x2 x3 x5 (k0_pay6 x0 x4)⟩, ⟨S80x15x99, row14 x0 x1 x2 x3 x5 (k0_pay6 x0 x4)⟩, ⟨S80x15x99, row15 x0 x1 x2 x3 x5 (k0_pay6 x0 x4)⟩] _
      (ix3 r (⟨15 * 5 + q.val, by omega⟩ : Fin 120) f) 5 (by show 5 < 8; decide) S80x15x99 _ rfl rfl 75 rfl (ix3 r q f)
      (fun b hb => match b with | ⟨0, _⟩ => rfl | ⟨1, _⟩ => absurd rfl hb | ⟨2, _⟩ => rfl) rfl
  | 6, _ =>
    refine Eq.trans ?_ (row14_entry x0 x1 x2 x3 x4 x5 r q f)
    exact concatenate_apply_piece (t := S80x120x99) (1 : Fin 3) [⟨S80x15x99, row8 x0 x1 x2 x3 x5 (k0_pay6 x0 x4)⟩, ⟨S80x15x99, row9 x0 x1 x2 x3 x5 (k0_pay6 x0 x4)⟩, ⟨S80x15x99, row10 x0 x1 x2 x3 x5 (k0_pay6 x0 x4)⟩, ⟨S80x15x99, row11 x0 x1 x2 x3 x5 (k0_pay6 x0 x4)⟩, ⟨S80x15x99, row12 x0 x1 x2 x3 x5 (k0_pay6 x0 x4)⟩, ⟨S80x15x99, row13 x0 x1 x2 x3 x5 (k0_pay6 x0 x4)⟩, ⟨S80x15x99, row14 x0 x1 x2 x3 x5 (k0_pay6 x0 x4)⟩, ⟨S80x15x99, row15 x0 x1 x2 x3 x5 (k0_pay6 x0 x4)⟩] _
      (ix3 r (⟨15 * 6 + q.val, by omega⟩ : Fin 120) f) 6 (by show 6 < 8; decide) S80x15x99 _ rfl rfl 90 rfl (ix3 r q f)
      (fun b hb => match b with | ⟨0, _⟩ => rfl | ⟨1, _⟩ => absurd rfl hb | ⟨2, _⟩ => rfl) rfl
  | 7, _ =>
    refine Eq.trans ?_ (row15_entry x0 x1 x2 x3 x4 x5 r q f)
    exact concatenate_apply_piece (t := S80x120x99) (1 : Fin 3) [⟨S80x15x99, row8 x0 x1 x2 x3 x5 (k0_pay6 x0 x4)⟩, ⟨S80x15x99, row9 x0 x1 x2 x3 x5 (k0_pay6 x0 x4)⟩, ⟨S80x15x99, row10 x0 x1 x2 x3 x5 (k0_pay6 x0 x4)⟩, ⟨S80x15x99, row11 x0 x1 x2 x3 x5 (k0_pay6 x0 x4)⟩, ⟨S80x15x99, row12 x0 x1 x2 x3 x5 (k0_pay6 x0 x4)⟩, ⟨S80x15x99, row13 x0 x1 x2 x3 x5 (k0_pay6 x0 x4)⟩, ⟨S80x15x99, row14 x0 x1 x2 x3 x5 (k0_pay6 x0 x4)⟩, ⟨S80x15x99, row15 x0 x1 x2 x3 x5 (k0_pay6 x0 x4)⟩] _
      (ix3 r (⟨15 * 7 + q.val, by omega⟩ : Fin 120) f) 7 (by show 7 < 8; decide) S80x15x99 _ rfl rfl 105 rfl (ix3 r q f)
      (fun b hb => match b with | ⟨0, _⟩ => rfl | ⟨1, _⟩ => absurd rfl hb | ⟨2, _⟩ => rfl) rfl
  | n + 8, h => exact absurd h (by omega)

theorem hz2 : (![0, 0] : Fin 2 → Nat) = fun _ => 0 := funext fun a => by fin_cases a <;> rfl
theorem hz3 : (![0, 0, 0] : Fin 3 → Nat) = fun _ => 0 := funext fun a => by fin_cases a <;> rfl

/-- The loaded blocks are the buffers' whole contents, and the shape casts to the same shape change nothing. -/
theorem ld0 (x : Vec F S80x16 .f32) : (View.ld x r0_0 : Vec F S80x16 .f32) = x := View.ld_unit_zero hz2 _ x
theorem ld1 (x : Vec F S80x16x32 .f32) : (View.ld x r0_1 : Vec F S80x16x32 .f32) = x := View.ld_unit_zero hz3 _ x
theorem ld2 (x : Vec F S80x32 .f32) : (View.ld x r0_2 : Vec F S80x32 .f32) = x := View.ld_unit_zero hz2 _ x
theorem pay2_id (x : Vec F S80x16 .f32) : k0_pay2 x = x := shapeCast_self x _
theorem pay3_id (x : Vec F S80x16 .f32) : k0_pay3 x = x := shapeCast_self x _
theorem pay4_id (x : Vec F S80x16 .f32) : k0_pay4 x = x := shapeCast_self x _
theorem pay5_id (x : Vec F S80x32 .f32) : k0_pay5 x = x := shapeCast_self x _

/-- The descriptor at an index whose coordinates are (r, 15 a + q, f). -/
theorem desc_at (x0 x1 x2 x3 : Vec F S80x16 .f32) (x4 : Vec F S80x16x32 .f32) (x5 : Vec F S80x32 .f32)
    (i : S80x240x99.Idx) (r : Fin 80) (a : ℕ) (ha : a < 16) (q : Fin 15) (f : Fin 99)
    (h0 : (i 0).val = r.val) (h1 : (i 1).val = 15 * a + q.val) (h2 : (i 2).val = f.val) :
    desc (sideK (FloatOps.ofBits (F := F) .f32 0x40000000#32)) x0 x1 x2 x3 x4 x5 i
      = entry (sideK (FloatOps.ofBits (F := F) .f32 0x40000000#32)) x0 x1 x2 x3 x4 x5 r ⟨a, ha⟩ ⟨skip a q, skip_lt q.isLt⟩ f.val := by
  have hq := q.isLt
  have key : ∀ (r r' : Fin 80) (a a' k k' : Fin 16) (f f' : ℕ), r = r' → a = a' → k = k' → f = f' →
      entry (sideK (FloatOps.ofBits (F := F) .f32 0x40000000#32)) x0 x1 x2 x3 x4 x5 r a k f
        = entry (sideK (FloatOps.ofBits (F := F) .f32 0x40000000#32)) x0 x1 x2 x3 x4 x5 r' a' k' f' := by
    rintro _ _ _ _ _ _ _ _ rfl rfl rfl rfl; rfl
  have e1 : (i 1).val / 15 = a := by omega
  have e2 : (i 1).val % 15 = q.val := by omega
  exact key _ _ _ _ _ _ _ _ (Fin.ext h0) (Fin.ext e1) (Fin.ext (by show skip ((i 1).val / 15) ((i 1).val % 15) = skip a q; rw [e1, e2])) h2

theorem out_eq (x0 x1 x2 x3 : Vec F S80x16 .f32) (x4 : Vec F S80x16x32 .f32) (x5 : Vec F S80x32 .f32) :
    out0_6 x0 x1 x2 x3 x4 x5
      = Cert.Angle.desc (Cert.Angle.sideK (FloatOps.ofBits (F := F) .f32 0x40000000#32)) x0 x1 x2 x3 x4 x5 := by
  funext y
  rw [out_regroup, ld0, ld0, ld0, ld0, ld1, ld2, pay2_id, pay3_id, pay4_id, pay5_id]
  refine View.canon_apply_of_pieces (desc (sideK (FloatOps.ofBits (F := F) .f32 0x40000000#32)) x0 x1 x2 x3 x4 x5) _
    (fun p hp j => ?_) y (cover0_6 _ _ y)
  simp only [List.mem_cons, List.mem_nil_iff, or_false] at hp
  rcases hp with rfl | rfl
  · -- the second slab, stored at offset 120 of axis 1
    obtain ⟨r, p, f, rfl⟩ : ∃ (r : Fin 80) (p : Fin 120) (f : Fin 99), j = ix3 r p f := ⟨j 0, j 1, j 2, eq_ix3 j⟩
    obtain ⟨a, ha, q, rfl⟩ : ∃ (a : ℕ) (_ : a < 8) (q : Fin 15), p = ⟨15 * a + q.val, by omega⟩ :=
      ⟨p.val / 15, by omega, ⟨p.val % 15, Nat.mod_lt _ (by decide)⟩, Fin.ext (by show p.val = 15 * (p.val / 15) + p.val % 15; omega)⟩
    refine (slab1_apply x0 x1 x2 x3 x4 x5 a ha r q f).trans (desc_at x0 x1 x2 x3 x4 x5 _ r (8 + a) (by omega) q f ?_ ?_ ?_).symm
    · show 0 + 1 * r.val = r.val; omega
    · show 120 + 1 * (15 * a + q.val) = 15 * (8 + a) + q.val; omega
    · show 0 + 1 * f.val = f.val; omega
  · -- the first slab, stored at offset 0
    obtain ⟨r, p, f, rfl⟩ : ∃ (r : Fin 80) (p : Fin 120) (f : Fin 99), j = ix3 r p f := ⟨j 0, j 1, j 2, eq_ix3 j⟩
    obtain ⟨a, ha, q, rfl⟩ : ∃ (a : ℕ) (_ : a < 8) (q : Fin 15), p = ⟨15 * a + q.val, by omega⟩ :=
      ⟨p.val / 15, by omega, ⟨p.val % 15, Nat.mod_lt _ (by decide)⟩, Fin.ext (by show p.val = 15 * (p.val / 15) + p.val % 15; omega)⟩
    refine (slab0_apply x0 x1 x2 x3 x4 x5 a ha r q f).trans (desc_at x0 x1 x2 x3 x4 x5 _ r (0 + a) (by omega) q f ?_ ?_ ?_).symm
    · show 0 + 1 * r.val = r.val; omega
    · show 0 + 1 * (15 * a + q.val) = 15 * (0 + a) + q.val; omega
    · show 0 + 1 * f.val = f.val; omega

end Cert.KernelIdeal.Body

end
-- ==== Proof.KernelHost.lean ====
/-
  The arrays the kernel's region finds: the host side of the kernel's program gathers the neighbours' coordinates and the
  embedding rows before the region. With every table entry in range each gather reads the row its entry names.
-/
import proofs.«408688_j81827716923455_3_alg».proof.Proof.Gen.KernelIdeal.Frame
import proofs.«408688_j81827716923455_3_alg».proof.Proof.Spec
import Idealize.ShloMosaic.Lib.ReduceAll
import Idealize.ShloMosaic.Lib.Pipeline.Value
import Idealize.ShloMosaic.Lib.ValueIdx

noncomputable section

namespace Cert.KernelIdeal.HostVal

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-! ## Table entries in range, as words -/

section Words
variable {N : ℕ} {w : BitVec 32}

theorem not_slt_zero (h : Cert.Angle.InRange N w) : ¬ IntOp.cmpi .slt w 0#32 = 1#1 := fun e => by
  have h1 := IntOp.cmpi_slt.1 e
  have h0 : (0#32 : BitVec 32).toInt = 0 := by decide
  have := h.1
  omega

theorem sge_zero (h : Cert.Angle.InRange N w) : IntOp.cmpi .sge w 0#32 = 1#1 :=
  IntOp.cmpi_sge.2 (by
    have h0 : (0#32 : BitVec 32).toInt = 0 := by decide
    have := h.1
    omega)

theorem sle_last (h : Cert.Angle.InRange N w) {hi : BitVec 32} (hhi : hi.toInt = (N : ℤ) - 1) :
    IntOp.cmpi .sle w hi = 1#1 :=
  IntOp.cmpi_sle.2 (by have := h.2; omega)

end Words

/-! ## A conjunction of ones -/

theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi 1#1 (f a) = 1#1 := by rw [hf a]; decide
    rw [List.foldl_cons, e]
    exact foldl_andi_ones f hf l

theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  rw [hinit]
  exact foldl_andi_ones (fun n => x (s.rowMajor.symm n)) (fun n => hx _) _

/-! ## The wrapped index array and the in-range mask of a take -/

abbrev ScalarShape : Shape := ⟨0, ![]⟩
abbrev UnitShape : Shape := ⟨1, ![1]⟩

section Take
variable {sI sI1 sU : Shape}

/-- The index array with negative entries moved up by the table's length, given its unit axis. -/
def wrapIdx (n : BitVec 32) (dims : Fin sI.rank → Fin sI1.rank) (h0 : ScalarShape.BroadcastsInDim sI ![])
    (h1 : sI.BroadcastsInDim sI1 dims) (idx : IVec sI 32) : IVec sI1 32 :=
  broadcastInDim sI1 dims h1
    (select (cmpi .slt idx (broadcastInDim sI ![] h0 (constantI ScalarShape 32 0#32)))
      (addi idx (broadcastInDim sI ![] h0 (constantI ScalarShape 32 n))) idx)

/-- No entry in range is negative: the wrapped array is the array itself. -/
theorem wrapIdx_eq {N : ℕ} (n : BitVec 32) (dims : Fin sI.rank → Fin sI1.rank) (h0 : ScalarShape.BroadcastsInDim sI ![])
    (h1 : sI.BroadcastsInDim sI1 dims) (idx : IVec sI 32) (hin : ∀ i, Cert.Angle.InRange N (idx i)) :
    wrapIdx n dims h0 h1 idx = broadcastInDim sI1 dims h1 idx := by
  unfold wrapIdx
  congr 1
  funext i
  show Scalar.select (IntOp.cmpi .slt (idx i) 0#32) _ (idx i) = idx i
  exact if_neg (not_slt_zero (hin i))

/-- Every entry of the array with its unit axis is an entry of the array. -/
theorem bcast_inRange {N : ℕ} (dims : Fin sI.rank → Fin sI1.rank) (h1 : sI.BroadcastsInDim sI1 dims) (idx : IVec sI 32)
    (hin : ∀ i, Cert.Angle.InRange N (idx i)) (k : sI1.Idx) : Cert.Angle.InRange N (broadcastInDim sI1 dims h1 idx k) :=
  hin _

/-- "Every component of the start index is inside the table", reduced over the unit axis. -/
def inMask (hi : BitVec 32) (d1 : Fin UnitShape.rank → Fin sU.rank) (d2 : Fin sU.rank → Fin sI1.rank) (axes : List (Fin sI1.rank))
    (hz : ScalarShape.BroadcastsInDim sI1 ![]) (hb1 : UnitShape.BroadcastsInDim sU d1) (hb2 : sU.BroadcastsInDim sI1 d2)
    (hred : sI1.ReducesTo axes sI) (hu : 0 < ScalarShape.numel) (i1 : IVec sI1 32) : IVec sI 1 :=
  Host.reduce IntOp.andi
    (andi (cmpi .sge i1 (broadcastInDim sI1 ![] hz (constantI ScalarShape 32 0#32)))
      (cmpi .sle i1 (broadcastInDim sI1 d2 hb2 (broadcastInDim sU d1 hb1 (constantI UnitShape 32 hi)))))
    (constantI ScalarShape 1 1#1) hred hu

/-- With every entry in range the mask is set everywhere. -/
theorem inMask_one {N : ℕ} (hi : BitVec 32) (d1 : Fin UnitShape.rank → Fin sU.rank) (d2 : Fin sU.rank → Fin sI1.rank)
    (axes : List (Fin sI1.rank)) (hz : ScalarShape.BroadcastsInDim sI1 ![]) (hb1 : UnitShape.BroadcastsInDim sU d1)
    (hb2 : sU.BroadcastsInDim sI1 d2) (hred : sI1.ReducesTo axes sI) (hu : 0 < ScalarShape.numel) (i1 : IVec sI1 32)
    (hhi : hi.toInt = (N : ℤ) - 1) (hin : ∀ k, Cert.Angle.InRange N (i1 k)) (j : sI.Idx) :
    inMask hi d1 d2 axes hz hb1 hb2 hred hu i1 j = 1#1 := by
  unfold inMask
  refine reduce_andi_ones _ _ _ _ (fun k => ?_) (fun _ => rfl) j
  show IntOp.andi (IntOp.cmpi .sge (i1 k) 0#32) (IntOp.cmpi .sle (i1 k) hi) = 1#1
  rw [sge_zero (hin k), sle_last (hin k) hhi]
  decide

end Take

/-! ## A take's gather, read at an index

Four shapes of `table[idx]`: a flat table or a table of rows, at a vector or a matrix of start indices (each start index
a one-component vector on a last unit axis). The operand's axis 0 is collapsed and start-indexed: its coordinate is the
start index read signed and brought inside the table; a table of rows keeps its axis 1 as the result's last axis. -/

section Gather
variable {α : Type}

/-- A flat table at a vector of start indices. -/
abbrev dimsA (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

theorem gatherA_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (dimsA N R wf) x idx (ix1 r) = x (ix1 ⟨min (idx (ix2 r 0)).toInt.toNat (N - 1), by omega⟩) := by
  unfold Host.gather
  congr 1
  funext a
  obtain rfl : a = 0 := Subsingleton.elim _ _
  refine Fin.ext ?_
  show (dimsA N R wf).start (ix1 r) idx 0 + (dimsA N R wf).batchCoord (ix1 r) 0 + (dimsA N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (dimsA N R wf).startIndexMap from List.mem_singleton.mpr rfl)]
  have hsi : (dimsA N R wf).siIdx (ix1 r) ⟨List.idxOf (0 : Fin 1) (dimsA N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- The start-indices index of a matrix's entry. -/
theorem takeIdx_ix2 {R C : Nat} (r : Fin R) (q : Fin C) : takeIdx (ix2 r q) = ix3 r q (0 : Fin 1) := by
  funext a
  match a with
  | ⟨0, _⟩ => rfl
  | ⟨1, _⟩ => rfl
  | ⟨2, _⟩ => rfl

/-- A flat table at a matrix of start indices. -/
theorem gatherB_apply {N R C w : Nat} (hN : 0 < N)
    (wf : GatherDims.WF ⟨1, ![N]⟩ ⟨3, ![R, C, 1]⟩ ⟨2, ![R, C]⟩ [] [0] [] [0] [] 2 ![1])
    (x : (⟨1, ![N]⟩ : Shape).Idx → α) (idx : IVec ⟨3, ![R, C, 1]⟩ w) (r : Fin R) (q : Fin C) :
    Host.gather (takeDims N R C wf) x idx (ix2 r q) = x (ix1 ⟨min (idx (ix3 r q 0)).toInt.toNat (N - 1), by omega⟩) := by
  rw [gather_take_apply hN wf x idx (ix2 r q)]
  congr 1
  funext a
  obtain rfl : a = 0 := Subsingleton.elim _ _
  refine Fin.ext ?_
  show min (idx (takeIdx (ix2 r q))).toInt.toNat (N - 1) = min (idx (ix3 r q 0)).toInt.toNat (N - 1)
  rw [takeIdx_ix2]

/-- A table of rows at a vector of start indices. -/
abbrev dimsC (N K R : Nat) (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

theorem gatherC_apply {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (r : Fin R) (k : Fin K) :
    Host.gather (dimsC N K R wf) x idx (ix2 r k) = x (ix2 ⟨min (idx (ix2 r 0)).toInt.toNat (N - 1), by omega⟩ k) := by
  unfold Host.gather
  congr 1
  funext a
  refine Fin.ext ?_
  match a with
  | ⟨0, _⟩ =>
    show (dimsC N K R wf).start (ix2 r k) idx 0 + (dimsC N K R wf).batchCoord (ix2 r k) 0 + (dimsC N K R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dimsC N K R wf).startIndexMap from List.mem_singleton.mpr rfl)]
    have hsi : (dimsC N K R wf).siIdx (ix2 r k) ⟨List.idxOf (0 : Fin 2) (dimsC N K R wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (dimsC N K R wf).start (ix2 r k) idx 1 + (dimsC N K R wf).batchCoord (ix2 r k) 1 + (dimsC N K R wf).offCoord (ix2 r k) 1 = k.val
    rw [GatherDims.batchCoord_eq_zero _ _ _ List.not_mem_nil]
    have hs : (dimsC N K R wf).start (ix2 r k) idx 1 = 0 := by
      unfold GatherDims.start
      exact dif_neg fun h => absurd (Fin.ext_iff.mp (List.mem_singleton.mp h)) Nat.one_ne_zero
    have ho : (dimsC N K R wf).offCoord (ix2 r k) 1 = k.val := by
      unfold GatherDims.offCoord
      rw [dif_pos ((GatherDims.mem_sKept _ _).mpr
        ⟨fun h => absurd (Fin.ext_iff.mp (List.mem_singleton.mp h)) Nat.one_ne_zero, List.not_mem_nil⟩)]
      rfl
    rw [hs, ho]
    omega

/-- A table of rows at a matrix of start indices. -/
abbrev dimsD (N K R C : Nat) (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

theorem gatherD_apply {N K R C w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (r : Fin R) (q : Fin C) (k : Fin K) :
    Host.gather (dimsD N K R C wf) x idx (ix3 r q k) = x (ix2 ⟨min (idx (ix3 r q 0)).toInt.toNat (N - 1), by omega⟩ k) := by
  unfold Host.gather
  congr 1
  funext a
  refine Fin.ext ?_
  match a with
  | ⟨0, _⟩ =>
    show (dimsD N K R C wf).start (ix3 r q k) idx 0 + (dimsD N K R C wf).batchCoord (ix3 r q k) 0 + (dimsD N K R C wf).offCoord (ix3 r q k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dimsD N K R C wf).startIndexMap from List.mem_singleton.mpr rfl)]
    have hsi : (dimsD N K R C wf).siIdx (ix3 r q k) ⟨List.idxOf (0 : Fin 2) (dimsD N K R C wf).startIndexMap,
        List.idxOf_lt_length_iff.2 (List.mem_singleton.mpr rfl)⟩ = ix3 r q 0 := by
      funext b; refine Fin.ext ?_
      match b with
      | ⟨0, _⟩ => rfl
      | ⟨1, _⟩ => rfl
      | ⟨2, _⟩ => rfl
    rw [hsi]
    rfl
  | ⟨1, _⟩ =>
    show (dimsD N K R C wf).start (ix3 r q k) idx 1 + (dimsD N K R C wf).batchCoord (ix3 r q k) 1 + (dimsD N K R C wf).offCoord (ix3 r q k) 1 = k.val
    rw [GatherDims.batchCoord_eq_zero _ _ _ List.not_mem_nil]
    have hs : (dimsD N K R C wf).start (ix3 r q k) idx 1 = 0 := by
      unfold GatherDims.start
      exact dif_neg fun h => absurd (Fin.ext_iff.mp (List.mem_singleton.mp h)) Nat.one_ne_zero
    have ho : (dimsD N K R C wf).offCoord (ix3 r q k) 1 = k.val := by
      unfold GatherDims.offCoord
      rw [dif_pos ((GatherDims.mem_sKept _ _).mpr
        ⟨fun h => absurd (Fin.ext_iff.mp (List.mem_singleton.mp h)) Nat.one_ne_zero, List.not_mem_nil⟩)]
      rfl
    rw [hs, ho]
    omega

end Gather

/-! ## The unit axis of the start indices -/

section UnitAxis
variable {α : Type}

theorem bcast_unit1 {R : Nat} (h : (⟨1, ![R]⟩ : Shape).BroadcastsInDim ⟨2, ![R, 1]⟩ ![0]) (v : (⟨1, ![R]⟩ : Shape).Idx → α)
    (r : Fin R) : broadcastInDim ⟨2, ![R, 1]⟩ ![0] h v (ix2 r 0) = v (ix1 r) :=
  broadcastInDim_apply _ h v _ _ fun a => by
    match a with
    | ⟨0, _⟩ =>
      show r.val = if R = 1 then 0 else r.val
      have := r.isLt
      split <;> omega

theorem bcast_unit2 {R C : Nat} (h : (⟨2, ![R, C]⟩ : Shape).BroadcastsInDim ⟨3, ![R, C, 1]⟩ ![0, 1])
    (v : (⟨2, ![R, C]⟩ : Shape).Idx → α) (r : Fin R) (q : Fin C) :
    broadcastInDim ⟨3, ![R, C, 1]⟩ ![0, 1] h v (ix3 r q 0) = v (ix2 r q) :=
  broadcastInDim_apply _ h v _ _ fun a => by
    match a with
    | ⟨0, _⟩ =>
      show r.val = if R = 1 then 0 else r.val
      have := r.isLt
      split <;> omega
    | ⟨1, _⟩ =>
      show q.val = if C = 1 then 0 else q.val
      have := q.isLt
      split <;> omega

end UnitAxis

/-! ## A whole take, read at an index

The printed `table[idx]`: the gather at the wrapped indices where the mask is set, a filler elsewhere. With every entry
in range the mask is set everywhere, and the entry names its own row. -/

section TakeApply
variable {α : Type}

/-- The row a gather reads is the row its entry names. -/
theorem rowOf_congr {N : ℕ} (hN : 0 < N) {w w' : BitVec 32} (h : w = w') (p : min w.toInt.toNat (N - 1) < N) :
    (⟨min w.toInt.toNat (N - 1), p⟩ : Fin N) = Cert.Angle.rowOf N hN w' := by
  subst h; rfl

/-- A flat table at a vector of entries. -/
theorem takeA_apply {N R : Nat} (hN : 0 < N) (n hi fill : BitVec 32)
    (wf : GatherDims.WF ⟨1, ![N]⟩ ⟨2, ![R, 1]⟩ ⟨1, ![R]⟩ [] [0] [] [0] [] 1 ![1])
    {sU : Shape} (d1 : Fin UnitShape.rank → Fin sU.rank) (d2 : Fin sU.rank → Fin (⟨2, ![R, 1]⟩ : Shape).rank)
    (axes : List (Fin (⟨2, ![R, 1]⟩ : Shape).rank))
    (h0 : ScalarShape.BroadcastsInDim ⟨1, ![R]⟩ ![]) (h1 : (⟨1, ![R]⟩ : Shape).BroadcastsInDim ⟨2, ![R, 1]⟩ ![0])
    (hz : ScalarShape.BroadcastsInDim ⟨2, ![R, 1]⟩ ![]) (hb1 : UnitShape.BroadcastsInDim sU d1) (hb2 : sU.BroadcastsInDim ⟨2, ![R, 1]⟩ d2)
    (hred : (⟨2, ![R, 1]⟩ : Shape).ReducesTo axes ⟨1, ![R]⟩) (hu : 0 < ScalarShape.numel)
    (tab : (⟨1, ![N]⟩ : Shape).Idx → BitVec 32) (idx : IVec ⟨1, ![R]⟩ 32)
    (hhi : hi.toInt = (N : ℤ) - 1) (hin : ∀ i, Cert.Angle.InRange N (idx i)) (r : Fin R) :
    select (inMask hi d1 d2 axes hz hb1 hb2 hred hu (wrapIdx n ![0] h0 h1 idx))
        (Host.gather (dimsA N R wf) tab (wrapIdx n ![0] h0 h1 idx))
        (broadcastInDim ⟨1, ![R]⟩ ![] h0 (constantI ScalarShape 32 fill)) (ix1 r)
      = tab (ix1 (Cert.Angle.rowOf N hN (idx (ix1 r)))) := by
  rw [wrapIdx_eq n _ h0 h1 idx hin]
  show Scalar.select (inMask hi d1 d2 axes hz hb1 hb2 hred hu _ (ix1 r)) (Host.gather (dimsA N R wf) tab _ (ix1 r)) _ = _
  rw [inMask_one hi d1 d2 axes hz hb1 hb2 hred hu _ hhi (bcast_inRange _ h1 idx hin) (ix1 r), select_one,
    gatherA_apply hN wf]
  exact congrArg (fun t => tab (ix1 t)) (rowOf_congr hN (bcast_unit1 h1 idx r) _)

/-- A flat table at a matrix of entries. -/
theorem takeB_apply {N R C : Nat} (hN : 0 < N) (n hi fill : BitVec 32)
    (wf : GatherDims.WF ⟨1, ![N]⟩ ⟨3, ![R, C, 1]⟩ ⟨2, ![R, C]⟩ [] [0] [] [0] [] 2 ![1])
    {sU : Shape} (d1 : Fin UnitShape.rank → Fin sU.rank) (d2 : Fin sU.rank → Fin (⟨3, ![R, C, 1]⟩ : Shape).rank)
    (axes : List (Fin (⟨3, ![R, C, 1]⟩ : Shape).rank))
    (h0 : ScalarShape.BroadcastsInDim ⟨2, ![R, C]⟩ ![]) (h1 : (⟨2, ![R, C]⟩ : Shape).BroadcastsInDim ⟨3, ![R, C, 1]⟩ ![0, 1])
    (hz : ScalarShape.BroadcastsInDim ⟨3, ![R, C, 1]⟩ ![]) (hb1 : UnitShape.BroadcastsInDim sU d1) (hb2 : sU.BroadcastsInDim ⟨3, ![R, C, 1]⟩ d2)
    (hred : (⟨3, ![R, C, 1]⟩ : Shape).ReducesTo axes ⟨2, ![R, C]⟩) (hu : 0 < ScalarShape.numel)
    (tab : (⟨1, ![N]⟩ : Shape).Idx → BitVec 32) (idx : IVec ⟨2, ![R, C]⟩ 32)
    (hhi : hi.toInt = (N : ℤ) - 1) (hin : ∀ i, Cert.Angle.InRange N (idx i)) (r : Fin R) (q : Fin C) :
    select (inMask hi d1 d2 axes hz hb1 hb2 hred hu (wrapIdx n ![0, 1] h0 h1 idx))
        (Host.gather (takeDims N R C wf) tab (wrapIdx n ![0, 1] h0 h1 idx))
        (broadcastInDim ⟨2, ![R, C]⟩ ![] h0 (constantI ScalarShape 32 fill)) (ix2 r q)
      = tab (ix1 (Cert.Angle.rowOf N hN (idx (ix2 r q)))) := by
  rw [wrapIdx_eq n _ h0 h1 idx hin]
  show Scalar.select (inMask hi d1 d2 axes hz hb1 hb2 hred hu _ (ix2 r q)) (Host.gather (takeDims N R C wf) tab _ (ix2 r q)) _ = _
  rw [inMask_one hi d1 d2 axes hz hb1 hb2 hred hu _ hhi (bcast_inRange _ h1 idx hin) (ix2 r q), select_one,
    gatherB_apply hN wf]
  exact congrArg (fun t => tab (ix1 t)) (rowOf_congr hN (bcast_unit2 h1 idx r q) _)

/-- A table of rows at a vector of entries. -/
theorem takeC_apply {N K R : Nat} (hN : 0 < N) (n hi : BitVec 32)
    (wf : GatherDims.WF ⟨2, ![N, K]⟩ ⟨2, ![R, 1]⟩ ⟨2, ![R, K]⟩ [1] [0] [] [0] [] 1 ![1, K])
    {sU : Shape} (d1 : Fin UnitShape.rank → Fin sU.rank) (d2 : Fin sU.rank → Fin (⟨2, ![R, 1]⟩ : Shape).rank)
    (axes : List (Fin (⟨2, ![R, 1]⟩ : Shape).rank)) (dm : Fin (⟨1, ![R]⟩ : Shape).rank → Fin (⟨2, ![R, K]⟩ : Shape).rank)
    (h0 : ScalarShape.BroadcastsInDim ⟨1, ![R]⟩ ![]) (h1 : (⟨1, ![R]⟩ : Shape).BroadcastsInDim ⟨2, ![R, 1]⟩ ![0])
    (hz : ScalarShape.BroadcastsInDim ⟨2, ![R, 1]⟩ ![]) (hb1 : UnitShape.BroadcastsInDim sU d1) (hb2 : sU.BroadcastsInDim ⟨2, ![R, 1]⟩ d2)
    (hred : (⟨2, ![R, 1]⟩ : Shape).ReducesTo axes ⟨1, ![R]⟩) (hu : 0 < ScalarShape.numel)
    (hm : (⟨1, ![R]⟩ : Shape).BroadcastsInDim ⟨2, ![R, K]⟩ dm) (fill : (⟨2, ![R, K]⟩ : Shape).Idx → α)
    (tab : (⟨2, ![N, K]⟩ : Shape).Idx → α) (idx : IVec ⟨1, ![R]⟩ 32)
    (hhi : hi.toInt = (N : ℤ) - 1) (hin : ∀ i, Cert.Angle.InRange N (idx i)) (r : Fin R) (k : Fin K) :
    select (broadcastInDim ⟨2, ![R, K]⟩ dm hm (inMask hi d1 d2 axes hz hb1 hb2 hred hu (wrapIdx n ![0] h0 h1 idx)))
        (Host.gather (dimsC N K R wf) tab (wrapIdx n ![0] h0 h1 idx)) fill (ix2 r k)
      = tab (ix2 (Cert.Angle.rowOf N hN (idx (ix1 r))) k) := by
  rw [wrapIdx_eq n _ h0 h1 idx hin]
  show Scalar.select (inMask hi d1 d2 axes hz hb1 hb2 hred hu _ _) (Host.gather (dimsC N K R wf) tab _ (ix2 r k)) _ = _
  rw [inMask_one hi d1 d2 axes hz hb1 hb2 hred hu _ hhi (bcast_inRange _ h1 idx hin) _, select_one,
    gatherC_apply hN wf]
  exact congrArg (fun t => tab (ix2 t k)) (rowOf_congr hN (bcast_unit1 h1 idx r) _)

/-- A table of rows at a matrix of entries. -/
theorem takeD_apply {N K R C : Nat} (hN : 0 < N) (n hi : BitVec 32)
    (wf : GatherDims.WF ⟨2, ![N, K]⟩ ⟨3, ![R, C, 1]⟩ ⟨3, ![R, C, K]⟩ [2] [0] [] [0] [] 2 ![1, K])
    {sU : Shape} (d1 : Fin UnitShape.rank → Fin sU.rank) (d2 : Fin sU.rank → Fin (⟨3, ![R, C, 1]⟩ : Shape).rank)
    (axes : List (Fin (⟨3, ![R, C, 1]⟩ : Shape).rank)) (dm : Fin (⟨2, ![R, C]⟩ : Shape).rank → Fin (⟨3, ![R, C, K]⟩ : Shape).rank)
    (h0 : ScalarShape.BroadcastsInDim ⟨2, ![R, C]⟩ ![]) (h1 : (⟨2, ![R, C]⟩ : Shape).BroadcastsInDim ⟨3, ![R, C, 1]⟩ ![0, 1])
    (hz : ScalarShape.BroadcastsInDim ⟨3, ![R, C, 1]⟩ ![]) (hb1 : UnitShape.BroadcastsInDim sU d1) (hb2 : sU.BroadcastsInDim ⟨3, ![R, C, 1]⟩ d2)
    (hred : (⟨3, ![R, C, 1]⟩ : Shape).ReducesTo axes ⟨2, ![R, C]⟩) (hu : 0 < ScalarShape.numel)
    (hm : (⟨2, ![R, C]⟩ : Shape).BroadcastsInDim ⟨3, ![R, C, K]⟩ dm) (fill : (⟨3, ![R, C, K]⟩ : Shape).Idx → α)
    (tab : (⟨2, ![N, K]⟩ : Shape).Idx → α) (idx : IVec ⟨2, ![R, C]⟩ 32)
    (hhi : hi.toInt = (N : ℤ) - 1) (hin : ∀ i, Cert.Angle.InRange N (idx i)) (r : Fin R) (q : Fin C) (k : Fin K) :
    select (broadcastInDim ⟨3, ![R, C, K]⟩ dm hm (inMask hi d1 d2 axes hz hb1 hb2 hred hu (wrapIdx n ![0, 1] h0 h1 idx)))
        (Host.gather (dimsD N K R C wf) tab (wrapIdx n ![0, 1] h0 h1 idx)) fill (ix3 r q k)
      = tab (ix2 (Cert.Angle.rowOf N hN (idx (ix2 r q))) k) := by
  rw [wrapIdx_eq n _ h0 h1 idx hin]
  show Scalar.select (inMask hi d1 d2 axes hz hb1 hb2 hred hu _ _) (Host.gather (dimsD N K R C wf) tab _ (ix3 r q k)) _ = _
  rw [inMask_one hi d1 d2 axes hz hb1 hb2 hred hu _ hhi (bcast_inRange _ h1 idx hin) _, select_one,
    gatherD_apply hN wf]
  exact congrArg (fun t => tab (ix2 t k)) (rowOf_congr hN (bcast_unit2 h1 idx r q) _)

end TakeApply

/-! ## One coordinate of the gathered positions -/

section Coordinate
variable {α : Type}

/-- Column `kk` of the last axis, with the unit axis it leaves dropped: entry (r, q) is entry (r, q, kk). -/
theorem coord_read (x : (⟨3, ![10000, 16, 3]⟩ : Shape).Idx → α) (kk : Fin 3)
    (hs : (⟨3, ![10000, 16, 3]⟩ : Shape).Slices ![0, 0, kk.val] ⟨3, ![10000, 16, 1]⟩)
    (hc : (⟨3, ![10000, 16, 1]⟩ : Shape).ShapeCasts ⟨2, ![10000, 16]⟩) (r : Fin 10000) (q : Fin 16) :
    shapeCast ⟨2, ![10000, 16]⟩ (extractStridedSlice ⟨3, ![10000, 16, 1]⟩ ![0, 0, kk.val] x hs) hc (ix2 r q)
      = x (ix3 r q kk) := by
  refine (shapeCast_apply _ hc (ix2 r q) (ix3 r q (0 : Fin 1)) ?_).trans ?_
  · rw [Shape.rowMajor_val_three, Shape.rowMajor_val_two]
    show (r.val * 16 + q.val) * 1 + 0 = r.val * 16 + q.val
    omega
  · refine extractStridedSlice_apply _ x hs _ _ fun a => ?_
    match a with
    | ⟨0, _⟩ =>
      show r.val = 0 + r.val
      omega
    | ⟨1, _⟩ =>
      show q.val = 0 + q.val
      omega
    | ⟨2, _⟩ =>
      show kk.val = kk.val + 0
      omega

end Coordinate

/-! ## The six stretches of host operations, one at a time

Each stretch writes its own buffers only: a buffer outside a stretch's list passes through it unchanged. -/

section Stretches
variable (W : Valuation τ sig (Elt F))

/-- The buffers stretch 0 writes. -/
abbrev wr0 : List (Ref sig .tc) :=
  [main_call0_c, main_call0_v0, main_call0_v1, main_call0_c_0, main_call0_v2, main_call0_v3, main_call0_v4,
    main_call0_v5, main_call0_c_1, main_call0_c_2, main_call0_v6, main_call0_v7, main_call0_v8, main_call0_v9,
    main_call0_v10, main_call0_v11, main_call0_c_3, main_call0_v12, main_call0_v13, main_call0_c_4, main_call0_v14,
    main_v0]

theorem writes0 : (hostOps0 : List (HloOp τ sig (Elt F))).Forall fun op =>
    op.writes ⊆ ((wr0).map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem pass0 (r : Ref sig .tc) (h : r ∉ wr0) :
    StableHlo.after hostOps0 W (Proc.devRef .tc r) = W (Proc.devRef .tc r) :=
  StableHlo.after_of_writes_sub hostOps0 W writes0 h

/-- The buffers stretch 1 writes. -/
abbrev wr1 : List (Ref sig .tc) :=
  [main_call1_c, main_call1_v0, main_call1_v1, main_call1_c_0, main_call1_v2, main_call1_v3, main_call1_v4,
    main_call1_v5, main_call1_c_1, main_call1_c_2, main_call1_v6, main_call1_v7, main_call1_v8, main_call1_v9,
    main_call1_v10, main_call1_v11, main_call1_c_3, main_call1_v12, main_call1_v13, main_call1_c_4, main_call1_v14,
    main_v1]

theorem writes1 : (hostOps0_1 : List (HloOp τ sig (Elt F))).Forall fun op =>
    op.writes ⊆ ((wr1).map (Proc.devRef (τ := τ) .tc)).toFinset := by
  simp only [hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem pass1 (r : Ref sig .tc) (h : r ∉ wr1) :
    StableHlo.after hostOps0_1 W (Proc.devRef .tc r) = W (Proc.devRef .tc r) :=
  StableHlo.after_of_writes_sub hostOps0_1 W writes1 h

/-- The buffers stretch 2 writes. -/
abbrev wr2 : List (Ref sig .tc) :=
  [main_call2_c, main_call2_v0, main_call2_v1, main_call2_c_0, main_call2_v2, main_call2_v3, main_call2_v4,
    main_call2_v5, main_call2_c_1, main_call2_c_2, main_call2_v6, main_call2_v7, main_call2_v8, main_call2_v9,
    main_call2_v10, main_call2_v11, main_call2_c_3, main_call2_v12, main_call2_v13, main_call2_v14, main_call2_cst,
    main_call2_v15, main_v2]

theorem writes2 : (hostOps0_2 : List (HloOp τ sig (Elt F))).Forall fun op =>
    op.writes ⊆ ((wr2).map (Proc.devRef (τ := τ) .tc)).toFinset := by
  simp only [hostOps0_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem pass2 (r : Ref sig .tc) (h : r ∉ wr2) :
    StableHlo.after hostOps0_2 W (Proc.devRef .tc r) = W (Proc.devRef .tc r) :=
  StableHlo.after_of_writes_sub hostOps0_2 W writes2 h

/-- The buffers stretch 3 writes. -/
abbrev wr3 : List (Ref sig .tc) :=
  [main_call3_c, main_call3_v0, main_call3_v1, main_call3_c_0, main_call3_v2, main_call3_v3, main_call3_v4,
    main_call3_v5, main_call3_c_1, main_call3_c_2, main_call3_v6, main_call3_v7, main_call3_v8, main_call3_v9,
    main_call3_v10, main_call3_v11, main_call3_c_3, main_call3_v12, main_call3_v13, main_call3_v14, main_call3_cst,
    main_call3_v15, main_v3]

theorem writes3 : (hostOps0_3 : List (HloOp τ sig (Elt F))).Forall fun op =>
    op.writes ⊆ ((wr3).map (Proc.devRef (τ := τ) .tc)).toFinset := by
  simp only [hostOps0_3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem pass3 (r : Ref sig .tc) (h : r ∉ wr3) :
    StableHlo.after hostOps0_3 W (Proc.devRef .tc r) = W (Proc.devRef .tc r) :=
  StableHlo.after_of_writes_sub hostOps0_3 W writes3 h

/-- The buffers stretch 4 writes. -/
abbrev wr4 : List (Ref sig .tc) :=
  [main_call4_c, main_call4_v0, main_call4_v1, main_call4_c_0, main_call4_v2, main_call4_v3, main_call4_v4,
    main_call4_v5, main_call4_c_1, main_call4_c_2, main_call4_v6, main_call4_v7, main_call4_v8, main_call4_v9,
    main_call4_v10, main_call4_v11, main_call4_c_3, main_call4_v12, main_call4_v13, main_call4_v14, main_call4_cst,
    main_call4_v15, main_v4]

theorem writes4 : (hostOps0_4 : List (HloOp τ sig (Elt F))).Forall fun op =>
    op.writes ⊆ ((wr4).map (Proc.devRef (τ := τ) .tc)).toFinset := by
  simp only [hostOps0_4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem pass4 (r : Ref sig .tc) (h : r ∉ wr4) :
    StableHlo.after hostOps0_4 W (Proc.devRef .tc r) = W (Proc.devRef .tc r) :=
  StableHlo.after_of_writes_sub hostOps0_4 W writes4 h

/-- The buffers stretch 5 writes. -/
abbrev wr5 : List (Ref sig .tc) :=
  [main_v5, main_v6, main_v7, main_v8, main_v9, main_v10]

theorem writes5 : (hostOps0_5 : List (HloOp τ sig (Elt F))).Forall fun op =>
    op.writes ⊆ ((wr5).map (Proc.devRef (τ := τ) .tc)).toFinset := by
  simp only [hostOps0_5, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem pass5 (r : Ref sig .tc) (h : r ∉ wr5) :
    StableHlo.after hostOps0_5 W (Proc.devRef .tc r) = W (Proc.devRef .tc r) :=
  StableHlo.after_of_writes_sub hostOps0_5 W writes5 h

/-- The take of the centres' types: the flat type table at the centres' entries. -/
theorem stretch0 : (StableHlo.after hostOps0 W (Proc.devRef .tc main_v0) : S10000.Idx → BitVec 32) =
    select (inMask 199999#32 ![1] ![0, 1] [1] bcast_S_S10000x1 bcast_S1_S1x1_1 bcast_S1x1_S10000x1_0_1
          reducesTo_S10000x1_S10000_d1 h_S_
          (wrapIdx 200000#32 ![0] bcast_S_S10000 bcast_S10000_S10000x1_0 (W (Proc.devRef .tc main_arg4))))
      (Host.gather gather_S200000_S10000x1_S10000_n_0_n_n_0_1_1 (W (Proc.devRef .tc main_arg3))
        (wrapIdx 200000#32 ![0] bcast_S_S10000 bcast_S10000_S10000x1_0 (W (Proc.devRef .tc main_arg4))))
      (broadcastInDim S10000 ![] bcast_S_S10000 (constantI S_ 32 2147483648#32)) := by
  simp only [hostOps0]
  after_results_simp
  simp only [TRef.ofBuf, TRef.toBuf, cast_eq]
  rfl

/-- The take of the neighbours' types: the flat type table at the neighbours' entries. -/
theorem stretch1 : (StableHlo.after hostOps0_1 W (Proc.devRef .tc main_v1) : S10000x16.Idx → BitVec 32) =
    select (inMask 199999#32 ![2] ![0, 1, 2] [2] bcast_S_S10000x16x1 bcast_S1_S1x1x1_2 bcast_S1x1x1_S10000x16x1_0_1_2
          reducesTo_S10000x16x1_S10000x16_d2 h_S_
          (wrapIdx 200000#32 ![0, 1] bcast_S_S10000x16 bcast_S10000x16_S10000x16x1_0_1 (W (Proc.devRef .tc main_arg5))))
      (Host.gather gather_S200000_S10000x16x1_S10000x16_n_0_n_n_0_2_1 (W (Proc.devRef .tc main_arg3))
        (wrapIdx 200000#32 ![0, 1] bcast_S_S10000x16 bcast_S10000x16_S10000x16x1_0_1 (W (Proc.devRef .tc main_arg5))))
      (broadcastInDim S10000x16 ![] bcast_S_S10000x16 (constantI S_ 32 2147483648#32)) := by
  simp only [hostOps0_1]
  after_results_simp
  simp only [TRef.ofBuf, TRef.toBuf, cast_eq]
  rfl

/-- The take of the centres' embedding rows: the embedding table at the centres' types. -/
theorem stretch2 : (StableHlo.after hostOps0_2 W (Proc.devRef .tc main_v2) : S10000x32.Idx → F .f32) =
    select (broadcastInDim S10000x32 ![0] bcast_S10000_S10000x32_0
        (inMask 9#32 ![1] ![0, 1] [1] bcast_S_S10000x1 bcast_S1_S1x1_1 bcast_S1x1_S10000x1_0_1
          reducesTo_S10000x1_S10000_d1 h_S_
          (wrapIdx 10#32 ![0] bcast_S_S10000 bcast_S10000_S10000x1_0 (W (Proc.devRef .tc main_v0)))))
      (Host.gather gather_S10x32_S10000x1_S10000x32_1_0_n_n_0_1_132 (W (Proc.devRef .tc main_arg1))
        (wrapIdx 10#32 ![0] bcast_S_S10000 bcast_S10000_S10000x1_0 (W (Proc.devRef .tc main_v0))))
      (broadcastInDim S10000x32 ![] bcast_S_S10000x32 (constant S_ .f32 0x7FC00000#32)) := by
  simp only [hostOps0_2]
  after_results_simp
  simp only [TRef.ofBuf, TRef.toBuf, cast_eq]
  rfl

/-- The take of the neighbours' embedding rows: the embedding table at the neighbours' types. -/
theorem stretch3 : (StableHlo.after hostOps0_3 W (Proc.devRef .tc main_v3) : S10000x16x32.Idx → F .f32) =
    select (broadcastInDim S10000x16x32 ![0, 1] bcast_S10000x16_S10000x16x32_0_1
        (inMask 9#32 ![2] ![0, 1, 2] [2] bcast_S_S10000x16x1 bcast_S1_S1x1x1_2 bcast_S1x1x1_S10000x16x1_0_1_2
          reducesTo_S10000x16x1_S10000x16_d2 h_S_
          (wrapIdx 10#32 ![0, 1] bcast_S_S10000x16 bcast_S10000x16_S10000x16x1_0_1 (W (Proc.devRef .tc main_v1)))))
      (Host.gather gather_S10x32_S10000x16x1_S10000x16x32_2_0_n_n_0_2_132 (W (Proc.devRef .tc main_arg1))
        (wrapIdx 10#32 ![0, 1] bcast_S_S10000x16 bcast_S10000x16_S10000x16x1_0_1 (W (Proc.devRef .tc main_v1))))
      (broadcastInDim S10000x16x32 ![] bcast_S_S10000x16x32 (constant S_ .f32 0x7FC00000#32)) := by
  simp only [hostOps0_3]
  after_results_simp
  simp only [TRef.ofBuf, TRef.toBuf, cast_eq]
  rfl

/-- The take of the neighbours' positions: the position table at the neighbours' entries. -/
theorem stretch4 : (StableHlo.after hostOps0_4 W (Proc.devRef .tc main_v4) : S10000x16x3.Idx → F .f32) =
    select (broadcastInDim S10000x16x3 ![0, 1] bcast_S10000x16_S10000x16x3_0_1
        (inMask 199999#32 ![2] ![0, 1, 2] [2] bcast_S_S10000x16x1 bcast_S1_S1x1x1_2 bcast_S1x1x1_S10000x16x1_0_1_2
          reducesTo_S10000x16x1_S10000x16_d2 h_S_
          (wrapIdx 200000#32 ![0, 1] bcast_S_S10000x16 bcast_S10000x16_S10000x16x1_0_1 (W (Proc.devRef .tc main_arg5)))))
      (Host.gather gather_S200000x3_S10000x16x1_S10000x16x3_2_0_n_n_0_2_13 (W (Proc.devRef .tc main_arg0))
        (wrapIdx 200000#32 ![0, 1] bcast_S_S10000x16 bcast_S10000x16_S10000x16x1_0_1 (W (Proc.devRef .tc main_arg5))))
      (broadcastInDim S10000x16x3 ![] bcast_S_S10000x16x3 (constant S_ .f32 0x7FC00000#32)) := by
  simp only [hostOps0_4]
  after_results_simp
  simp only [TRef.ofBuf, TRef.toBuf, cast_eq]
  rfl

/-- The three coordinate columns of the gathered positions. -/
theorem stretch5_x : (StableHlo.after hostOps0_5 W (Proc.devRef .tc main_v6) : S10000x16.Idx → F .f32) =
    shapeCast S10000x16 (extractStridedSlice S10000x16x1 ![0, 0, 0] (W (Proc.devRef .tc main_v4)) slices_S10000x16x3_S10000x16x1_0_0_0)
      shapeCasts_S10000x16x1_S10000x16 := by
  simp only [hostOps0_5]
  after_results_simp
  rfl

theorem stretch5_y : (StableHlo.after hostOps0_5 W (Proc.devRef .tc main_v8) : S10000x16.Idx → F .f32) =
    shapeCast S10000x16 (extractStridedSlice S10000x16x1 ![0, 0, 1] (W (Proc.devRef .tc main_v4)) slices_S10000x16x3_S10000x16x1_0_0_1)
      shapeCasts_S10000x16x1_S10000x16 := by
  simp only [hostOps0_5]
  after_results_simp
  rfl

theorem stretch5_z : (StableHlo.after hostOps0_5 W (Proc.devRef .tc main_v10) : S10000x16.Idx → F .f32) =
    shapeCast S10000x16 (extractStridedSlice S10000x16x1 ![0, 0, 2] (W (Proc.devRef .tc main_v4)) slices_S10000x16x3_S10000x16x1_0_0_2)
      shapeCasts_S10000x16x1_S10000x16 := by
  simp only [hostOps0_5]
  after_results_simp
  rfl

/-! ### Each take with its entries in range -/

theorem v0_eq (hin : ∀ i, Cert.Angle.InRange 200000 ((W (Proc.devRef .tc main_arg4) : S10000.Idx → BitVec 32) i)) :
    (StableHlo.after hostOps0 W (Proc.devRef .tc main_v0) : S10000.Idx → BitVec 32) = fun j =>
      (W (Proc.devRef .tc main_arg3) : S200000.Idx → BitVec 32)
        (ix1 (Cert.Angle.rowOf 200000 (by decide) ((W (Proc.devRef .tc main_arg4) : S10000.Idx → BitVec 32) j))) := by
  rw [stretch0]
  funext j
  obtain ⟨r, rfl⟩ : ∃ r : Fin 10000, j = ix1 r := ⟨j 0, eq_ix1 j⟩
  exact takeA_apply (by decide) 200000#32 199999#32 2147483648#32 gather_S200000_S10000x1_S10000_n_0_n_n_0_1_1_wf
    (sU := S1x1) ![1] ![0, 1] [1] bcast_S_S10000 bcast_S10000_S10000x1_0 bcast_S_S10000x1 bcast_S1_S1x1_1
    bcast_S1x1_S10000x1_0_1 reducesTo_S10000x1_S10000_d1 h_S_ (W (Proc.devRef .tc main_arg3)) (W (Proc.devRef .tc main_arg4)) (by decide) hin r

theorem v1_eq (hin : ∀ i, Cert.Angle.InRange 200000 ((W (Proc.devRef .tc main_arg5) : S10000x16.Idx → BitVec 32) i)) :
    (StableHlo.after hostOps0_1 W (Proc.devRef .tc main_v1) : S10000x16.Idx → BitVec 32) = fun j =>
      (W (Proc.devRef .tc main_arg3) : S200000.Idx → BitVec 32)
        (ix1 (Cert.Angle.rowOf 200000 (by decide) ((W (Proc.devRef .tc main_arg5) : S10000x16.Idx → BitVec 32) j))) := by
  rw [stretch1]
  funext j
  obtain ⟨r, q, rfl⟩ : ∃ (r : Fin 10000) (q : Fin 16), j = ix2 r q := ⟨j 0, j 1, eq_ix2 j⟩
  exact takeB_apply (by decide) 200000#32 199999#32 2147483648#32 gather_S200000_S10000x16x1_S10000x16_n_0_n_n_0_2_1_wf
    (sU := S1x1x1) ![2] ![0, 1, 2] [2] bcast_S_S10000x16 bcast_S10000x16_S10000x16x1_0_1 bcast_S_S10000x16x1 bcast_S1_S1x1x1_2
    bcast_S1x1x1_S10000x16x1_0_1_2 reducesTo_S10000x16x1_S10000x16_d2 h_S_ (W (Proc.devRef .tc main_arg3)) (W (Proc.devRef .tc main_arg5)) (by decide) hin r q

theorem v2_eq (hin : ∀ i, Cert.Angle.InRange 10 ((W (Proc.devRef .tc main_v0) : S10000.Idx → BitVec 32) i)) :
    (StableHlo.after hostOps0_2 W (Proc.devRef .tc main_v2) : S10000x32.Idx → F .f32) = fun j =>
      (W (Proc.devRef .tc main_arg1) : S10x32.Idx → F .f32)
        (ix2 (Cert.Angle.rowOf 10 (by decide) ((W (Proc.devRef .tc main_v0) : S10000.Idx → BitVec 32) (ix1 (j 0)))) (j 1)) := by
  rw [stretch2]
  funext j
  obtain ⟨r, k, rfl⟩ : ∃ (r : Fin 10000) (k : Fin 32), j = ix2 r k := ⟨j 0, j 1, eq_ix2 j⟩
  exact takeC_apply (by decide) 10#32 9#32 gather_S10x32_S10000x1_S10000x32_1_0_n_n_0_1_132_wf
    (sU := S1x1) ![1] ![0, 1] [1] ![0] bcast_S_S10000 bcast_S10000_S10000x1_0 bcast_S_S10000x1 bcast_S1_S1x1_1
    bcast_S1x1_S10000x1_0_1 reducesTo_S10000x1_S10000_d1 h_S_ bcast_S10000_S10000x32_0 _ (W (Proc.devRef .tc main_arg1)) (W (Proc.devRef .tc main_v0))
    (by decide) hin r k

theorem v3_eq (hin : ∀ i, Cert.Angle.InRange 10 ((W (Proc.devRef .tc main_v1) : S10000x16.Idx → BitVec 32) i)) :
    (StableHlo.after hostOps0_3 W (Proc.devRef .tc main_v3) : S10000x16x32.Idx → F .f32) = fun j =>
      (W (Proc.devRef .tc main_arg1) : S10x32.Idx → F .f32)
        (ix2 (Cert.Angle.rowOf 10 (by decide) ((W (Proc.devRef .tc main_v1) : S10000x16.Idx → BitVec 32) (ix2 (j 0) (j 1)))) (j 2)) := by
  rw [stretch3]
  funext j
  obtain ⟨r, q, k, rfl⟩ : ∃ (r : Fin 10000) (q : Fin 16) (k : Fin 32), j = ix3 r q k := ⟨j 0, j 1, j 2, eq_ix3 j⟩
  exact takeD_apply (by decide) 10#32 9#32 gather_S10x32_S10000x16x1_S10000x16x32_2_0_n_n_0_2_132_wf
    (sU := S1x1x1) ![2] ![0, 1, 2] [2] ![0, 1] bcast_S_S10000x16 bcast_S10000x16_S10000x16x1_0_1 bcast_S_S10000x16x1
    bcast_S1_S1x1x1_2 bcast_S1x1x1_S10000x16x1_0_1_2 reducesTo_S10000x16x1_S10000x16_d2 h_S_ bcast_S10000x16_S10000x16x32_0_1 _
    (W (Proc.devRef .tc main_arg1)) (W (Proc.devRef .tc main_v1)) (by decide) hin r q k

theorem v4_eq (hin : ∀ i, Cert.Angle.InRange 200000 ((W (Proc.devRef .tc main_arg5) : S10000x16.Idx → BitVec 32) i)) :
    (StableHlo.after hostOps0_4 W (Proc.devRef .tc main_v4) : S10000x16x3.Idx → F .f32) = fun j =>
      (W (Proc.devRef .tc main_arg0) : S200000x3.Idx → F .f32)
        (ix2 (Cert.Angle.rowOf 200000 (by decide) ((W (Proc.devRef .tc main_arg5) : S10000x16.Idx → BitVec 32) (ix2 (j 0) (j 1)))) (j 2)) := by
  rw [stretch4]
  funext j
  obtain ⟨r, q, k, rfl⟩ : ∃ (r : Fin 10000) (q : Fin 16) (k : Fin 3), j = ix3 r q k := ⟨j 0, j 1, j 2, eq_ix3 j⟩
  exact takeD_apply (by decide) 200000#32 199999#32 gather_S200000x3_S10000x16x1_S10000x16x3_2_0_n_n_0_2_13_wf
    (sU := S1x1x1) ![2] ![0, 1, 2] [2] ![0, 1] bcast_S_S10000x16 bcast_S10000x16_S10000x16x1_0_1 bcast_S_S10000x16x1
    bcast_S1_S1x1x1_2 bcast_S1x1x1_S10000x16x1_0_1_2 reducesTo_S10000x16x1_S10000x16_d2 h_S_ bcast_S10000x16_S10000x16x3_0_1 _
    (W (Proc.devRef .tc main_arg0)) (W (Proc.devRef .tc main_arg5)) (by decide) hin r q k

end Stretches

/-! ## The arrays the region finds -/

/-- Core `c`'s buffers at launch, and after each of the first five stretches. -/
abbrev L0 (c : Dev nD) : Valuation τ sig (Elt F) := fun b => m (c, b)
abbrev L1 (c : Dev nD) : Valuation τ sig (Elt F) := StableHlo.after hostOps0 (L0 m c)
abbrev L2 (c : Dev nD) : Valuation τ sig (Elt F) := StableHlo.after hostOps0_1 (L1 m c)
abbrev L3 (c : Dev nD) : Valuation τ sig (Elt F) := StableHlo.after hostOps0_2 (L2 m c)
abbrev L4 (c : Dev nD) : Valuation τ sig (Elt F) := StableHlo.after hostOps0_3 (L3 m c)
abbrev L5 (c : Dev nD) : Valuation τ sig (Elt F) := StableHlo.after hostOps0_4 (L4 m c)

/-- The region's buffers are the launch contents run through the six stretches in order. -/
theorem V_split (c : Dev nD) (b : Ref sig .tc) :
    V m c b = StableHlo.after hostOps0_5 (L5 m c) (Proc.devRef .tc b) := by
  dsimp only [Gen.V]
  simp only [List.flatten_cons, List.flatten_nil, List.append_nil, StableHlo.after_append]

/-- The gathered positions: row (r, q) is the position row the entry (r, q) of the neighbour table names. -/
theorem L5_v4 (c : Dev nD) (hJ : ∀ i, Cert.Angle.InRange 200000 ((m ((c : Thread nD τ).loc main_arg5)) i)) :
    (L5 m c (Proc.devRef .tc main_v4) : S10000x16x3.Idx → F .f32) = fun j =>
      (m ((c : Thread nD τ).loc main_arg0)) (ix2 (Cert.Angle.rowOf 200000 (by decide) ((m ((c : Thread nD τ).loc main_arg5)) (ix2 (j 0) (j 1)))) (j 2)) := by
  have h5 : L4 m c (Proc.devRef .tc main_arg5) = (m ((c : Thread nD τ).loc main_arg5)) :=
    (pass3 (L3 m c) main_arg5 (by decide)).trans ((pass2 (L2 m c) main_arg5 (by decide)).trans
      ((pass1 (L1 m c) main_arg5 (by decide)).trans (pass0 (L0 m c) main_arg5 (by decide))))
  have h0 : L4 m c (Proc.devRef .tc main_arg0) = (m ((c : Thread nD τ).loc main_arg0)) :=
    (pass3 (L3 m c) main_arg0 (by decide)).trans ((pass2 (L2 m c) main_arg0 (by decide)).trans
      ((pass1 (L1 m c) main_arg0 (by decide)).trans (pass0 (L0 m c) main_arg0 (by decide))))
  refine (v4_eq (L4 m c) (fun i => by rw [h5]; exact hJ i)).trans ?_
  rw [h0, h5]

theorem V_x (c : Dev nD) (hJ : ∀ i, Cert.Angle.InRange 200000 (m ((c : Thread nD τ).loc main_arg5) i)) :
    V m c main_v6 = Cert.Angle.coord (m ((c : Thread nD τ).loc main_arg0)) (m ((c : Thread nD τ).loc main_arg5)) 0 := by
  refine (V_split m c main_v6).trans ((stretch5_x (L5 m c)).trans ?_)
  funext j
  obtain ⟨r, q, rfl⟩ : ∃ (r : Fin 10000) (q : Fin 16), j = ix2 r q := ⟨j 0, j 1, eq_ix2 j⟩
  refine (coord_read _ (0 : Fin 3) _ _ r q).trans ?_
  rw [L5_v4 m c hJ]
  rfl

theorem V_y (c : Dev nD) (hJ : ∀ i, Cert.Angle.InRange 200000 (m ((c : Thread nD τ).loc main_arg5) i)) :
    V m c main_v8 = Cert.Angle.coord (m ((c : Thread nD τ).loc main_arg0)) (m ((c : Thread nD τ).loc main_arg5)) 1 := by
  refine (V_split m c main_v8).trans ((stretch5_y (L5 m c)).trans ?_)
  funext j
  obtain ⟨r, q, rfl⟩ : ∃ (r : Fin 10000) (q : Fin 16), j = ix2 r q := ⟨j 0, j 1, eq_ix2 j⟩
  refine (coord_read _ (1 : Fin 3) _ _ r q).trans ?_
  rw [L5_v4 m c hJ]
  rfl

theorem V_z (c : Dev nD) (hJ : ∀ i, Cert.Angle.InRange 200000 (m ((c : Thread nD τ).loc main_arg5) i)) :
    V m c main_v10 = Cert.Angle.coord (m ((c : Thread nD τ).loc main_arg0)) (m ((c : Thread nD τ).loc main_arg5)) 2 := by
  refine (V_split m c main_v10).trans ((stretch5_z (L5 m c)).trans ?_)
  funext j
  obtain ⟨r, q, rfl⟩ : ∃ (r : Fin 10000) (q : Fin 16), j = ix2 r q := ⟨j 0, j 1, eq_ix2 j⟩
  refine (coord_read _ (2 : Fin 3) _ _ r q).trans ?_
  rw [L5_v4 m c hJ]
  rfl

theorem V_embJ (c : Dev nD) (hT : ∀ i, Cert.Angle.InRange 10 (m ((c : Thread nD τ).loc main_arg3) i))
    (hJ : ∀ i, Cert.Angle.InRange 200000 (m ((c : Thread nD τ).loc main_arg5) i)) :
    V m c main_v3 = Cert.Angle.embJ (m ((c : Thread nD τ).loc main_arg1)) (m ((c : Thread nD τ).loc main_arg3)) (m ((c : Thread nD τ).loc main_arg5)) := by
  have h5 : L1 m c (Proc.devRef .tc main_arg5) = (m ((c : Thread nD τ).loc main_arg5)) := pass0 (L0 m c) main_arg5 (by decide)
  have h3 : L1 m c (Proc.devRef .tc main_arg3) = (m ((c : Thread nD τ).loc main_arg3)) := pass0 (L0 m c) main_arg3 (by decide)
  have hv1 : (L3 m c (Proc.devRef .tc main_v1) : S10000x16.Idx → BitVec 32) = fun j =>
      (m ((c : Thread nD τ).loc main_arg3)) (ix1 (Cert.Angle.rowOf 200000 (by decide) ((m ((c : Thread nD τ).loc main_arg5)) j))) :=
    (pass2 (L2 m c) main_v1 (by decide)).trans
      ((v1_eq (L1 m c) (fun i => by rw [h5]; exact hJ i)).trans (by rw [h3, h5]))
  have h1 : L3 m c (Proc.devRef .tc main_arg1) = (m ((c : Thread nD τ).loc main_arg1)) :=
    (pass2 (L2 m c) main_arg1 (by decide)).trans
      ((pass1 (L1 m c) main_arg1 (by decide)).trans (pass0 (L0 m c) main_arg1 (by decide)))
  refine (V_split m c main_v3).trans ((pass5 (L5 m c) main_v3 (by decide)).trans
    ((pass4 (L4 m c) main_v3 (by decide)).trans ?_))
  refine (v3_eq (L3 m c) (fun i => by rw [hv1]; exact hT _)).trans ?_
  rw [h1, hv1]
  rfl

theorem V_embI (c : Dev nD) (hT : ∀ i, Cert.Angle.InRange 10 (m ((c : Thread nD τ).loc main_arg3) i))
    (hI : ∀ i, Cert.Angle.InRange 200000 (m ((c : Thread nD τ).loc main_arg4) i)) :
    V m c main_v2 = Cert.Angle.embI (m ((c : Thread nD τ).loc main_arg1)) (m ((c : Thread nD τ).loc main_arg3)) (m ((c : Thread nD τ).loc main_arg4)) := by
  have hv0 : (L2 m c (Proc.devRef .tc main_v0) : S10000.Idx → BitVec 32) = fun j =>
      (m ((c : Thread nD τ).loc main_arg3)) (ix1 (Cert.Angle.rowOf 200000 (by decide) ((m ((c : Thread nD τ).loc main_arg4)) j))) :=
    (pass1 (L1 m c) main_v0 (by decide)).trans (v0_eq (L0 m c) hI)
  have h1 : L2 m c (Proc.devRef .tc main_arg1) = (m ((c : Thread nD τ).loc main_arg1)) :=
    (pass1 (L1 m c) main_arg1 (by decide)).trans (pass0 (L0 m c) main_arg1 (by decide))
  refine (V_split m c main_v2).trans ((pass5 (L5 m c) main_v2 (by decide)).trans
    ((pass4 (L4 m c) main_v2 (by decide)).trans ((pass3 (L3 m c) main_v2 (by decide)).trans ?_)))
  refine (v2_eq (L2 m c) (fun i => by rw [hv0]; exact hT _)).trans ?_
  rw [h1, hv0]
  rfl

end Cert.KernelIdeal.HostVal

end
-- ==== Proof.KernelValue.lean ====
/-
  The kernel's result array. Grid point t stages rows 80 t … 80 t + 79 of each of the six arrays the region finds and
  writes back rows 80 t … 80 t + 79 of the result; the body's block is the angular descriptor of the staged blocks, and the
  descriptor of a centre reads only that centre's rows, so block t of the descriptor of the whole arrays is the descriptor
  of the blocks. The 125 blocks cover the array: the row r lies in block r / 80.
-/
import proofs.«408688_j81827716923455_3_alg».proof.Proof.Gen.KernelIdeal.Value
import proofs.«408688_j81827716923455_3_alg».proof.Proof.KernelBody
import proofs.«408688_j81827716923455_3_alg».proof.Proof.KernelHost
import proofs.«408688_j81827716923455_3_alg».proof.Proof.Spec

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-- The third side with the kernel's constant 2. -/
abbrev sd : F .f32 → F .f32 → F .f32 → F .f32 → F .f32 → F .f32 → F .f32 → F .f32 → F .f32 :=
  Cert.Angle.sideK (FloatOps.ofBits (F := F) .f32 0x40000000#32)

/-! ## The staged blocks and the arrays, at their literal types -/

abbrev dblk (c : Dev nD) (t : Fin cfg0.N) : Vec F S80x16 .f32 := iblk m c 0 t
abbrev xblk (c : Dev nD) (t : Fin cfg0.N) : Vec F S80x16 .f32 := iblk m c 1 t
abbrev yblk (c : Dev nD) (t : Fin cfg0.N) : Vec F S80x16 .f32 := iblk m c 2 t
abbrev zblk (c : Dev nD) (t : Fin cfg0.N) : Vec F S80x16 .f32 := iblk m c 3 t
abbrev eblk (c : Dev nD) (t : Fin cfg0.N) : Vec F S80x16x32 .f32 := iblk m c 4 t
abbrev cblk (c : Dev nD) (t : Fin cfg0.N) : Vec F S80x32 .f32 := iblk m c 5 t

abbrev darr (c : Dev nD) : Vec F S10000x16 .f32 := V m c main_arg2
abbrev xarr (c : Dev nD) : Vec F S10000x16 .f32 := V m c main_v6
abbrev yarr (c : Dev nD) : Vec F S10000x16 .f32 := V m c main_v8
abbrev zarr (c : Dev nD) : Vec F S10000x16 .f32 := V m c main_v10
abbrev earr (c : Dev nD) : Vec F S10000x16x32 .f32 := V m c main_v3
abbrev carr (c : Dev nD) : Vec F S10000x32 .f32 := V m c main_v2

/-- The descriptor of the arrays the region finds. -/
abbrev G (c : Dev nD) : Vec F S10000x240x99 .f32 :=
  Cert.Angle.desc sd (darr m c) (xarr m c) (yarr m c) (zarr m c) (earr m c) (carr m c)

/-- Point t's blocks: block t along the centres, block 0 along every other axis. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

theorem row_lt (t : Fin cfg0.N) (r : Fin 80) : 80 * t.val + r.val < 10000 := by
  have ht : t.val < 125 := t.isLt
  have hr := r.isLt
  omega

/-- Row r of point t's block is row 80 t + r of the array. -/
abbrev rowAt (t : Fin cfg0.N) (r : Fin 80) : Fin 10000 := ⟨80 * t.val + r.val, row_lt t r⟩

theorem dblk_eq (c : Dev nD) (t : Fin cfg0.N) (r : Fin 80) (a : Fin 16) : dblk m c t (ix2 r a) = darr m c (ix2 (rowAt t r) a) := by
  show V m c main_arg2 (((cfg0.win 0).blk t).view.emb (ix2 r a)) = V m c main_arg2 (ix2 (rowAt t r) a)
  obtain ⟨e0, e1, -⟩ := idx_facts t
  congr 1; funext d; apply Fin.ext
  match d with
  | ⟨0, _⟩ => show win0_0.index t (0 : Fin 2) * 80 + 1 * r.val = 80 * t.val + r.val; omega
  | ⟨1, _⟩ => show win0_0.index t (1 : Fin 2) * 16 + 1 * a.val = a.val; omega

theorem xblk_eq (c : Dev nD) (t : Fin cfg0.N) (r : Fin 80) (a : Fin 16) : xblk m c t (ix2 r a) = xarr m c (ix2 (rowAt t r) a) := by
  show V m c main_v6 (((cfg0.win 1).blk t).view.emb (ix2 r a)) = V m c main_v6 (ix2 (rowAt t r) a)
  obtain ⟨-, -, e0, e1, -⟩ := idx_facts t
  congr 1; funext d; apply Fin.ext
  match d with
  | ⟨0, _⟩ => show win0_1.index t (0 : Fin 2) * 80 + 1 * r.val = 80 * t.val + r.val; omega
  | ⟨1, _⟩ => show win0_1.index t (1 : Fin 2) * 16 + 1 * a.val = a.val; omega

theorem yblk_eq (c : Dev nD) (t : Fin cfg0.N) (r : Fin 80) (a : Fin 16) : yblk m c t (ix2 r a) = yarr m c (ix2 (rowAt t r) a) := by
  show V m c main_v8 (((cfg0.win 2).blk t).view.emb (ix2 r a)) = V m c main_v8 (ix2 (rowAt t r) a)
  obtain ⟨-, -, -, -, e0, e1, -⟩ := idx_facts t
  congr 1; funext d; apply Fin.ext
  match d with
  | ⟨0, _⟩ => show win0_2.index t (0 : Fin 2) * 80 + 1 * r.val = 80 * t.val + r.val; omega
  | ⟨1, _⟩ => show win0_2.index t (1 : Fin 2) * 16 + 1 * a.val = a.val; omega

theorem zblk_eq (c : Dev nD) (t : Fin cfg0.N) (r : Fin 80) (a : Fin 16) : zblk m c t (ix2 r a) = zarr m c (ix2 (rowAt t r) a) := by
  show V m c main_v10 (((cfg0.win 3).blk t).view.emb (ix2 r a)) = V m c main_v10 (ix2 (rowAt t r) a)
  obtain ⟨-, -, -, -, -, -, e0, e1, -⟩ := idx_facts t
  congr 1; funext d; apply Fin.ext
  match d with
  | ⟨0, _⟩ => show win0_3.index t (0 : Fin 2) * 80 + 1 * r.val = 80 * t.val + r.val; omega
  | ⟨1, _⟩ => show win0_3.index t (1 : Fin 2) * 16 + 1 * a.val = a.val; omega

theorem eblk_eq (c : Dev nD) (t : Fin cfg0.N) (r : Fin 80) (a : Fin 16) (g : Fin 32) :
    eblk m c t (ix3 r a g) = earr m c (ix3 (rowAt t r) a g) := by
  show V m c main_v3 (((cfg0.win 4).blk t).view.emb (ix3 r a g)) = V m c main_v3 (ix3 (rowAt t r) a g)
  obtain ⟨-, -, -, -, -, -, -, -, e0, e1, e2, -⟩ := idx_facts t
  congr 1; funext d; apply Fin.ext
  match d with
  | ⟨0, _⟩ => show win0_4.index t (0 : Fin 3) * 80 + 1 * r.val = 80 * t.val + r.val; omega
  | ⟨1, _⟩ => show win0_4.index t (1 : Fin 3) * 16 + 1 * a.val = a.val; omega
  | ⟨2, _⟩ => show win0_4.index t (2 : Fin 3) * 32 + 1 * g.val = g.val; omega

theorem cblk_eq (c : Dev nD) (t : Fin cfg0.N) (r : Fin 80) (g : Fin 32) : cblk m c t (ix2 r g) = carr m c (ix2 (rowAt t r) g) := by
  show V m c main_v2 (((cfg0.win 5).blk t).view.emb (ix2 r g)) = V m c main_v2 (ix2 (rowAt t r) g)
  obtain ⟨-, -, -, -, -, -, -, -, -, -, -, e0, e1, -⟩ := idx_facts t
  congr 1; funext d; apply Fin.ext
  match d with
  | ⟨0, _⟩ => show win0_5.index t (0 : Fin 2) * 80 + 1 * r.val = 80 * t.val + r.val; omega
  | ⟨1, _⟩ => show win0_5.index t (1 : Fin 2) * 32 + 1 * g.val = g.val; omega

/-- A feature of a pair reads only its centre's rows: over the blocks at row r it is the feature over the arrays at row
    80 t + r. -/
theorem entry_blk (c : Dev nD) (t : Fin cfg0.N) (r : Fin 80) (a k : Fin 16) (f : ℕ) :
    Cert.Angle.entry sd (dblk m c t) (xblk m c t) (yblk m c t) (zblk m c t) (eblk m c t) (cblk m c t) r a k f
      = Cert.Angle.entry sd (darr m c) (xarr m c) (yarr m c) (zarr m c) (earr m c) (carr m c) (rowAt t r) a k f := by
  unfold Cert.Angle.entry
  simp only [dblk_eq, xblk_eq, yblk_eq, zblk_eq, eblk_eq, cblk_eq]

/-- The descriptor at an index whose coordinates are named. -/
theorem desc_at {R : ℕ} (s : F .f32 → F .f32 → F .f32 → F .f32 → F .f32 → F .f32 → F .f32 → F .f32 → F .f32)
    (d x y z : FVec F ⟨2, ![R, 16]⟩ .f32) (e : FVec F ⟨3, ![R, 16, 32]⟩ .f32) (ei : FVec F ⟨2, ![R, 32]⟩ .f32)
    (i : (⟨3, ![R, 240, 99]⟩ : Shape).Idx) (r : Fin R) (p : ℕ) (hp : p < 240) (f : ℕ)
    (h0 : (i 0).val = r.val) (h1 : (i 1).val = p) (h2 : (i 2).val = f) :
    Cert.Angle.desc s d x y z e ei i = Cert.Angle.entry s d x y z e ei r (Cert.Angle.fstOf p hp) (Cert.Angle.sndOf p hp) f := by
  subst h1 h2
  have hr : (⟨(i 0).val, (i 0).isLt⟩ : Fin R) = r := Fin.ext h0
  unfold Cert.Angle.desc
  rw [hr]

/-- WHAT POINT t WRITES BACK is block t of the descriptor of the arrays. -/
theorem flushed_eq (c : Dev nD) (t : Fin cfg0.N) :
    (dats m 0 c).flushed 6 t = ((cfg0.win 6).blk t).view.read (Elt F) (G m c) := by
  rw [Cert.KernelIdeal.Value.flushed6, Cert.KernelIdeal.Body.out_eq]
  funext j
  show Cert.Angle.desc sd (dblk m c t) (xblk m c t) (yblk m c t) (zblk m c t) (eblk m c t) (cblk m c t) j
      = Cert.Angle.desc sd (darr m c) (xarr m c) (yarr m c) (zarr m c) (earr m c) (carr m c) (((cfg0.win 6).blk t).view.emb j)
  obtain ⟨-, -, -, -, -, -, -, -, -, -, -, -, -, e0, e1, e2⟩ := idx_facts t
  have hp : (j 1).val < 240 := (j 1).isLt
  rw [desc_at sd _ _ _ _ _ _ j ⟨(j 0).val, (j 0).isLt⟩ (j 1).val hp (j 2).val rfl rfl rfl,
    desc_at sd _ _ _ _ _ _ (((cfg0.win 6).blk t).view.emb j) (rowAt t ⟨(j 0).val, (j 0).isLt⟩) (j 1).val hp (j 2).val
      (by show win0_6.index t (0 : Fin 3) * 80 + 1 * (j 0).val = 80 * t.val + (j 0).val; omega)
      (by show win0_6.index t (1 : Fin 3) * 240 + 1 * (j 1).val = (j 1).val; omega)
      (by show win0_6.index t (2 : Fin 3) * 99 + 1 * (j 2).val = (j 2).val; omega)]
  exact entry_blk m c t _ _ _ _

/-- An index of the result is in point t's block iff each coordinate is in the block's range on its axis. -/
theorem mem_blk (t : Fin cfg0.N) (i : S10000x240x99.Idx) :
    i ∈ ((cfg0.win 6).blk t).view.set ↔ ∀ a : Fin 3, win0_6.index t a * S80x240x99.size a ≤ (i a).val ∧ (i a).val < win0_6.index t a * S80x240x99.size a + S80x240x99.size a := by
  show i ∈ ((View.whole main_v11).slice (win0_6.rect t)).set ↔ _
  rw [View.set_slice_whole, Rect.mem_set_unit]
  exact Iff.rfl

/-- Every index of the result lies in the block of the point its centre names. -/
theorem cover (i : S10000x240x99.Idx) : ∃ t : Fin cfg0.N, (cfg0.win 6).flush t = true ∧ i ∈ ((cfg0.win 6).blk t).view.set := by
  have h0 : (i 0).val < 10000 := (i 0).isLt
  have h1 : (i 1).val < 240 := (i 1).isLt
  have h2 : (i 2).val < 99 := (i 2).isLt
  have ht : (i 0).val / 80 < 125 := by omega
  refine ⟨⟨(i 0).val / 80, ht⟩, flush0_6 _, ?_⟩
  obtain ⟨-, -, -, -, -, -, -, -, -, -, -, -, -, e0, e1, e2⟩ := idx_facts ⟨(i 0).val / 80, ht⟩
  have e0' : win0_6.index ⟨(i 0).val / 80, ht⟩ (0 : Fin 3) = (i 0).val / 80 := e0
  rw [mem_blk]
  intro a
  match a with
  | ⟨0, _⟩ => show win0_6.index ⟨(i 0).val / 80, ht⟩ (0 : Fin 3) * 80 ≤ (i 0).val ∧ (i 0).val < win0_6.index ⟨(i 0).val / 80, ht⟩ (0 : Fin 3) * 80 + 80; omega
  | ⟨1, _⟩ => show win0_6.index ⟨(i 0).val / 80, ht⟩ (1 : Fin 3) * 240 ≤ (i 1).val ∧ (i 1).val < win0_6.index ⟨(i 0).val / 80, ht⟩ (1 : Fin 3) * 240 + 240; omega
  | ⟨2, _⟩ => show win0_6.index ⟨(i 0).val / 80, ht⟩ (2 : Fin 3) * 99 ≤ (i 2).val ∧ (i 2).val < win0_6.index ⟨(i 0).val / 80, ht⟩ (2 : Fin 3) * 99 + 99; omega

/-- THE RESULT ARRAY after the run is the descriptor of the arrays the region finds. -/
theorem final (c : Dev nD) : (dats m 0 c).arrAt 6 cfg0.N = G m c :=
  (dats m 0 c).arrAt_eq_of_cover 6 (G m c) (fun t _ => flushed_eq m c t) cover

/-- With every table entry in range, the arrays the region finds are the gathered rows of the arguments. -/
theorem final_args (c : Dev nD)
    (hT : ∀ i, Cert.Angle.InRange 10 (m ((c : Thread nD τ).loc main_arg3) i))
    (hI : ∀ i, Cert.Angle.InRange 200000 (m ((c : Thread nD τ).loc main_arg4) i))
    (hJ : ∀ i, Cert.Angle.InRange 200000 (m ((c : Thread nD τ).loc main_arg5) i)) :
    (dats m 0 c).arrAt 6 cfg0.N
      = Cert.Angle.desc sd (m ((c : Thread nD τ).loc main_arg2))
          (Cert.Angle.coord (m ((c : Thread nD τ).loc main_arg0)) (m ((c : Thread nD τ).loc main_arg5)) 0)
          (Cert.Angle.coord (m ((c : Thread nD τ).loc main_arg0)) (m ((c : Thread nD τ).loc main_arg5)) 1)
          (Cert.Angle.coord (m ((c : Thread nD τ).loc main_arg0)) (m ((c : Thread nD τ).loc main_arg5)) 2)
          (Cert.Angle.embJ (m ((c : Thread nD τ).loc main_arg1)) (m ((c : Thread nD τ).loc main_arg3)) (m ((c : Thread nD τ).loc main_arg5)))
          (Cert.Angle.embI (m ((c : Thread nD τ).loc main_arg1)) (m ((c : Thread nD τ).loc main_arg3)) (m ((c : Thread nD τ).loc main_arg4))) := by
  rw [final]
  show Cert.Angle.desc sd (V m c main_arg2) (V m c main_v6) (V m c main_v8) (V m c main_v10) (V m c main_v3) (V m c main_v2) = _
  rw [V_main_arg2, Cert.KernelIdeal.HostVal.V_x m c hJ, Cert.KernelIdeal.HostVal.V_y m c hJ, Cert.KernelIdeal.HostVal.V_z m c hJ,
    Cert.KernelIdeal.HostVal.V_embJ m c hT hJ, Cert.KernelIdeal.HostVal.V_embI m c hT hI]

end Cert.KernelIdeal.Final

end
-- ==== Proof.RefOps.lean ====
/- The reference program's @main as the list of its 84 host operations, in the order @main runs them, copied from the
   printed program, and a name for what that list leaves in a buffer: the neighbour gathers, the pairwise differences
   and their normalised third side, the two-stage embedding lookup, the six broadcast pieces laid side by side, and the
   final choice of the 240 ordered pairs of distinct neighbours out of the 256. -/
import proofs.«408688_j81827716923455_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 84 operations, in order. -/
abbrev ops : List (HloOp τ sig (Elt F)) :=
  [ nullary main_c (fun i => lit0 (S240.rowMajor i)),
    nullary main_c_0 (constantI S240 1 0#1),
    unary main_arg2 main_v0 (broadcastInDim S10000x16x1 ![0, 1] bcast_S10000x16_S10000x16x1_0_1 : (⟨S10000x16, .f32⟩ : BufTy).Contents (Elt F) → (⟨S10000x16x1, .f32⟩ : BufTy).Contents (Elt F)),
    unary main_arg2 main_v1 (broadcastInDim S10000x1x16 ![0, 2] bcast_S10000x16_S10000x1x16_0_2 : (⟨S10000x16, .f32⟩ : BufTy).Contents (Elt F) → (⟨S10000x1x16, .f32⟩ : BufTy).Contents (Elt F)),
    nullary main_c_1 (constantI S_ 32 0#32),
    unary main_c_1 main_v2 (broadcastInDim S10000x16 ![] bcast_S_S10000x16 : (⟨S_, .i32⟩ : BufTy).Contents (Elt F) → (⟨S10000x16, .i32⟩ : BufTy).Contents (Elt F)),
    binary main_arg5 main_v2 main_v3 (cmpi .slt : (⟨S10000x16, .i32⟩ : BufTy).Contents (Elt F) → (⟨S10000x16, .i32⟩ : BufTy).Contents (Elt F) → (⟨S10000x16, .i1⟩ : BufTy).Contents (Elt F)),
    nullary main_c_2 (constantI S_ 32 200000#32),
    unary main_c_2 main_v4 (broadcastInDim S10000x16 ![] bcast_S_S10000x16 : (⟨S_, .i32⟩ : BufTy).Contents (Elt F) → (⟨S10000x16, .i32⟩ : BufTy).Contents (Elt F)),
    binary main_arg5 main_v4 main_v5 (addi : (⟨S10000x16, .i32⟩ : BufTy).Contents (Elt F) → (⟨S10000x16, .i32⟩ : BufTy).Contents (Elt F) → (⟨S10000x16, .i32⟩ : BufTy).Contents (Elt F)),
    ternary main_v3 main_v5 main_arg5 main_v6 (select : (⟨S10000x16, .i1⟩ : BufTy).Contents (Elt F) → (⟨S10000x16, .i32⟩ : BufTy).Contents (Elt F) → (⟨S10000x16, .i32⟩ : BufTy).Contents (Elt F) → (⟨S10000x16, .i32⟩ : BufTy).Contents (Elt F)),
    unary main_v6 main_v7 (broadcastInDim S10000x16x1 ![0, 1] bcast_S10000x16_S10000x16x1_0_1 : (⟨S10000x16, .i32⟩ : BufTy).Contents (Elt F) → (⟨S10000x16x1, .i32⟩ : BufTy).Contents (Elt F)),
    binary main_arg0 main_v7 main_v8 ((fun x i => Host.gather gather_S200000x3_S10000x16x1_S10000x16x3_2_0_n_n_0_2_13 x i) : (⟨S200000x3, .f32⟩ : BufTy).Contents (Elt F) → (⟨S10000x16x1, .i32⟩ : BufTy).Contents (Elt F) → (⟨S10000x16x3, .f32⟩ : BufTy).Contents (Elt F)),
    unary main_v8 main_v9 (broadcastInDim S10000x16x1x3 ![0, 1, 3] bcast_S10000x16x3_S10000x16x1x3_0_1_3 : (⟨S10000x16x3, .f32⟩ : BufTy).Contents (Elt F) → (⟨S10000x16x1x3, .f32⟩ : BufTy).Contents (Elt F)),
    unary main_v8 main_v10 (broadcastInDim S10000x1x16x3 ![0, 2, 3] bcast_S10000x16x3_S10000x1x16x3_0_2_3 : (⟨S10000x16x3, .f32⟩ : BufTy).Contents (Elt F) → (⟨S10000x1x16x3, .f32⟩ : BufTy).Contents (Elt F)),
    unary main_v9 main_v11 (broadcastInDim S10000x16x16x3 ![0, 1, 2, 3] bcast_S10000x16x1x3_S10000x16x16x3_0_1_2_3 : (⟨S10000x16x1x3, .f32⟩ : BufTy).Contents (Elt F) → (⟨S10000x16x16x3, .f32⟩ : BufTy).Contents (Elt F)),
    unary main_v10 main_v12 (broadcastInDim S10000x16x16x3 ![0, 1, 2, 3] bcast_S10000x1x16x3_S10000x16x16x3_0_1_2_3 : (⟨S10000x1x16x3, .f32⟩ : BufTy).Contents (Elt F) → (⟨S10000x16x16x3, .f32⟩ : BufTy).Contents (Elt F)),
    binary main_v11 main_v12 main_v13 (subf : (⟨S10000x16x16x3, .f32⟩ : BufTy).Contents (Elt F) → (⟨S10000x16x16x3, .f32⟩ : BufTy).Contents (Elt F) → (⟨S10000x16x16x3, .f32⟩ : BufTy).Contents (Elt F)),
    binary main_v13 main_v13 main_v14 (mulf : (⟨S10000x16x16x3, .f32⟩ : BufTy).Contents (Elt F) → (⟨S10000x16x16x3, .f32⟩ : BufTy).Contents (Elt F) → (⟨S10000x16x16x3, .f32⟩ : BufTy).Contents (Elt F)),
    nullary main_cst (constant S_ .f32 0x00000000#32),
    binary main_v14 main_cst main_v15 ((fun x v => Host.reduceAdd x v reducesTo_S10000x16x16x3_S10000x16x16_d3 h_S_) : (⟨S10000x16x16x3, .f32⟩ : BufTy).Contents (Elt F) → (⟨S_, .f32⟩ : BufTy).Contents (Elt F) → (⟨S10000x16x16, .f32⟩ : BufTy).Contents (Elt F)),
    unary main_v15 main_v16 (Host.sqrt : (⟨S10000x16x16, .f32⟩ : BufTy).Contents (Elt F) → (⟨S10000x16x16, .f32⟩ : BufTy).Contents (Elt F)),
    unary main_v0 main_v17 (broadcastInDim S10000x16x16 ![0, 1, 2] bcast_S10000x16x1_S10000x16x16_0_1_2 : (⟨S10000x16x1, .f32⟩ : BufTy).Contents (Elt F) → (⟨S10000x16x16, .f32⟩ : BufTy).Contents (Elt F)),
    unary main_v1 main_v18 (broadcastInDim S10000x16x16 ![0, 1, 2] bcast_S10000x1x16_S10000x16x16_0_1_2 : (⟨S10000x1x16, .f32⟩ : BufTy).Contents (Elt F) → (⟨S10000x16x16, .f32⟩ : BufTy).Contents (Elt F)),
    binary main_v17 main_v18 main_v19 (maximumf : (⟨S10000x16x16, .f32⟩ : BufTy).Contents (Elt F) → (⟨S10000x16x16, .f32⟩ : BufTy).Contents (Elt F) → (⟨S10000x16x16, .f32⟩ : BufTy).Contents (Elt F)),
    unary main_v0 main_v20 (broadcastInDim S10000x16x16 ![0, 1, 2] bcast_S10000x16x1_S10000x16x16_0_1_2 : (⟨S10000x16x1, .f32⟩ : BufTy).Contents (Elt F) → (⟨S10000x16x16, .f32⟩ : BufTy).Contents (Elt F)),
    unary main_v1 main_v21 (broadcastInDim S10000x16x16 ![0, 1, 2] bcast_S10000x1x16_S10000x16x16_0_1_2 : (⟨S10000x1x16, .f32⟩ : BufTy).Contents (Elt F) → (⟨S10000x16x16, .f32⟩ : BufTy).Contents (Elt F)),
    binary main_v20 main_v21 main_v22 (minimumf : (⟨S10000x16x16, .f32⟩ : BufTy).Contents (Elt F) → (⟨S10000x16x16, .f32⟩ : BufTy).Contents (Elt F) → (⟨S10000x16x16, .f32⟩ : BufTy).Contents (Elt F)),
    binary main_v16 main_v19 main_v23 (subf : (⟨S10000x16x16, .f32⟩ : BufTy).Contents (Elt F) → (⟨S10000x16x16, .f32⟩ : BufTy).Contents (Elt F) → (⟨S10000x16x16, .f32⟩ : BufTy).Contents (Elt F)),
    binary main_v23 main_v22 main_v24 (addf : (⟨S10000x16x16, .f32⟩ : BufTy).Contents (Elt F) → (⟨S10000x16x16, .f32⟩ : BufTy).Contents (Elt F) → (⟨S10000x16x16, .f32⟩ : BufTy).Contents (Elt F)),
    nullary main_cst_3 (constant S_ .f32 0x40000000#32),
    unary main_cst_3 main_v25 (broadcastInDim S10000x16x16 ![] bcast_S_S10000x16x16 : (⟨S_, .f32⟩ : BufTy).Contents (Elt F) → (⟨S10000x16x16, .f32⟩ : BufTy).Contents (Elt F)),
    binary main_v25 main_v22 main_v26 (mulf : (⟨S10000x16x16, .f32⟩ : BufTy).Contents (Elt F) → (⟨S10000x16x16, .f32⟩ : BufTy).Contents (Elt F) → (⟨S10000x16x16, .f32⟩ : BufTy).Contents (Elt F)),
    binary main_v24 main_v26 main_v27 (Host.divf : (⟨S10000x16x16, .f32⟩ : BufTy).Contents (Elt F) → (⟨S10000x16x16, .f32⟩ : BufTy).Contents (Elt F) → (⟨S10000x16x16, .f32⟩ : BufTy).Contents (Elt F)),
    nullary main_c_4 (constantI S_ 32 0#32),
    unary main_c_4 main_v28 (broadcastInDim S200000 ![] bcast_S_S200000 : (⟨S_, .i32⟩ : BufTy).Contents (Elt F) → (⟨S200000, .i32⟩ : BufTy).Contents (Elt F)),
    binary main_arg3 main_v28 main_v29 (cmpi .slt : (⟨S200000, .i32⟩ : BufTy).Contents (Elt F) → (⟨S200000, .i32⟩ : BufTy).Contents (Elt F) → (⟨S200000, .i1⟩ : BufTy).Contents (Elt F)),
    nullary main_c_5 (constantI S_ 32 10#32),
    unary main_c_5 main_v30 (broadcastInDim S200000 ![] bcast_S_S200000 : (⟨S_, .i32⟩ : BufTy).Contents (Elt F) → (⟨S200000, .i32⟩ : BufTy).Contents (Elt F)),
    binary main_arg3 main_v30 main_v31 (addi : (⟨S200000, .i32⟩ : BufTy).Contents (Elt F) → (⟨S200000, .i32⟩ : BufTy).Contents (Elt F) → (⟨S200000, .i32⟩ : BufTy).Contents (Elt F)),
    ternary main_v29 main_v31 main_arg3 main_v32 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v32 main_v33 (broadcastInDim S200000x1 ![0] bcast_S200000_S200000x1_0 : (⟨S200000, .i32⟩ : BufTy).Contents (Elt F) → (⟨S200000x1, .i32⟩ : BufTy).Contents (Elt F)),
    binary main_arg1 main_v33 main_v34 ((fun x i => Host.gather gather_S10x32_S200000x1_S200000x32_1_0_n_n_0_1_132 x i) : (⟨S10x32, .f32⟩ : BufTy).Contents (Elt F) → (⟨S200000x1, .i32⟩ : BufTy).Contents (Elt F) → (⟨S200000x32, .f32⟩ : BufTy).Contents (Elt F)),
    nullary main_c_6 (constantI S_ 32 0#32),
    unary main_c_6 main_v35 (broadcastInDim S10000 ![] bcast_S_S10000 : (⟨S_, .i32⟩ : BufTy).Contents (Elt F) → (⟨S10000, .i32⟩ : BufTy).Contents (Elt F)),
    binary main_arg4 main_v35 main_v36 (cmpi .slt : (⟨S10000, .i32⟩ : BufTy).Contents (Elt F) → (⟨S10000, .i32⟩ : BufTy).Contents (Elt F) → (⟨S10000, .i1⟩ : BufTy).Contents (Elt F)),
    nullary main_c_7 (constantI S_ 32 200000#32),
    unary main_c_7 main_v37 (broadcastInDim S10000 ![] bcast_S_S10000 : (⟨S_, .i32⟩ : BufTy).Contents (Elt F) → (⟨S10000, .i32⟩ : BufTy).Contents (Elt F)),
    binary main_arg4 main_v37 main_v38 (addi : (⟨S10000, .i32⟩ : BufTy).Contents (Elt F) → (⟨S10000, .i32⟩ : BufTy).Contents (Elt F) → (⟨S10000, .i32⟩ : BufTy).Contents (Elt F)),
    ternary main_v36 main_v38 main_arg4 main_v39 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    unary main_v39 main_v40 (broadcastInDim S10000x1 ![0] bcast_S10000_S10000x1_0 : (⟨S10000, .i32⟩ : BufTy).Contents (Elt F) → (⟨S10000x1, .i32⟩ : BufTy).Contents (Elt F)),
    binary main_v34 main_v40 main_v41 ((fun x i => Host.gather gather_S200000x32_S10000x1_S10000x32_1_0_n_n_0_1_132 x i) : (⟨S200000x32, .f32⟩ : BufTy).Contents (Elt F) → (⟨S10000x1, .i32⟩ : BufTy).Contents (Elt F) → (⟨S10000x32, .f32⟩ : BufTy).Contents (Elt F)),
    nullary main_c_8 (constantI S_ 32 0#32),
    unary main_c_8 main_v42 (broadcastInDim S10000x16 ![] bcast_S_S10000x16 : (⟨S_, .i32⟩ : BufTy).Contents (Elt F) → (⟨S10000x16, .i32⟩ : BufTy).Contents (Elt F)),
    binary main_arg5 main_v42 main_v43 (cmpi .slt : (⟨S10000x16, .i32⟩ : BufTy).Contents (Elt F) → (⟨S10000x16, .i32⟩ : BufTy).Contents (Elt F) → (⟨S10000x16, .i1⟩ : BufTy).Contents (Elt F)),
    nullary main_c_9 (constantI S_ 32 200000#32),
    unary main_c_9 main_v44 (broadcastInDim S10000x16 ![] bcast_S_S10000x16 : (⟨S_, .i32⟩ : BufTy).Contents (Elt F) → (⟨S10000x16, .i32⟩ : BufTy).Contents (Elt F)),
    binary main_arg5 main_v44 main_v45 (addi : (⟨S10000x16, .i32⟩ : BufTy).Contents (Elt F) → (⟨S10000x16, .i32⟩ : BufTy).Contents (Elt F) → (⟨S10000x16, .i32⟩ : BufTy).Contents (Elt F)),
    ternary main_v43 main_v45 main_arg5 main_v46 (select : (⟨S10000x16, .i1⟩ : BufTy).Contents (Elt F) → (⟨S10000x16, .i32⟩ : BufTy).Contents (Elt F) → (⟨S10000x16, .i32⟩ : BufTy).Contents (Elt F) → (⟨S10000x16, .i32⟩ : BufTy).Contents (Elt F)),
    unary main_v46 main_v47 (broadcastInDim S10000x16x1 ![0, 1] bcast_S10000x16_S10000x16x1_0_1 : (⟨S10000x16, .i32⟩ : BufTy).Contents (Elt F) → (⟨S10000x16x1, .i32⟩ : BufTy).Contents (Elt F)),
    binary main_v34 main_v47 main_v48 ((fun x i => Host.gather gather_S200000x32_S10000x16x1_S10000x16x32_2_0_n_n_0_2_132 x i) : (⟨S200000x32, .f32⟩ : BufTy).Contents (Elt F) → (⟨S10000x16x1, .i32⟩ : BufTy).Contents (Elt F) → (⟨S10000x16x32, .f32⟩ : BufTy).Contents (Elt F)),
    unary main_v0 main_v49 (broadcastInDim S10000x16x1x1 ![0, 1, 2] bcast_S10000x16x1_S10000x16x1x1_0_1_2 : (⟨S10000x16x1, .f32⟩ : BufTy).Contents (Elt F) → (⟨S10000x16x1x1, .f32⟩ : BufTy).Contents (Elt F)),
    unary main_v49 main_v50 (broadcastInDim S10000x16x16x1 ![0, 1, 2, 3] bcast_S10000x16x1x1_S10000x16x16x1_0_1_2_3 : (⟨S10000x16x1x1, .f32⟩ : BufTy).Contents (Elt F) → (⟨S10000x16x16x1, .f32⟩ : BufTy).Contents (Elt F)),
    unary main_v1 main_v51 (broadcastInDim S10000x1x16x1 ![0, 1, 2] bcast_S10000x1x16_S10000x1x16x1_0_1_2 : (⟨S10000x1x16, .f32⟩ : BufTy).Contents (Elt F) → (⟨S10000x1x16x1, .f32⟩ : BufTy).Contents (Elt F)),
    unary main_v51 main_v52 (broadcastInDim S10000x16x16x1 ![0, 1, 2, 3] bcast_S10000x1x16x1_S10000x16x16x1_0_1_2_3 : (⟨S10000x1x16x1, .f32⟩ : BufTy).Contents (Elt F) → (⟨S10000x16x16x1, .f32⟩ : BufTy).Contents (Elt F)),
    unary main_v27 main_v53 (broadcastInDim S10000x16x16x1 ![0, 1, 2] bcast_S10000x16x16_S10000x16x16x1_0_1_2 : (⟨S10000x16x16, .f32⟩ : BufTy).Contents (Elt F) → (⟨S10000x16x16x1, .f32⟩ : BufTy).Contents (Elt F)),
    unary main_v41 main_v54 (broadcastInDim S10000x1x1x32 ![0, 3] bcast_S10000x32_S10000x1x1x32_0_3 : (⟨S10000x32, .f32⟩ : BufTy).Contents (Elt F) → (⟨S10000x1x1x32, .f32⟩ : BufTy).Contents (Elt F)),
    unary main_v54 main_v55 (broadcastInDim S10000x16x16x32 ![0, 1, 2, 3] bcast_S10000x1x1x32_S10000x16x16x32_0_1_2_3 : (⟨S10000x1x1x32, .f32⟩ : BufTy).Contents (Elt F) → (⟨S10000x16x16x32, .f32⟩ : BufTy).Contents (Elt F)),
    unary main_v48 main_v56 (broadcastInDim S10000x16x1x32 ![0, 1, 3] bcast_S10000x16x32_S10000x16x1x32_0_1_3 : (⟨S10000x16x32, .f32⟩ : BufTy).Contents (Elt F) → (⟨S10000x16x1x32, .f32⟩ : BufTy).Contents (Elt F)),
    unary main_v56 main_v57 (broadcastInDim S10000x16x16x32 ![0, 1, 2, 3] bcast_S10000x16x1x32_S10000x16x16x32_0_1_2_3 : (⟨S10000x16x1x32, .f32⟩ : BufTy).Contents (Elt F) → (⟨S10000x16x16x32, .f32⟩ : BufTy).Contents (Elt F)),
    unary main_v50 main_v58 (broadcastInDim S10000x16x16x32 ![0, 1, 2, 3] bcast_S10000x16x16x1_S10000x16x16x32_0_1_2_3 : (⟨S10000x16x16x1, .f32⟩ : BufTy).Contents (Elt F) → (⟨S10000x16x16x32, .f32⟩ : BufTy).Contents (Elt F)),
    binary main_v57 main_v58 main_v59 (Host.divf : (⟨S10000x16x16x32, .f32⟩ : BufTy).Contents (Elt F) → (⟨S10000x16x16x32, .f32⟩ : BufTy).Contents (Elt F) → (⟨S10000x16x16x32, .f32⟩ : BufTy).Contents (Elt F)),
    unary main_v48 main_v60 (broadcastInDim S10000x1x16x32 ![0, 2, 3] bcast_S10000x16x32_S10000x1x16x32_0_2_3 : (⟨S10000x16x32, .f32⟩ : BufTy).Contents (Elt F) → (⟨S10000x1x16x32, .f32⟩ : BufTy).Contents (Elt F)),
    unary main_v60 main_v61 (broadcastInDim S10000x16x16x32 ![0, 1, 2, 3] bcast_S10000x1x16x32_S10000x16x16x32_0_1_2_3 : (⟨S10000x1x16x32, .f32⟩ : BufTy).Contents (Elt F) → (⟨S10000x16x16x32, .f32⟩ : BufTy).Contents (Elt F)),
    unary main_v52 main_v62 (broadcastInDim S10000x16x16x32 ![0, 1, 2, 3] bcast_S10000x16x16x1_S10000x16x16x32_0_1_2_3 : (⟨S10000x16x16x1, .f32⟩ : BufTy).Contents (Elt F) → (⟨S10000x16x16x32, .f32⟩ : BufTy).Contents (Elt F)),
    binary main_v61 main_v62 main_v63 (Host.divf : (⟨S10000x16x16x32, .f32⟩ : BufTy).Contents (Elt F) → (⟨S10000x16x16x32, .f32⟩ : BufTy).Contents (Elt F) → (⟨S10000x16x16x32, .f32⟩ : BufTy).Contents (Elt F)),
    nary ![main_v50, main_v52, main_v53, main_v55, main_v59, main_v63] main_v64 (fun u => concatenate S10000x16x16x99 3 [⟨S10000x16x16x1, u 0⟩, ⟨S10000x16x16x1, u 1⟩, ⟨S10000x16x16x1, u 2⟩, ⟨S10000x16x16x32, u 3⟩, ⟨S10000x16x16x32, u 4⟩, ⟨S10000x16x16x32, u 5⟩] concatenates_S10000x16x16x1_S10000x16x16x1_S10000x16x16x1_S10000x16x16x32_S10000x16x16x32_S10000x16x16x32_S10000x16x16x99_d3),
    reshape main_v64 main_v65 rfl shapeCasts_S10000x16x16x99_S10000x256x99,
    nullary main_c_10 (constantI S_ 32 256#32),
    unary main_c_10 main_v66 (broadcastInDim S240 ![] bcast_S_S240 : (⟨S_, .i32⟩ : BufTy).Contents (Elt F) → (⟨S240, .i32⟩ : BufTy).Contents (Elt F)),
    binary main_c main_v66 main_v67 (addi : (⟨S240, .i32⟩ : BufTy).Contents (Elt F) → (⟨S240, .i32⟩ : BufTy).Contents (Elt F) → (⟨S240, .i32⟩ : BufTy).Contents (Elt F)),
    ternary main_c_0 main_v67 main_c main_v68 (select : (⟨S240, .i1⟩ : BufTy).Contents (Elt F) → (⟨S240, .i32⟩ : BufTy).Contents (Elt F) → (⟨S240, .i32⟩ : BufTy).Contents (Elt F) → (⟨S240, .i32⟩ : BufTy).Contents (Elt F)),
    unary main_v68 main_v69 (broadcastInDim S240x1 ![0] bcast_S240_S240x1_0 : (⟨S240, .i32⟩ : BufTy).Contents (Elt F) → (⟨S240x1, .i32⟩ : BufTy).Contents (Elt F)),
    binary main_v65 main_v69 main_v70 ((fun x i => Host.gather gather_S10000x256x99_S240x1_S10000x240x99_02_1_n_n_1_1_10000199 x i) : (⟨S10000x256x99, .f32⟩ : BufTy).Contents (Elt F) → (⟨S240x1, .i32⟩ : BufTy).Contents (Elt F) → (⟨S10000x240x99, .f32⟩ : BufTy).Contents (Elt F)) ]

/-- What @main leaves in buffer `b` of core `c`: the operations' composed term of the memory it starts from. -/
abbrev out (m : (ℓ : Loc nD τ sig) → Buf (Elt F) ℓ) (c : Dev nD) (b : Ref sig .tc) : Buf (Elt F) ((c : Thread nD τ).loc b) :=
  StableHlo.after ops (fun b => m (c, b)) b

end Cert.ReferenceIdeal.Hand

end
-- ==== Proof.RefRun.lean ====
/-
  The reference program runs: every weakly fair execution of its @main ends, with the result buffer at what the list of
  its host operations leaves there and the six arguments as launched.
-/
import proofs.«408688_j81827716923455_3_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- both sides are one chain of 84 operation steps once sequencing is reassociated
set_option maxHeartbeats 8000000 in
set_option maxRecDepth 8192 in
/-- @main is the straight line of `ops`: its two windows run one after the other, each a chain of operation steps
    that binds nothing, and sequencing in the free monad is associative by computation. -/
theorem main_eq (c : Dev nD) : main (F := F) c = seq ops := rfl

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., unary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., unary_bufs_sub .., unary_bufs_sub .., binary_bufs_sub ..,
    binary_bufs_sub .., nullary_bufs_sub .., binary_bufs_sub .., unary_bufs_sub .., unary_bufs_sub .., unary_bufs_sub ..,
    binary_bufs_sub .., unary_bufs_sub .., unary_bufs_sub .., binary_bufs_sub .., binary_bufs_sub .., binary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., unary_bufs_sub .., unary_bufs_sub .., unary_bufs_sub ..,
    unary_bufs_sub .., unary_bufs_sub .., unary_bufs_sub .., unary_bufs_sub .., unary_bufs_sub .., binary_bufs_sub ..,
    unary_bufs_sub .., unary_bufs_sub .., unary_bufs_sub .., binary_bufs_sub .., nary_bufs_sub .., reshape_bufs_sub ..,
    nullary_bufs_sub .., unary_bufs_sub .., binary_bufs_sub .., ternary_bufs_sub .., unary_bufs_sub .., binary_bufs_sub ..⟩

/-- No operation writes an argument: each of the 84 writes one result reference, and none of those is an argument,
    so the fold leaves an argument's buffer as it found it. -/
theorem arg_unwritten (V : Valuation τ sig (Elt F)) {r : Ref sig .tc}
    (hr : r ∈ [main_arg0, main_arg1, main_arg2, main_arg3, main_arg4, main_arg5]) :
    after (ops (F := F)) V (Proc.devRef .tc r) = V (Proc.devRef .tc r) :=
  after_of_forall_not_mem (b := Proc.devRef .tc r) _ _ (List.forall_iff_forall_mem.mp (by
    simp only [List.Forall, nullary_writes, unary_writes, binary_writes, ternary_writes, nary_writes, reshape_writes,
      Finset.mem_singleton]
    repeat' apply And.intro
    all_goals exact devRef_ne_of_ne (by rintro rfl; exact absurd hr (by decide))))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = out m c main_v70
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  -- every TensorCore buffer ends at the fold of `ops` over its launch contents: the result buffer's is `out` by
  -- definition, and an argument's is what was launched, no operation writing it
  (θ_run defs _ _).mono (fun _ h c => ⟨h c main_v70,
      (h c main_arg0).trans (arg_unwritten _ (by decide)),
      (h c main_arg1).trans (arg_unwritten _ (by decide)),
      (h c main_arg2).trans (arg_unwritten _ (by decide)),
      (h c main_arg3).trans (arg_unwritten _ (by decide)),
      (h c main_arg4).trans (arg_unwritten _ (by decide)),
      (h c main_arg5).trans (arg_unwritten _ (by decide))⟩)
    (run_seq scopedRefs_eq scopedSems_eq defs main (fun _ => ops) main_eq (fun _ => ops_sub) m ρ)

end Cert.ReferenceIdeal.Hand

end
-- ==== Proof.RefSelect.lean ====
/-
  The reference's last step: of the 256 ordered pairs (j, k) of a centre's neighbours it keeps the 240 with j ≠ k, in
  row-major order. Entry (c, p, f) of its result is entry (c, j, k, f) of the table of all pairs, with j = p / 15 and k the
  (p % 15)-th neighbour once j is left out.
-/
import proofs.«408688_j81827716923455_3_alg».proof.Proof.RefOps
import proofs.«408688_j81827716923455_3_alg».proof.Proof.Spec
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- The literal table of positions: entry p, read signed and kept inside [0, 255], is the flat position 16 j + k of the
    pair (j, k) with j = p / 15 and k the (p % 15)-th neighbour once j is left out. -/
theorem pairTable_clamped : ∀ p : Fin 240,
    min (lit0 p).toInt.toNat 255 = 16 * (p.val / 15) + Cert.Angle.skip (p.val / 15) (p.val % 15) := by
  decide +kernel

/-- The dimension numbers of the last gather: axes 0 and 2 of the operand are carried whole, axis 1 is chosen by the table. -/
abbrev pairDims := gather_S10000x256x99_S240x1_S10000x240x99_02_1_n_n_1_1_10000199

/-- That gather read at (c, p, f): the operand at (c, q, f), where q is the table's entry for p, read signed and kept
    inside [0, 255]. On axes 0 and 2 the start is 0 and the offset is the result's own coordinate; on axis 1 the slice has
    one element, so the offset is 0 and the start is the clamped entry. -/
theorem gather_pairs_apply {α : Type} (X : S10000x256x99.Idx → α) (T : IVec S240x1 32) (i : S10000x240x99.Idx) (q : Fin 256)
    (hq : min (T (ix2 (⟨(i 1).val, (i 1).isLt⟩ : Fin 240) (⟨0, Nat.one_pos⟩ : Fin 1))).toInt.toNat 255 = q.val) :
    Host.gather pairDims X T i
      = X (ix3 (⟨(i 0).val, (i 0).isLt⟩ : Fin 10000) q (⟨(i 2).val, (i 2).isLt⟩ : Fin 99)) := by
  unfold Host.gather
  congr 1
  funext a
  refine Fin.ext ?_
  show pairDims.start i T a + pairDims.batchCoord i a + pairDims.offCoord i a = _
  rw [GatherDims.batchCoord_eq_zero _ _ _ List.not_mem_nil, Nat.add_zero]
  have e0 : pairDims.start i T (0 : Fin 3) + pairDims.offCoord i (0 : Fin 3) = (i 0).val := by
    have h0 : pairDims.start i T (0 : Fin 3) = 0 := by unfold GatherDims.start; rw [dif_neg (by decide)]
    rw [h0, Nat.zero_add]
    unfold GatherDims.offCoord
    rw [dif_pos (by decide)]
    rfl
  have e1 : pairDims.start i T (1 : Fin 3) + pairDims.offCoord i (1 : Fin 3)
      = min (T (ix2 (⟨(i 1).val, (i 1).isLt⟩ : Fin 240) (⟨0, Nat.one_pos⟩ : Fin 1))).toInt.toNat 255 := by
    rw [GatherDims.offCoord_eq_zero _ _ _ (by decide), Nat.add_zero]
    unfold GatherDims.start
    rw [dif_pos (by decide)]
    have hsi : pairDims.siIdx i ⟨List.idxOf (1 : Fin 3) pairDims.startIndexMap, List.idxOf_lt_length_iff.2 (by decide)⟩
        = ix2 (⟨(i 1).val, (i 1).isLt⟩ : Fin 240) (⟨0, Nat.one_pos⟩ : Fin 1) := by
      funext b; refine Fin.ext ?_
      match b with
      | ⟨0, _⟩ => rfl
      | ⟨1, _⟩ => rfl
    rw [hsi]
    rfl
  have e2 : pairDims.start i T (2 : Fin 3) + pairDims.offCoord i (2 : Fin 3) = (i 2).val := by
    have h0 : pairDims.start i T (2 : Fin 3) = 0 := by unfold GatherDims.start; rw [dif_neg (by decide)]
    rw [h0, Nat.zero_add]
    unfold GatherDims.offCoord
    rw [dif_pos (by decide)]
    rfl
  match a with
  | ⟨0, _⟩ => exact e0
  | ⟨1, _⟩ => exact e1.trans hq
  | ⟨2, _⟩ => exact e2

/-- The table of positions as the gather reads it, at p: the mask of the choice is all false, so the choice keeps the
    literal table, and the added unit axis reads it at p. -/
theorem pairTable_apply (p : Fin 240) :
    broadcastInDim S240x1 ![0] bcast_S240_S240x1_0
        (select (constantI S240 1 0#1)
          (addi (fun i => lit0 (S240.rowMajor i)) (broadcastInDim S240 ![] bcast_S_S240 (constantI S_ 32 256#32)))
          (fun i => lit0 (S240.rowMajor i)))
        (ix2 p (⟨0, Nat.one_pos⟩ : Fin 1))
      = lit0 p := by
  rw [broadcastInDim_apply _ _ _ _ (ix1 p) (by intro a; match a with | ⟨0, _⟩ => rfl)]
  rw [select_apply]
  show Scalar.select 0#1 _ _ = _
  rw [select_zero]
  congr 1
  exact Fin.ext (Shape.rowMajor_val_one _)

/-- The literal table is written first and by no later operation: it is what the table's buffer holds once the table of all
    pairs is built. -/
theorem pairTable_held (m : (ℓ : Loc nD τ sig) → Buf (Elt F) ℓ) (c : Dev nD) :
    StableHlo.after (List.take 77 (ops (F := F))) (fun b => m (c, b)) (Proc.tc.devRef main_c)
      = (fun i => lit0 (S240.rowMajor i) : (⟨S240, .i32⟩ : BufTy).Contents (Elt F)) := by
  simp only [List.take_succ_cons, List.take_zero]
  after_results_simp
  rfl

/-- Likewise the all-false mask, written second. -/
theorem pairMask_held (m : (ℓ : Loc nD τ sig) → Buf (Elt F) ℓ) (c : Dev nD) :
    StableHlo.after (List.take 77 (ops (F := F))) (fun b => m (c, b)) (Proc.tc.devRef main_c_0)
      = (constantI S240 1 0#1 : (⟨S240, .i1⟩ : BufTy).Contents (Elt F)) := by
  simp only [List.take_succ_cons, List.take_zero]
  after_results_simp

/-- The 84 operations are the first 77, which end with the table of all pairs, then the last seven. The last seven write
    neither that table nor the literal table nor the mask; the result is the gather, at the chosen positions, of the table
    of all pairs laid out with its two neighbour axes merged. Row-major, position 16 j + k of the merged axis is (j, k). -/
theorem select_eq (m : (ℓ : Loc nD τ sig) → Buf (Elt F) ℓ) (c : Dev nD) (i : S10000x240x99.Idx) :
    out m c main_v70 i
      = out m c main_v64 (ix4 (⟨(i 0).val, (i 0).isLt⟩ : Fin 10000) (Cert.Angle.fstOf (i 1).val (i 1).isLt)
          (Cert.Angle.sndOf (i 1).val (i 1).isLt) (⟨(i 2).val, (i 2).isLt⟩ : Fin 99)) := by
  have hsplit : (ops (F := F)) = ops.take 77 ++ ops.drop 77 := (List.take_append_drop 77 _).symm
  have hc := pairTable_held m c
  have hc0 := pairMask_held m c
  unfold out
  rw [hsplit, StableHlo.after_append]
  generalize StableHlo.after (List.take 77 (ops (F := F))) (fun b => m (c, b)) = W at hc hc0 ⊢
  simp only [List.drop_succ_cons, List.drop_zero]
  after_results
  rw [hc, hc0]
  have hq : 16 * ((i 1).val / 15) + Cert.Angle.skip ((i 1).val / 15) ((i 1).val % 15) < 256 := by
    have h2 := Cert.Angle.skip_lt (a := (i 1).val / 15) (Nat.mod_lt (i 1).val (by decide : 0 < 15))
    have h3 : (i 1).val < 240 := (i 1).isLt
    omega
  refine (gather_pairs_apply _ _ i ⟨16 * ((i 1).val / 15) + Cert.Angle.skip ((i 1).val / 15) ((i 1).val % 15), hq⟩ ?_).trans ?_
  · rw [pairTable_apply]
    exact pairTable_clamped ⟨(i 1).val, (i 1).isLt⟩
  show shapeCast S10000x256x99 (W (Proc.tc.devRef main_v64)) shapeCasts_S10000x16x16x99_S10000x256x99 _ = _
  refine shapeCast_apply (s := S10000x16x16x99) (t := S10000x256x99) _ _ _ _ ?_
  refine (Shape.rowMajor_val_four _).trans (Eq.trans ?_ (Shape.rowMajor_val_three _).symm)
  show (((i 0).val * 16 + (i 1).val / 15) * 16 + Cert.Angle.skip ((i 1).val / 15) ((i 1).val % 15)) * 99 + (i 2).val
    = ((i 0).val * 256 + (16 * ((i 1).val / 15) + Cert.Angle.skip ((i 1).val / 15) ((i 1).val % 15))) * 99 + (i 2).val
  omega

end Cert.ReferenceIdeal.Hand

end
-- ==== Proof.RefGather.lean ====
/-
  The reference's gathers: the neighbours' coordinates, and the two-stage embedding lookup (every atom's embedding row by
  its type, then the rows of the centres and of their neighbours). With every table entry in range each reads the row its
  entry names.
-/
import proofs.«408688_j81827716923455_3_alg».proof.Proof.RefOps
import proofs.«408688_j81827716923455_3_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

/-! ## Whole rows of a rank-2 array named by a table with a trailing unit axis

Result element (…, l) reads the array at (row, l): the row is the table's entry at (…, 0), read signed and brought into
[0, N − 1]; the column is the result's last coordinate. On the array's row axis (collapsed, the one the start index
names) the batching and offset parts are 0; on its column axis (kept whole) the start is 0 and the offset is the
result's last coordinate. -/

section Rows
variable {α : Type}

/-- Dimension numbers of a whole-row gather: rows of an [N, L] array named by an [R, C, 1] table, into [R, C, L]. -/
abbrev rowDims3 (N L R C : Nat) (wf : GatherDims.WF ⟨2, ![N, L]⟩ ⟨3, ![R, C, 1]⟩ ⟨3, ![R, C, L]⟩ [2] [0] [] [0] [] 2 ![1, L]) :
    GatherDims ⟨2, ![N, L]⟩ ⟨3, ![R, C, 1]⟩ ⟨3, ![R, C, L]⟩ where
  offsetDims := [2]
  collapsedSliceDims := [0]
  operandBatchingDims := []
  startIndicesBatchingDims := []
  startIndexMap := [0]
  indexVectorDim := 2
  sliceSizes := ![1, L]
  wf := wf

/-- The gather of whole rows read at (r, c, l): the array at (the row entry (r, c, 0) names, l). -/
theorem gather_rows3 {N L R C : Nat} (hN : 0 < N)
    (wf : GatherDims.WF ⟨2, ![N, L]⟩ ⟨3, ![R, C, 1]⟩ ⟨3, ![R, C, L]⟩ [2] [0] [] [0] [] 2 ![1, L])
    (x : (⟨2, ![N, L]⟩ : Shape).Idx → α) (idx : IVec ⟨3, ![R, C, 1]⟩ 32) (r : Fin R) (c : Fin C) (l : Fin L) :
    Host.gather (rowDims3 N L R C wf) x idx (ix3 r c l)
      = x (ix2 (Cert.Angle.rowOf N hN (idx (ix3 r c (0 : Fin 1)))) l) := by
  unfold Host.gather
  congr 1
  funext a
  refine Fin.ext ?_
  match a with
  | ⟨0, _⟩ =>
    show (rowDims3 N L R C wf).start (ix3 r c l) idx 0 + (rowDims3 N L R C wf).batchCoord (ix3 r c l) 0 + (rowDims3 N L R C wf).offCoord (ix3 r c l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims3 N L R C wf).startIndexMap from List.mem_singleton.mpr rfl)]
    have hsi : (rowDims3 N L R C wf).siIdx (ix3 r c l) ⟨List.idxOf (0 : Fin 2) (rowDims3 N L R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims3 N L R C wf).start (ix3 r c l) idx 1 + (rowDims3 N L R C wf).batchCoord (ix3 r c l) 1 + (rowDims3 N L R C wf).offCoord (ix3 r c l) 1 = _
    rw [GatherDims.batchCoord_eq_zero _ _ _ List.not_mem_nil]
    unfold GatherDims.start
    rw [dif_neg (show (1 : Fin 2) ∉ (rowDims3 N L R C wf).startIndexMap from (by decide : (1 : Fin 2) ∉ ([0] : List (Fin 2))))]
    simp only [Nat.add_zero, Nat.zero_add]
    unfold GatherDims.offCoord
    rw [dif_pos (show (1 : Fin 2) ∈ (rowDims3 N L R C wf).sKept from (GatherDims.mem_sKept _ _).mpr ⟨(by decide : (1 : Fin 2) ∉ ([0] : List (Fin 2))), List.not_mem_nil⟩)]
    rfl

/-- Dimension numbers of a whole-row gather: rows of an [N, L] array named by an [R, 1] table, into [R, L]. -/
abbrev rowDims2 (N L R : Nat) (wf : GatherDims.WF ⟨2, ![N, L]⟩ ⟨2, ![R, 1]⟩ ⟨2, ![R, L]⟩ [1] [0] [] [0] [] 1 ![1, L]) :
    GatherDims ⟨2, ![N, L]⟩ ⟨2, ![R, 1]⟩ ⟨2, ![R, L]⟩ where
  offsetDims := [1]
  collapsedSliceDims := [0]
  operandBatchingDims := []
  startIndicesBatchingDims := []
  startIndexMap := [0]
  indexVectorDim := 1
  sliceSizes := ![1, L]
  wf := wf

/-- The gather of whole rows read at (r, l): the array at (the row entry (r, 0) names, l). -/
theorem gather_rows2 {N L R : Nat} (hN : 0 < N)
    (wf : GatherDims.WF ⟨2, ![N, L]⟩ ⟨2, ![R, 1]⟩ ⟨2, ![R, L]⟩ [1] [0] [] [0] [] 1 ![1, L])
    (x : (⟨2, ![N, L]⟩ : Shape).Idx → α) (idx : IVec ⟨2, ![R, 1]⟩ 32) (r : Fin R) (l : Fin L) :
    Host.gather (rowDims2 N L R wf) x idx (ix2 r l)
      = x (ix2 (Cert.Angle.rowOf N hN (idx (ix2 r (0 : Fin 1)))) l) := by
  unfold Host.gather
  congr 1
  funext a
  refine Fin.ext ?_
  match a with
  | ⟨0, _⟩ =>
    show (rowDims2 N L R wf).start (ix2 r l) idx 0 + (rowDims2 N L R wf).batchCoord (ix2 r l) 0 + (rowDims2 N L R wf).offCoord (ix2 r l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 N L R wf).startIndexMap from List.mem_singleton.mpr rfl)]
    have hsi : (rowDims2 N L R wf).siIdx (ix2 r l) ⟨List.idxOf (0 : Fin 2) (rowDims2 N L R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims2 N L R wf).start (ix2 r l) idx 1 + (rowDims2 N L R wf).batchCoord (ix2 r l) 1 + (rowDims2 N L R wf).offCoord (ix2 r l) 1 = _
    rw [GatherDims.batchCoord_eq_zero _ _ _ List.not_mem_nil]
    unfold GatherDims.start
    rw [dif_neg (show (1 : Fin 2) ∉ (rowDims2 N L R wf).startIndexMap from (by decide : (1 : Fin 2) ∉ ([0] : List (Fin 2))))]
    simp only [Nat.add_zero, Nat.zero_add]
    unfold GatherDims.offCoord
    rw [dif_pos (show (1 : Fin 2) ∈ (rowDims2 N L R wf).sKept from (GatherDims.mem_sKept _ _).mpr ⟨(by decide : (1 : Fin 2) ∉ ([0] : List (Fin 2))), List.not_mem_nil⟩)]
    rfl

/-- A table given a trailing unit axis reads, at (r, c, 0), the table at (r, c). -/
theorem bcast_unit3 {R C : Nat} (h : (⟨2, ![R, C]⟩ : Shape).BroadcastsInDim ⟨3, ![R, C, 1]⟩ ![0, 1])
    (v : (⟨2, ![R, C]⟩ : Shape).Idx → α) (r : Fin R) (c : Fin C) :
    broadcastInDim ⟨3, ![R, C, 1]⟩ ![0, 1] h v (ix3 r c (0 : Fin 1)) = v (ix2 r c) := by
  simp only [broadcastInDim]
  congr 1
  funext a
  match a with
  | ⟨0, _⟩ =>
    apply Fin.ext
    have hr := r.isLt
    split
    · next h1 => change R = 1 at h1; show (0 : Nat) = r.val; omega
    · rfl
  | ⟨1, _⟩ =>
    apply Fin.ext
    have hc := c.isLt
    split
    · next h1 => change C = 1 at h1; show (0 : Nat) = c.val; omega
    · rfl

/-- A vector given a trailing unit axis reads, at (r, 0), the vector at r. -/
theorem bcast_unit2 {R : Nat} (h : (⟨1, ![R]⟩ : Shape).BroadcastsInDim ⟨2, ![R, 1]⟩ ![0])
    (v : (⟨1, ![R]⟩ : Shape).Idx → α) (r : Fin R) :
    broadcastInDim ⟨2, ![R, 1]⟩ ![0] h v (ix2 r (0 : Fin 1)) = v (ix1 r) := by
  simp only [broadcastInDim]
  congr 1
  funext a
  match a with
  | ⟨0, _⟩ =>
    apply Fin.ext
    have hr := r.isLt
    split
    · next h1 => change R = 1 at h1; show (0 : Nat) = r.val; omega
    · rfl

end Rows

/-- A table entry that is not negative is kept by the wrap "add the extent where negative". -/
theorem wrap_apply {s : Shape} (x z n : IVec s 32) (i : s.Idx) (hz : z i = 0#32) (h0 : 0 ≤ (x i).toInt) :
    select (cmpi .slt x z) (addi x n) x i = x i := by
  show Scalar.select (IntOp.cmpi .slt (x i) (z i)) _ (x i) = x i
  rw [hz]
  have hc : IntOp.cmpi .slt (x i) 0#32 = 0#1 := by
    unfold IntOp.cmpi
    show BitVec.ofBool ((x i).slt 0#32) = 0#1
    have : (x i).slt 0#32 = false := by
      simp only [BitVec.slt, BitVec.toInt_zero, decide_eq_false_iff_not, not_lt]
      exact h0
    rw [this]; rfl
  rw [hc]
  exact select_zero _ _

/-! ## The three gathers -/

/-- The neighbours' coordinates: entry (r, j, k) is coordinate k of the atom that neighbour entry (r, j) names. -/
theorem xyz_eq (c : Dev nD) (hJ : ∀ i, Cert.Angle.InRange 200000 (m ((c : Thread nD τ).loc main_arg5) i)) :
    out m c main_v8 = fun i : S10000x16x3.Idx =>
      m ((c : Thread nD τ).loc main_arg0) (ix2 (Cert.Angle.rowOf 200000 (by decide) (m ((c : Thread nD τ).loc main_arg5) (ix2 (i 0) (i 1)))) (i 2)) := by
  unfold out
  after_results_simp
  funext i
  obtain ⟨r, j, k, rfl⟩ : ∃ (r : Fin 10000) (j : Fin 16) (k : Fin 3), i = ix3 r j k := ⟨i 0, i 1, i 2, eq_ix3 i⟩
  refine (gather_rows3 (by decide) gather_S200000x3_S10000x16x1_S10000x16x3_2_0_n_n_0_2_13.wf _ _ r j k).trans ?_
  rw [bcast_unit3, wrap_apply _ _ _ _ rfl (hJ _).1]

/-- Every atom's embedding row: entry (n, f) is entry f of the embedding row of atom n's type. -/
theorem atom_rows (emb : FVec F ⟨2, ![10, 32]⟩ .f32) (types : IVec ⟨1, ![200000]⟩ 32)
    (hT : ∀ i, Cert.Angle.InRange 10 (types i)) (n : Fin 200000) (f : Fin 32) :
    Host.gather gather_S10x32_S200000x1_S200000x32_1_0_n_n_0_1_132 emb
        (broadcastInDim S200000x1 ![0] bcast_S200000_S200000x1_0
          (select (cmpi .slt types (broadcastInDim S200000 ![] bcast_S_S200000 (constantI S_ 32 0#32)))
            (addi types (broadcastInDim S200000 ![] bcast_S_S200000 (constantI S_ 32 10#32))) types)) (ix2 n f)
      = emb (ix2 (Cert.Angle.rowOf 10 (by decide) (types (ix1 n))) f) := by
  refine (gather_rows2 (by decide) gather_S10x32_S200000x1_S200000x32_1_0_n_n_0_1_132.wf _ _ n f).trans ?_
  rw [bcast_unit2, wrap_apply _ _ _ _ rfl (hT _).1]

/-- The neighbours' embedding rows: entry (r, j, f) is entry f of the embedding row of the type of the atom that
    neighbour entry (r, j) names. -/
theorem embJ_eq (c : Dev nD) (hT : ∀ i, Cert.Angle.InRange 10 (m ((c : Thread nD τ).loc main_arg3) i))
    (hJ : ∀ i, Cert.Angle.InRange 200000 (m ((c : Thread nD τ).loc main_arg5) i)) :
    out m c main_v48 = Cert.Angle.embJ (m ((c : Thread nD τ).loc main_arg1)) (m ((c : Thread nD τ).loc main_arg3)) (m ((c : Thread nD τ).loc main_arg5)) := by
  unfold out
  after_results_simp
  funext i
  obtain ⟨r, j, f, rfl⟩ : ∃ (r : Fin 10000) (j : Fin 16) (f : Fin 32), i = ix3 r j f := ⟨i 0, i 1, i 2, eq_ix3 i⟩
  refine (gather_rows3 (by decide) gather_S200000x32_S10000x16x1_S10000x16x32_2_0_n_n_0_2_132.wf _ _ r j f).trans ?_
  rw [bcast_unit3, wrap_apply _ _ _ _ rfl (hJ _).1]
  exact atom_rows _ _ hT _ f

/-- The centres' embedding rows: entry (r, f) is entry f of the embedding row of the type of the atom that centre
    entry r names. -/
theorem embI_eq (c : Dev nD) (hT : ∀ i, Cert.Angle.InRange 10 (m ((c : Thread nD τ).loc main_arg3) i))
    (hI : ∀ i, Cert.Angle.InRange 200000 (m ((c : Thread nD τ).loc main_arg4) i)) :
    out m c main_v41 = Cert.Angle.embI (m ((c : Thread nD τ).loc main_arg1)) (m ((c : Thread nD τ).loc main_arg3)) (m ((c : Thread nD τ).loc main_arg4)) := by
  unfold out
  after_results_simp
  funext i
  obtain ⟨r, f, rfl⟩ : ∃ (r : Fin 10000) (f : Fin 32), i = ix2 r f := ⟨i 0, i 1, eq_ix2 i⟩
  refine (gather_rows2 (by decide) gather_S200000x32_S10000x1_S10000x32_1_0_n_n_0_1_132.wf _ _ r f).trans ?_
  rw [bcast_unit2, wrap_apply _ _ _ _ rfl (hI _).1]
  exact atom_rows _ _ hT _ f

end Cert.ReferenceIdeal.Hand

end
-- ==== Proof.RefSide.lean ====
/-
  The normalised third side as the reference computes it, and why it is the kernel's for real coordinates: the reference's
  squared length is zero plus (xa - xk)² + (ya - yk)² + (za - zk)², the kernel's ((xk - xa)² + (yk - ya)²) + (zk - za)², and
  over the reals (u - v)² = (v - u)² while sums may be regrouped; the distances da and dk stay arbitrary extended reals.
-/
import proofs.«408688_j81827716923455_3_alg».proof.Proof.Spec
import Idealize.ShloMosaic.PureOps.Ideal

noncomputable section

namespace Cert.ReferenceIdeal.Hand

open Idealize.ShloMosaic

/-- The normalised third side as the reference computes it (the squared length a sum over the three coordinates, from zero). -/
def sideR (da dk xa ya za xk yk zk : EReal) : EReal :=
  Ideal.div (Ideal.sqrt (FloatOps.ofBits (F := Ideal) .f32 0x00000000#32 + ((xa - xk) * (xa - xk) + (ya - yk) * (ya - yk) + (za - zk) * (za - zk))) - max da dk + min da dk) (FloatOps.ofBits (F := Ideal) .f32 0x40000000#32 * min da dk)

theorem sideR_eq_sideK (da dk : EReal) (xa ya za xk yk zk : ℝ) :
    sideR da dk (xa : EReal) (ya : EReal) (za : EReal) (xk : EReal) (yk : EReal) (zk : EReal)
      = Cert.Angle.sideK (F := Ideal) (FloatOps.ofBits (F := Ideal) .f32 0x40000000#32) da dk (xa : EReal) (ya : EReal) (za : EReal) (xk : EReal) (yk : EReal) (zk : EReal) := by
  -- the f32 word of all zero bits is the extended real 0
  have h0 : FloatOps.ofBits (F := Ideal) .f32 0x00000000#32 = (0 : EReal) := by
    simp [Ideal.ofBits, Ideal.ieee]
  -- under the square root: zero plus the reference's sum is the kernel's sum, an identity of real numbers
  have key : (0 : EReal) + (((xa : EReal) - (xk : EReal)) * ((xa : EReal) - (xk : EReal)) + ((ya : EReal) - (yk : EReal)) * ((ya : EReal) - (yk : EReal))
        + ((za : EReal) - (zk : EReal)) * ((za : EReal) - (zk : EReal)))
      = (((xk : EReal) - (xa : EReal)) * ((xk : EReal) - (xa : EReal)) + ((yk : EReal) - (ya : EReal)) * ((yk : EReal) - (ya : EReal)))
        + ((zk : EReal) - (za : EReal)) * ((zk : EReal) - (za : EReal)) := by
    rw [zero_add]
    simp only [← EReal.coe_sub, ← EReal.coe_mul, ← EReal.coe_add]
    congr 1
    ring
  unfold sideR
  rw [h0, key]
  rfl

end Cert.ReferenceIdeal.Hand

end
-- ==== Proof.RefFeatures.lean ====
/-
  The reference's table of all ordered pairs of neighbours, read at an entry over the extended reals: the six pieces laid
  side by side along the feature axis are the two distances, the normalised third side, the centre's embedding row, and the
  two neighbours' embedding rows each divided by its distance. The reference takes the third side's squared length as
  zero plus the sum over the three coordinates of (r_j - r_k)², which is the third side this module reads it as.
-/
import proofs.«408688_j81827716923455_3_alg».proof.Proof.RefOps
import proofs.«408688_j81827716923455_3_alg».proof.Proof.Spec
import proofs.«408688_j81827716923455_3_alg».proof.Proof.RefSide
import Idealize.ShloMosaic.PureOps.Ideal
import Idealize.ShloMosaic.PureOps.Ideal.Laws
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The six pieces, in order along the feature axis. -/
abbrev pieces {α : Type} (X0 X1 X2 : S10000x16x16x1.Idx → α) (X3 X4 X5 : S10000x16x16x32.Idx → α) :
    List ((s : Shape) × (s.Idx → α)) :=
  [⟨S10000x16x16x1, X0⟩, ⟨S10000x16x16x1, X1⟩, ⟨S10000x16x16x1, X2⟩, ⟨S10000x16x16x32, X3⟩, ⟨S10000x16x16x32, X4⟩, ⟨S10000x16x16x32, X5⟩]

/-- The six pieces laid side by side along the last axis, read at (r, a, k, f): the piece whose span holds f, at f less
    the extents before it (written with a modulus so that no bound is carried: inside the span it is the offset). -/
theorem concat6 {α : Type} (X0 X1 X2 : S10000x16x16x1.Idx → α) (X3 X4 X5 : S10000x16x16x32.Idx → α)
    (h : Shape.Concatenates ((pieces X0 X1 X2 X3 X4 X5).map (·.1)) S10000x16x16x99 3)
    (r : Fin 10000) (a k : Fin 16) (f : Fin 99) :
    concatenate S10000x16x16x99 3 (pieces X0 X1 X2 X3 X4 X5) h (ix4 r a k f)
      = if f.val = 0 then X0 (ix4 r a k 0)
        else if f.val = 1 then X1 (ix4 r a k 0)
        else if f.val = 2 then X2 (ix4 r a k 0)
        else if f.val < 35 then X3 (ix4 r a k ⟨(f.val - 3) % 32, Nat.mod_lt _ (by decide)⟩)
        else if f.val < 67 then X4 (ix4 r a k ⟨(f.val - 35) % 32, Nat.mod_lt _ (by decide)⟩)
        else X5 (ix4 r a k ⟨(f.val - 67) % 32, Nat.mod_lt _ (by decide)⟩) := by
  have hf := f.isLt
  split_ifs with h0 h1 h2 h3 h4
  · refine concatenate_apply_piece (t := S10000x16x16x99) (3 : Fin 4) (pieces X0 X1 X2 X3 X4 X5) h (ix4 r a k f) 0 (show 0 < 6 by omega) S10000x16x16x1 X0 rfl rfl 0 rfl
      (ix4 r a k 0) ?_ ?_
    · intro b hb; fin_cases b <;> first | rfl | exact absurd rfl hb
    · show 0 + 0 = f.val; omega
  · refine concatenate_apply_piece (t := S10000x16x16x99) (3 : Fin 4) (pieces X0 X1 X2 X3 X4 X5) h (ix4 r a k f) 1 (show 1 < 6 by omega) S10000x16x16x1 X1 rfl rfl 1 rfl
      (ix4 r a k 0) ?_ ?_
    · intro b hb; fin_cases b <;> first | rfl | exact absurd rfl hb
    · show 1 + 0 = f.val; omega
  · refine concatenate_apply_piece (t := S10000x16x16x99) (3 : Fin 4) (pieces X0 X1 X2 X3 X4 X5) h (ix4 r a k f) 2 (show 2 < 6 by omega) S10000x16x16x1 X2 rfl rfl 2 rfl
      (ix4 r a k 0) ?_ ?_
    · intro b hb; fin_cases b <;> first | rfl | exact absurd rfl hb
    · show 2 + 0 = f.val; omega
  · refine concatenate_apply_piece (t := S10000x16x16x99) (3 : Fin 4) (pieces X0 X1 X2 X3 X4 X5) h (ix4 r a k f) 3 (show 3 < 6 by omega) S10000x16x16x32 X3 rfl rfl 3 rfl
      (ix4 r a k ⟨(f.val - 3) % 32, Nat.mod_lt _ (by decide)⟩) ?_ ?_
    · intro b hb; fin_cases b <;> first | rfl | exact absurd rfl hb
    · show 3 + (f.val - 3) % 32 = f.val; omega
  · refine concatenate_apply_piece (t := S10000x16x16x99) (3 : Fin 4) (pieces X0 X1 X2 X3 X4 X5) h (ix4 r a k f) 4 (show 4 < 6 by omega) S10000x16x16x32 X4 rfl rfl 35 rfl
      (ix4 r a k ⟨(f.val - 35) % 32, Nat.mod_lt _ (by decide)⟩) ?_ ?_
    · intro b hb; fin_cases b <;> first | rfl | exact absurd rfl hb
    · show 35 + (f.val - 35) % 32 = f.val; omega
  · refine concatenate_apply_piece (t := S10000x16x16x99) (3 : Fin 4) (pieces X0 X1 X2 X3 X4 X5) h (ix4 r a k f) 5 (show 5 < 6 by omega) S10000x16x16x32 X5 rfl rfl 67 rfl
      (ix4 r a k ⟨(f.val - 67) % 32, Nat.mod_lt _ (by decide)⟩) ?_ ?_
    · intro b hb; fin_cases b <;> first | rfl | exact absurd rfl hb
    · show 67 + (f.val - 67) % 32 = f.val; omega

/-- The concatenation's result with each piece's contents at its own reference. -/
theorem v64_result' {F : FTy → Type} [FloatOps F] (hxs hy) (W : Valuation τ sig (Elt F)) :
    (nary (τ := τ) ![main_v50, main_v52, main_v53, main_v55, main_v59, main_v63] main_v64
        (fun u => concatenate S10000x16x16x99 3 [⟨S10000x16x16x1, u 0⟩, ⟨S10000x16x16x1, u 1⟩, ⟨S10000x16x16x1, u 2⟩, ⟨S10000x16x16x32, u 3⟩, ⟨S10000x16x16x32, u 4⟩, ⟨S10000x16x16x32, u 5⟩] concatenates_S10000x16x16x1_S10000x16x16x1_S10000x16x16x1_S10000x16x16x32_S10000x16x16x32_S10000x16x16x32_S10000x16x16x99_d3)
        hxs hy).result W (no_index (Proc.devRef .tc main_v64))
      = concatenate S10000x16x16x99 3
          (pieces (W (Proc.devRef .tc main_v50)) (W (Proc.devRef .tc main_v52)) (W (Proc.devRef .tc main_v53))
            (W (Proc.devRef .tc main_v55)) (W (Proc.devRef .tc main_v59)) (W (Proc.devRef .tc main_v63)))
          concatenates_S10000x16x16x1_S10000x16x16x1_S10000x16x16x1_S10000x16x16x32_S10000x16x16x32_S10000x16x16x32_S10000x16x16x99_d3 :=
  nary_result _ _ _ hxs hy W

macro "results_simp" : tactic =>
  `(tactic| (simp (disch := decide) only [after_cons, after_nil, v64_result',
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']))

section Reads

variable {α : Type}

/-- Solves the coordinate condition of a broadcast read at literal axes: axis by axis both sides compute. -/
macro "bc_side" : tactic => `(tactic| (intro b; fin_cases b <;> rfl))

/-- The distance table spread along a new last axis, then along the second neighbour axis: entry (r, a, k) is d(r, a). -/
theorem rd_da3 (D : S10000x16.Idx → α) (r : Fin 10000) (a k : Fin 16) :
    broadcastInDim S10000x16x16 ![0, 1, 2] bcast_S10000x16x1_S10000x16x16_0_1_2
      (broadcastInDim S10000x16x1 ![0, 1] bcast_S10000x16_S10000x16x1_0_1 D) (ix3 r a k) = D (ix2 r a) := by
  rw [broadcastInDim_apply _ _ _ _ (ix3 r a 0) (by bc_side), broadcastInDim_apply _ _ _ _ (ix2 r a) (by bc_side)]

/-- The distance table spread along a new middle axis, then along the first neighbour axis: entry (r, a, k) is d(r, k). -/
theorem rd_dk3 (D : S10000x16.Idx → α) (r : Fin 10000) (a k : Fin 16) :
    broadcastInDim S10000x16x16 ![0, 1, 2] bcast_S10000x1x16_S10000x16x16_0_1_2
      (broadcastInDim S10000x1x16 ![0, 2] bcast_S10000x16_S10000x1x16_0_2 D) (ix3 r a k) = D (ix2 r k) := by
  rw [broadcastInDim_apply _ _ _ _ (ix3 r 0 k) (by bc_side), broadcastInDim_apply _ _ _ _ (ix2 r k) (by bc_side)]

/-- The first piece: entry (r, a, k, 0) is d(r, a). -/
theorem rd_p50 (D : S10000x16.Idx → α) (r : Fin 10000) (a k : Fin 16) :
    broadcastInDim S10000x16x16x1 ![0, 1, 2, 3] bcast_S10000x16x1x1_S10000x16x16x1_0_1_2_3
      (broadcastInDim S10000x16x1x1 ![0, 1, 2] bcast_S10000x16x1_S10000x16x1x1_0_1_2
        (broadcastInDim S10000x16x1 ![0, 1] bcast_S10000x16_S10000x16x1_0_1 D)) (ix4 r a k 0) = D (ix2 r a) := by
  rw [broadcastInDim_apply _ _ _ _ (ix4 r a 0 0) (by bc_side), broadcastInDim_apply _ _ _ _ (ix3 r a 0) (by bc_side),
    broadcastInDim_apply _ _ _ _ (ix2 r a) (by bc_side)]

/-- The second piece: entry (r, a, k, 0) is d(r, k). -/
theorem rd_p52 (D : S10000x16.Idx → α) (r : Fin 10000) (a k : Fin 16) :
    broadcastInDim S10000x16x16x1 ![0, 1, 2, 3] bcast_S10000x1x16x1_S10000x16x16x1_0_1_2_3
      (broadcastInDim S10000x1x16x1 ![0, 1, 2] bcast_S10000x1x16_S10000x1x16x1_0_1_2
        (broadcastInDim S10000x1x16 ![0, 2] bcast_S10000x16_S10000x1x16_0_2 D)) (ix4 r a k 0) = D (ix2 r k) := by
  rw [broadcastInDim_apply _ _ _ _ (ix4 r 0 k 0) (by bc_side), broadcastInDim_apply _ _ _ _ (ix3 r 0 k) (by bc_side),
    broadcastInDim_apply _ _ _ _ (ix2 r k) (by bc_side)]

/-- A one-wide last axis spread to 32: entry (r, a, k, g) is the operand's (r, a, k, 0). -/
theorem rd_wide (X : S10000x16x16x1.Idx → α) (r : Fin 10000) (a k : Fin 16) (g : Fin 32) :
    broadcastInDim S10000x16x16x32 ![0, 1, 2, 3] bcast_S10000x16x16x1_S10000x16x16x32_0_1_2_3 X (ix4 r a k g) = X (ix4 r a k 0) :=
  broadcastInDim_apply _ _ _ _ (ix4 r a k 0) (by bc_side)

/-- The third piece: a table over (r, a, k) given a one-wide last axis. -/
theorem rd_p53 (X : S10000x16x16.Idx → α) (r : Fin 10000) (a k : Fin 16) :
    broadcastInDim S10000x16x16x1 ![0, 1, 2] bcast_S10000x16x16_S10000x16x16x1_0_1_2 X (ix4 r a k 0) = X (ix3 r a k) :=
  broadcastInDim_apply _ _ _ _ (ix3 r a k) (by bc_side)

/-- The fourth piece: the centre's row spread over both neighbour axes. -/
theorem rd_p55 (E : S10000x32.Idx → α) (r : Fin 10000) (a k : Fin 16) (g : Fin 32) :
    broadcastInDim S10000x16x16x32 ![0, 1, 2, 3] bcast_S10000x1x1x32_S10000x16x16x32_0_1_2_3
      (broadcastInDim S10000x1x1x32 ![0, 3] bcast_S10000x32_S10000x1x1x32_0_3 E) (ix4 r a k g) = E (ix2 r g) := by
  rw [broadcastInDim_apply _ _ _ _ (ix4 r 0 0 g) (by bc_side), broadcastInDim_apply _ _ _ _ (ix2 r g) (by bc_side)]

/-- The first neighbour's row spread over the second neighbour axis. -/
theorem rd_e57 (E : S10000x16x32.Idx → α) (r : Fin 10000) (a k : Fin 16) (g : Fin 32) :
    broadcastInDim S10000x16x16x32 ![0, 1, 2, 3] bcast_S10000x16x1x32_S10000x16x16x32_0_1_2_3
      (broadcastInDim S10000x16x1x32 ![0, 1, 3] bcast_S10000x16x32_S10000x16x1x32_0_1_3 E) (ix4 r a k g) = E (ix3 r a g) := by
  rw [broadcastInDim_apply _ _ _ _ (ix4 r a 0 g) (by bc_side), broadcastInDim_apply _ _ _ _ (ix3 r a g) (by bc_side)]

/-- The second neighbour's row spread over the first neighbour axis. -/
theorem rd_e61 (E : S10000x16x32.Idx → α) (r : Fin 10000) (a k : Fin 16) (g : Fin 32) :
    broadcastInDim S10000x16x16x32 ![0, 1, 2, 3] bcast_S10000x1x16x32_S10000x16x16x32_0_1_2_3
      (broadcastInDim S10000x1x16x32 ![0, 2, 3] bcast_S10000x16x32_S10000x1x16x32_0_2_3 E) (ix4 r a k g) = E (ix3 r k g) := by
  rw [broadcastInDim_apply _ _ _ _ (ix4 r 0 k g) (by bc_side), broadcastInDim_apply _ _ _ _ (ix3 r k g) (by bc_side)]

/-- The first neighbour's coordinates spread over the second neighbour axis. -/
theorem rd_x11 (T : S10000x16x3.Idx → α) (r : Fin 10000) (a k : Fin 16) (d : Fin 3) :
    broadcastInDim S10000x16x16x3 ![0, 1, 2, 3] bcast_S10000x16x1x3_S10000x16x16x3_0_1_2_3
      (broadcastInDim S10000x16x1x3 ![0, 1, 3] bcast_S10000x16x3_S10000x16x1x3_0_1_3 T) (ix4 r a k d) = T (ix3 r a d) := by
  rw [broadcastInDim_apply _ _ _ _ (ix4 r a 0 d) (by bc_side), broadcastInDim_apply _ _ _ _ (ix3 r a d) (by bc_side)]

/-- The second neighbour's coordinates spread over the first neighbour axis. -/
theorem rd_x12 (T : S10000x16x3.Idx → α) (r : Fin 10000) (a k : Fin 16) (d : Fin 3) :
    broadcastInDim S10000x16x16x3 ![0, 1, 2, 3] bcast_S10000x1x16x3_S10000x16x16x3_0_1_2_3
      (broadcastInDim S10000x1x16x3 ![0, 2, 3] bcast_S10000x16x3_S10000x1x16x3_0_2_3 T) (ix4 r a k d) = T (ix3 r k d) := by
  rw [broadcastInDim_apply _ _ _ _ (ix4 r 0 k d) (by bc_side), broadcastInDim_apply _ _ _ _ (ix3 r k d) (by bc_side)]

end Reads

/-- The index the sum over the coordinate axis inserts: (r, a, k) with d put last. -/
theorem lift_ix (hR : S10000x16x16x3.Reduces [3] S10000x16x16) (r : Fin 10000) (a k : Fin 16) (d : Fin 3) :
    hR.lift (ix3 r a k) d = ix4 r a k d :=
  funext fun b => Fin.ext (by fin_cases b <;> rfl)

/-- The normalised third side as the reference's operations compute it at (r, a, k): the pointwise operations read
    at the entry, the distances through their two spreadings, the sum over the coordinate axis as zero plus its three
    terms, each the square of the difference of the two neighbours' coordinates. -/
theorem rd_v27 (D : FVec Ideal S10000x16 .f32) (T : FVec Ideal S10000x16x3 .f32) (r : Fin 10000) (a k : Fin 16) :
    Host.divf
      (addf
        (subf
          (Host.sqrt
            (Host.reduceAdd
              (mulf
                (subf
                  (broadcastInDim S10000x16x16x3 ![0, 1, 2, 3] bcast_S10000x16x1x3_S10000x16x16x3_0_1_2_3
                    (broadcastInDim S10000x16x1x3 ![0, 1, 3] bcast_S10000x16x3_S10000x16x1x3_0_1_3 T))
                  (broadcastInDim S10000x16x16x3 ![0, 1, 2, 3] bcast_S10000x1x16x3_S10000x16x16x3_0_1_2_3
                    (broadcastInDim S10000x1x16x3 ![0, 2, 3] bcast_S10000x16x3_S10000x1x16x3_0_2_3 T)))
                (subf
                  (broadcastInDim S10000x16x16x3 ![0, 1, 2, 3] bcast_S10000x16x1x3_S10000x16x16x3_0_1_2_3
                    (broadcastInDim S10000x16x1x3 ![0, 1, 3] bcast_S10000x16x3_S10000x16x1x3_0_1_3 T))
                  (broadcastInDim S10000x16x16x3 ![0, 1, 2, 3] bcast_S10000x1x16x3_S10000x16x16x3_0_1_2_3
                    (broadcastInDim S10000x1x16x3 ![0, 2, 3] bcast_S10000x16x3_S10000x1x16x3_0_2_3 T))))
              (constant (F := Ideal) S_ .f32 0x00000000#32) reducesTo_S10000x16x16x3_S10000x16x16_d3 h_S_))
          (maximumf
            (broadcastInDim S10000x16x16 ![0, 1, 2] bcast_S10000x16x1_S10000x16x16_0_1_2
              (broadcastInDim S10000x16x1 ![0, 1] bcast_S10000x16_S10000x16x1_0_1 D))
            (broadcastInDim S10000x16x16 ![0, 1, 2] bcast_S10000x1x16_S10000x16x16_0_1_2
              (broadcastInDim S10000x1x16 ![0, 2] bcast_S10000x16_S10000x1x16_0_2 D))))
        (minimumf
          (broadcastInDim S10000x16x16 ![0, 1, 2] bcast_S10000x16x1_S10000x16x16_0_1_2
            (broadcastInDim S10000x16x1 ![0, 1] bcast_S10000x16_S10000x16x1_0_1 D))
          (broadcastInDim S10000x16x16 ![0, 1, 2] bcast_S10000x1x16_S10000x16x16_0_1_2
            (broadcastInDim S10000x1x16 ![0, 2] bcast_S10000x16_S10000x1x16_0_2 D))))
      (mulf
        (broadcastInDim S10000x16x16 ![] bcast_S_S10000x16x16 (constant (F := Ideal) S_ .f32 0x40000000#32))
        (minimumf
          (broadcastInDim S10000x16x16 ![0, 1, 2] bcast_S10000x16x1_S10000x16x16_0_1_2
            (broadcastInDim S10000x16x1 ![0, 1] bcast_S10000x16_S10000x16x1_0_1 D))
          (broadcastInDim S10000x16x16 ![0, 1, 2] bcast_S10000x1x16_S10000x16x16_0_1_2
            (broadcastInDim S10000x1x16 ![0, 2] bcast_S10000x16_S10000x1x16_0_2 D))))
      (ix3 r a k)
      = sideR (D (ix2 r a)) (D (ix2 r k)) (T (ix3 r a 0)) (T (ix3 r a 1)) (T (ix3 r a 2))
          (T (ix3 r k 0)) (T (ix3 r k 1)) (T (ix3 r k 2)) := by
  have hR : S10000x16x16x3.Reduces [3] S10000x16x16 := by decide
  simp only [Host.divf, Host.sqrt, Host.reduceAdd, addf, subf, mulf, maximumf, minimumf]
  rw [rd_da3, rd_dk3, Ideal.hostReduceAdd_def, Ideal.hostReduceAdd_single _ hR]
  rw [broadcastInDim_apply _ _ _ _ ix0 (fun b => b.elim0)]
  rw [show (∑ d : Fin (S10000x16x16x3.size 3), (mulf
          (subf
            (broadcastInDim S10000x16x16x3 ![0, 1, 2, 3] bcast_S10000x16x1x3_S10000x16x16x3_0_1_2_3
              (broadcastInDim S10000x16x1x3 ![0, 1, 3] bcast_S10000x16x3_S10000x16x1x3_0_1_3 T))
            (broadcastInDim S10000x16x16x3 ![0, 1, 2, 3] bcast_S10000x1x16x3_S10000x16x16x3_0_1_2_3
              (broadcastInDim S10000x1x16x3 ![0, 2, 3] bcast_S10000x16x3_S10000x1x16x3_0_2_3 T)))
          (subf
            (broadcastInDim S10000x16x16x3 ![0, 1, 2, 3] bcast_S10000x16x1x3_S10000x16x16x3_0_1_2_3
              (broadcastInDim S10000x16x1x3 ![0, 1, 3] bcast_S10000x16x3_S10000x16x1x3_0_1_3 T))
            (broadcastInDim S10000x16x16x3 ![0, 1, 2, 3] bcast_S10000x1x16x3_S10000x16x16x3_0_1_2_3
              (broadcastInDim S10000x1x16x3 ![0, 2, 3] bcast_S10000x16x3_S10000x1x16x3_0_2_3 T))) : FVec Ideal S10000x16x16x3 .f32)
          (hR.lift (ix3 r a k) d))
      = ∑ d : Fin 3, ((T (ix3 r a d) - T (ix3 r k d)) * (T (ix3 r a d) - T (ix3 r k d)) : EReal) from
    Finset.sum_congr rfl fun d _ => by
      have e1 := rd_x11 T r a k d
      have e2 := rd_x12 T r a k d
      rw [lift_ix hR r a k d]
      show (_ - _) * (_ - _) = _
      rw [e1, e2]]
  rw [Fin.sum_univ_three]
  rfl

set_option maxHeartbeats 4000000 in
/-- Entry (r, a, k, f) of the reference's table of all ordered pairs is the descriptor's entry: the table is read piece by
    piece, each piece through its spreadings, the three gathered arrays left as they are. -/
theorem features_eq (m : (ℓ : Loc nD τ sig) → Buf (Elt Ideal) ℓ) (c : Dev nD) (r : Fin 10000) (a k : Fin 16) (f : Fin 99) :
    out (F := Ideal) m c main_v64 (ix4 r a k f)
      = Cert.Angle.entry (F := Ideal) sideR (m ((c : Thread nD τ).loc main_arg2))
          (fun i => out (F := Ideal) m c main_v8 (ix3 (i 0) (i 1) 0))
          (fun i => out (F := Ideal) m c main_v8 (ix3 (i 0) (i 1) 1))
          (fun i => out (F := Ideal) m c main_v8 (ix3 (i 0) (i 1) 2))
          (out (F := Ideal) m c main_v48) (out (F := Ideal) m c main_v41) r a k f.val := by
  unfold out
  results_simp
  rw [concat6]
  generalize Host.gather gather_S200000x3_S10000x16x1_S10000x16x3_2_0_n_n_0_2_13 _ _ = T8
  generalize Host.gather gather_S200000x32_S10000x16x1_S10000x16x32_2_0_n_n_0_2_132 _ _ = T48
  generalize Host.gather gather_S200000x32_S10000x1_S10000x32_1_0_n_n_0_1_132 _ _ = T41
  rw [show m ((c : Thread nD τ).loc main_arg2) = m (c, Proc.devRef .tc main_arg2) from rfl]
  generalize m (c, Proc.devRef .tc main_arg2) = D
  unfold Cert.Angle.entry
  split_ifs with h0 h1 h2 h3 h4
  · exact rd_p50 D r a k
  · exact rd_p52 D r a k
  · exact (rd_p53 _ r a k).trans (rd_v27 D T8 r a k)
  · exact rd_p55 T41 r a k _
  · exact congrArg₂ Ideal.div (rd_e57 T48 r a k _) ((rd_wide _ r a k _).trans (rd_p50 D r a k))
  · exact congrArg₂ Ideal.div (rd_e61 T48 r a k _) ((rd_wide _ r a k _).trans (rd_p52 D r a k))

end Cert.ReferenceIdeal.Hand

end
-- ==== Proof.RefRead.lean ====
/-
  What the reference program computes, read index by index over the extended reals: with finite coordinates and every
  table entry in range, its result is the angular descriptor of the gathered arrays. Entry (c, p, f) of the result is the
  pair table's entry at the pair p names; that entry is the feature of the gathered rows; and for real coordinates the
  reference's third side is the kernel's.
-/
import proofs.«408688_j81827716923455_3_alg».proof.Proof.RefOps
import proofs.«408688_j81827716923455_3_alg».proof.Proof.RefSelect
import proofs.«408688_j81827716923455_3_alg».proof.Proof.RefGather
import proofs.«408688_j81827716923455_3_alg».proof.Proof.RefFeatures
import proofs.«408688_j81827716923455_3_alg».proof.Proof.Spec
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- Two third-side functions that agree on the pair's own entries give the same feature. -/
theorem entry_side_congr {R : ℕ} (s₁ s₂ : EReal → EReal → EReal → EReal → EReal → EReal → EReal → EReal → EReal)
    (d x y z : FVec Ideal ⟨2, ![R, 16]⟩ .f32) (e : FVec Ideal ⟨3, ![R, 16, 32]⟩ .f32) (ei : FVec Ideal ⟨2, ![R, 32]⟩ .f32)
    (r : Fin R) (a k : Fin 16) (f : ℕ)
    (h : s₁ (d (ix2 r a)) (d (ix2 r k)) (x (ix2 r a)) (y (ix2 r a)) (z (ix2 r a)) (x (ix2 r k)) (y (ix2 r k)) (z (ix2 r k))
      = s₂ (d (ix2 r a)) (d (ix2 r k)) (x (ix2 r a)) (y (ix2 r a)) (z (ix2 r a)) (x (ix2 r k)) (y (ix2 r k)) (z (ix2 r k))) :
    Cert.Angle.entry (F := Ideal) s₁ d x y z e ei r a k f = Cert.Angle.entry (F := Ideal) s₂ d x y z e ei r a k f := by
  unfold Cert.Angle.entry
  rw [h]

theorem out_eq (m : (ℓ : Loc nD τ sig) → Buf (Elt Ideal) ℓ) (c : Dev nD)
    (hfin : ∀ i, ∃ r : ℝ, m ((c : Thread nD τ).loc main_arg0) i = ((r : ℝ) : EReal))
    (hT : ∀ i, Cert.Angle.InRange 10 (m ((c : Thread nD τ).loc main_arg3) i))
    (hI : ∀ i, Cert.Angle.InRange 200000 (m ((c : Thread nD τ).loc main_arg4) i))
    (hJ : ∀ i, Cert.Angle.InRange 200000 (m ((c : Thread nD τ).loc main_arg5) i)) :
    out (F := Ideal) m c main_v70
      = Cert.Angle.desc (Cert.Angle.sideK (FloatOps.ofBits (F := Ideal) .f32 0x40000000#32))
          (m ((c : Thread nD τ).loc main_arg2))
          (Cert.Angle.coord (m ((c : Thread nD τ).loc main_arg0)) (m ((c : Thread nD τ).loc main_arg5)) 0)
          (Cert.Angle.coord (m ((c : Thread nD τ).loc main_arg0)) (m ((c : Thread nD τ).loc main_arg5)) 1)
          (Cert.Angle.coord (m ((c : Thread nD τ).loc main_arg0)) (m ((c : Thread nD τ).loc main_arg5)) 2)
          (Cert.Angle.embJ (m ((c : Thread nD τ).loc main_arg1)) (m ((c : Thread nD τ).loc main_arg3)) (m ((c : Thread nD τ).loc main_arg5)))
          (Cert.Angle.embI (m ((c : Thread nD τ).loc main_arg1)) (m ((c : Thread nD τ).loc main_arg3)) (m ((c : Thread nD τ).loc main_arg4))) := by
  -- the neighbours' coordinates, one coordinate at a time, are the gathered coordinate arrays
  have hX : ∀ k : Fin 3, ((fun i : S10000x16.Idx => (out (F := Ideal) m c main_v8 (ix3 (i 0) (i 1) k) : EReal)) : FVec Ideal S10000x16 .f32)
      = Cert.Angle.coord (F := Ideal) (m ((c : Thread nD τ).loc main_arg0)) (m ((c : Thread nD τ).loc main_arg5)) k := by
    intro k
    rw [xyz_eq m c hJ]
    funext i
    exact congrArg (fun j : S10000x16.Idx => m ((c : Thread nD τ).loc main_arg0)
      (ix2 (Cert.Angle.rowOf 200000 (by decide) (m ((c : Thread nD τ).loc main_arg5) j)) k)) (eq_ix2 i).symm
  funext i
  rw [select_eq m c i, features_eq m c, hX 0, hX 1, hX 2, embJ_eq m c hT hJ, embI_eq m c hT hI]
  show _ = Cert.Angle.entry _ _ _ _ _ _ _ (⟨(i 0).val, (i 0).isLt⟩ : Fin 10000) (Cert.Angle.fstOf (i 1).val (i 1).isLt)
      (Cert.Angle.sndOf (i 1).val (i 1).isLt) (i 2).val
  apply entry_side_congr
  -- the six coordinates the third side reads are real numbers
  obtain ⟨xa, hxa⟩ := hfin (ix2 (Cert.Angle.rowOf 200000 (by decide) (m ((c : Thread nD τ).loc main_arg5) (ix2 (⟨(i 0).val, (i 0).isLt⟩ : Fin 10000) (Cert.Angle.fstOf (i 1).val (i 1).isLt)))) 0)
  obtain ⟨ya, hya⟩ := hfin (ix2 (Cert.Angle.rowOf 200000 (by decide) (m ((c : Thread nD τ).loc main_arg5) (ix2 (⟨(i 0).val, (i 0).isLt⟩ : Fin 10000) (Cert.Angle.fstOf (i 1).val (i 1).isLt)))) 1)
  obtain ⟨za, hza⟩ := hfin (ix2 (Cert.Angle.rowOf 200000 (by decide) (m ((c : Thread nD τ).loc main_arg5) (ix2 (⟨(i 0).val, (i 0).isLt⟩ : Fin 10000) (Cert.Angle.fstOf (i 1).val (i 1).isLt)))) 2)
  obtain ⟨xk, hxk⟩ := hfin (ix2 (Cert.Angle.rowOf 200000 (by decide) (m ((c : Thread nD τ).loc main_arg5) (ix2 (⟨(i 0).val, (i 0).isLt⟩ : Fin 10000) (Cert.Angle.sndOf (i 1).val (i 1).isLt)))) 0)
  obtain ⟨yk, hyk⟩ := hfin (ix2 (Cert.Angle.rowOf 200000 (by decide) (m ((c : Thread nD τ).loc main_arg5) (ix2 (⟨(i 0).val, (i 0).isLt⟩ : Fin 10000) (Cert.Angle.sndOf (i 1).val (i 1).isLt)))) 1)
  obtain ⟨zk, hzk⟩ := hfin (ix2 (Cert.Angle.rowOf 200000 (by decide) (m ((c : Thread nD τ).loc main_arg5) (ix2 (⟨(i 0).val, (i 0).isLt⟩ : Fin 10000) (Cert.Angle.sndOf (i 1).val (i 1).isLt)))) 2)
  unfold Cert.Angle.coord
  rw [hxa, hya, hza, hxk, hyk, hzk]
  exact sideR_eq_sideK _ _ xa ya za xk yk zk

end Cert.ReferenceIdeal.Hand

end
-- ==== Proof.lean ====
/-
  The angular descriptor of a neighbour list: the Pallas kernel against its jnp reference.

  Both programs gather, for each of 10000 centre atoms, the coordinates and the embedding rows of its 16 neighbours and the
  embedding row of the centre itself, and from those build, for every ordered pair (j, k) of distinct neighbours, 99
  features: the two centre-to-neighbour distances, the normalised third side of the triangle, the centre's embedding row,
  and the two neighbours' embedding rows each divided by its distance (Proof/Spec.lean states this as one function).
  The kernel computes it block by block, 80 centres at a time, building each neighbour j's fifteen pairs from slices that
  leave column j out (Proof/KernelBody.lean, Proof/KernelValue.lean); the reference computes all 256 pairs and then keeps the
  240 with j ≠ k (Proof/RefSelect.lean, Proof/RefFeatures.lean). The two differ in three places, none of which changes
  the value: the kernel looks a type up first and the embedding row second, the reference the other way round; a table
  entry outside its array is clamped by one program and replaced by a fill value by the other, which the precondition
  excludes (Proof/PreFacts.lean: every table entry names a row of its array); and the third side's squared length is
  (r_k - r_j)² added in one order against (r_j - r_k)² summed in another, equal for the finite coordinates the precondition
  gives. Over the extended reals both results are therefore the same function of the arguments, index by index.
-/
import proofs.«408688_j81827716923455_3_alg».proof.Defs
import proofs.«408688_j81827716923455_3_alg».proof.Proof.Gen.Kernel
import proofs.«408688_j81827716923455_3_alg».proof.Proof.Gen.Kernel.Skeleton
import proofs.«408688_j81827716923455_3_alg».proof.Proof.Gen.Kernel.Launch
import proofs.«408688_j81827716923455_3_alg».proof.Proof.Gen.Kernel.Points
import proofs.«408688_j81827716923455_3_alg».proof.Proof.Gen.Kernel.Frame
import proofs.«408688_j81827716923455_3_alg».proof.Proof.Gen.KernelIdeal
import proofs.«408688_j81827716923455_3_alg».proof.Proof.Gen.KernelIdeal.Skeleton
import proofs.«408688_j81827716923455_3_alg».proof.Proof.Gen.KernelIdeal.Launch
import proofs.«408688_j81827716923455_3_alg».proof.Proof.Gen.KernelIdeal.Points
import proofs.«408688_j81827716923455_3_alg».proof.Proof.Gen.KernelIdeal.Frame
import proofs.«408688_j81827716923455_3_alg».proof.Proof.Gen.KernelIdeal.Value
import proofs.«408688_j81827716923455_3_alg».proof.Proof.Gen.ReferenceIdeal
import proofs.«408688_j81827716923455_3_alg».proof.Proof.Gen.Pre_finite_inputs
import proofs.«408688_j81827716923455_3_alg».proof.Proof.Spec
import proofs.«408688_j81827716923455_3_alg».proof.Proof.PreFacts
import proofs.«408688_j81827716923455_3_alg».proof.Proof.KernelValue
import proofs.«408688_j81827716923455_3_alg».proof.Proof.RefRun
import proofs.«408688_j81827716923455_3_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- The kernel read over the extended reals runs and leaves its arguments as launched. -/
theorem frame_ki : Cert.frame_KernelIdeal := fun m ρ _ => Cert.KernelIdeal.Gen.frame m ρ

/-- The reference runs and leaves its arguments as launched: its run, with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both programs end with the descriptor of the gathered arrays (and the centre indices, an argument both return). -/
theorem algebraic : Cert.algebraic_KernelIdeal_ReferenceIdeal := by
  intro m ρ m' ρ' hpre hagree
  have hf := fun c : Dev Cert.KernelIdeal.nD => Cert.Angle.pre_facts _ _ _ _ _ _ (hpre c)
  refine ⟨fun c => Cert.Angle.desc (Cert.KernelIdeal.Final.sd (F := Ideal))
      (m ((c.tc : Thread Cert.KernelIdeal.nD Cert.KernelIdeal.τ).loc Cert.KernelIdeal.main_arg2))
      (Cert.Angle.coord (m ((c.tc : Thread Cert.KernelIdeal.nD Cert.KernelIdeal.τ).loc Cert.KernelIdeal.main_arg0)) (m ((c.tc : Thread Cert.KernelIdeal.nD Cert.KernelIdeal.τ).loc Cert.KernelIdeal.main_arg5)) 0)
      (Cert.Angle.coord (m ((c.tc : Thread Cert.KernelIdeal.nD Cert.KernelIdeal.τ).loc Cert.KernelIdeal.main_arg0)) (m ((c.tc : Thread Cert.KernelIdeal.nD Cert.KernelIdeal.τ).loc Cert.KernelIdeal.main_arg5)) 1)
      (Cert.Angle.coord (m ((c.tc : Thread Cert.KernelIdeal.nD Cert.KernelIdeal.τ).loc Cert.KernelIdeal.main_arg0)) (m ((c.tc : Thread Cert.KernelIdeal.nD Cert.KernelIdeal.τ).loc Cert.KernelIdeal.main_arg5)) 2)
      (Cert.Angle.embJ (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)))
      (Cert.Angle.embI (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))),
    fun c => m ((c.tc : Thread Cert.KernelIdeal.nD Cert.KernelIdeal.τ).loc Cert.KernelIdeal.main_arg4), ?_, ?_⟩
  · -- the kernel's run: the result array is the descriptor of the arrays its host side gathered
    refine (θ_run Cert.KernelIdeal.defs _ _).mono (fun r h c => ?_) (Cert.KernelIdeal.Value.run_blocks (F := Ideal) m ρ)
    obtain ⟨h6, h0, h1, h2, h3, h4, h5⟩ := h c
    exact ⟨h6.trans (Cert.KernelIdeal.Final.final_args m c (hf c).2.1 (hf c).2.2.1 (hf c).2.2.2), h4, h0, h1, h2, h3, h4, h5⟩
  · -- the reference's run, from a memory that agrees with the kernel's on the arguments
    refine (θ_run Cert.ReferenceIdeal.defs _ _).mono (fun r h c => ?_) (Cert.ReferenceIdeal.Hand.run (F := Ideal) m' ρ')
    obtain ⟨h70, h0, h1, h2, h3, h4, h5⟩ := h c
    obtain ⟨a0, a1, a2, a3, a4, a5⟩ := hagree c
    refine ⟨?_, h4.trans a4, h0, h1, h2, h3, h4, h5⟩
    rw [h70, Cert.ReferenceIdeal.Hand.out_eq m' c (by rw [a0]; exact (hf c).1) (by rw [a3]; exact (hf c).2.1)
      (by rw [a4]; exact (hf c).2.2.1) (by rw [a5]; exact (hf c).2.2.2), a0, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
